-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x300 : Shape := ⟨2, ![1024, 300]⟩
abbrev S1024x128 : Shape := ⟨2, ![1024, 128]⟩
abbrev S1024x256x128 : Shape := ⟨3, ![1024, 256, 128]⟩
abbrev S1024x512 : Shape := ⟨2, ![1024, 512]⟩
abbrev S128x512 : Shape := ⟨2, ![128, 512]⟩
abbrev S128x128 : Shape := ⟨2, ![128, 128]⟩
abbrev S128x300 : Shape := ⟨2, ![128, 300]⟩
abbrev S512x128 : Shape := ⟨2, ![512, 128]⟩
abbrev S512x512 : Shape := ⟨2, ![512, 512]⟩
abbrev S1x512 : Shape := ⟨2, ![1, 512]⟩
abbrev S1536x128 : Shape := ⟨2, ![1536, 128]⟩
abbrev S1536x512 : Shape := ⟨2, ![1536, 512]⟩
abbrev S1536 : Shape := ⟨1, ![1536]⟩
abbrev S_ : Shape := ⟨0, ![]⟩

class Facts : Prop where
  bcast_S_S1024x300 : S_.BroadcastsInDim S1024x300 (![] : Fin 0 → Fin S1024x300.rank)
  reducesTo_S1024x300_S_d0_1 : S1024x300.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S1024x256x128 : S_.BroadcastsInDim S1024x256x128 (![] : Fin 0 → Fin S1024x256x128.rank)
  reducesTo_S1024x256x128_S_d0_1_2 : S1024x256x128.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S128x512 : S_.BroadcastsInDim S128x512 (![] : Fin 0 → Fin S128x512.rank)
  reducesTo_S128x512_S_d0_1 : S128x512.ReducesTo [0, 1] S_
  bcast_S_S128x128 : S_.BroadcastsInDim S128x128 (![] : Fin 0 → Fin S128x128.rank)
  reducesTo_S128x128_S_d0_1 : S128x128.ReducesTo [0, 1] S_
  bcast_S_S128x300 : S_.BroadcastsInDim S128x300 (![] : Fin 0 → Fin S128x300.rank)
  reducesTo_S128x300_S_d0_1 : S128x300.ReducesTo [0, 1] S_
  bcast_S_S512x128 : S_.BroadcastsInDim S512x128 (![] : Fin 0 → Fin S512x128.rank)
  reducesTo_S512x128_S_d0_1 : S512x128.ReducesTo [0, 1] S_
  bcast_S_S512x512 : S_.BroadcastsInDim S512x512 (![] : Fin 0 → Fin S512x512.rank)
  reducesTo_S512x512_S_d0_1 : S512x512.ReducesTo [0, 1] S_
  bcast_S_S1x512 : S_.BroadcastsInDim S1x512 (![] : Fin 0 → Fin S1x512.rank)
  reducesTo_S1x512_S_d0_1 : S1x512.ReducesTo [0, 1] S_
  bcast_S_S1536x128 : S_.BroadcastsInDim S1536x128 (![] : Fin 0 → Fin S1536x128.rank)
  reducesTo_S1536x128_S_d0_1 : S1536x128.ReducesTo [0, 1] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_

variable [Facts]

def fn_part6 {F : FTy → Type} [FloatOps F] (main_arg21 : FVec F S1536 .f32) (main_arg22 : FVec F S1536 .f32) (main_v98 : IVec S_ 1) (main_v101 : IVec S1536x512 1) (main_c_39 : IVec S_ 1) : IVec S_ 1 :=
  let main_v102 : IVec S_ 1 := (fun x v => Host.reduce IntOp.andi x v reducesTo_S1536x512_S_d0_1 h_S_) main_v101 main_c_39
  let main_v103 : IVec S_ 1 := andi main_v98 main_v102
  let main_v104 : FVec F S1536 .f32 := Host.absf main_arg21
  let main_cst_40 : FVec F S_ .f32 := constant S_ .f32 0x7F800000#32
  let main_v105 : FVec F S1536 .f32 := broadcastInDim S1536 ![] bcast_S_S1536 main_cst_40
  let main_v106 : IVec S1536 1 := cmpf .olt main_v104 main_v105
  let main_c_41 : IVec S_ 1 := constantI S_ 1 1#1
  let main_v107 : IVec S_ 1 := (fun x v => Host.reduce IntOp.andi x v reducesTo_S1536_S_d0 h_S_) main_v106 main_c_41
  let main_v108 : IVec S_ 1 := andi main_v103 main_v107
  let main_v109 : FVec F S1536 .f32 := Host.absf main_arg22
  let main_cst_42 : FVec F S_ .f32 := constant S_ .f32 0x7F800000#32
  let main_v110 : FVec F S1536 .f32 := broadcastInDim S1536 ![] bcast_S_S1536 main_cst_42
  let main_v111 : IVec S1536 1 := cmpf .olt main_v109 main_v110
  let main_c_43 : IVec S_ 1 := constantI S_ 1 1#1
  let main_v112 : IVec S_ 1 := (fun x v => Host.reduce IntOp.andi x v reducesTo_S1536_S_d0 h_S_) main_v111 main_c_43
  let main_v113 : IVec S_ 1 := andi main_v108 main_v112
  main_v113

def fn_part5 {F : FTy → Type} [FloatOps F] (main_arg18 : FVec F S1536 .f32) (main_arg19 : FVec F S1536x128 .f32) (main_arg20 : FVec F S1536x512 .f32) (main_arg21 : FVec F S1536 .f32) (main_arg22 : FVec F S1536 .f32) (main_v83 : IVec S_ 1) (main_v84 : FVec F S1536 .f32) (main_cst_32 : FVec F S_ .f32) : IVec S_ 1 :=
  let main_v85 : FVec F S1536 .f32 := broadcastInDim S1536 ![] bcast_S_S1536 main_cst_32
  let main_v86 : IVec S1536 1 := cmpf .olt main_v84 main_v85
  let main_c_33 : IVec S_ 1 := constantI S_ 1 1#1
  let main_v87 : IVec S_ 1 := (fun x v => Host.reduce IntOp.andi x v reducesTo_S1536_S_d0 h_S_) main_v86 main_c_33
  let main_v88 : IVec S_ 1 := andi main_v83 main_v87
  let main_v89 : FVec F S1536 .f32 := Host.absf main_arg18
  let main_cst_34 : FVec F S_ .f32 := constant S_ .f32 0x7F800000#32
  let main_v90 : FVec F S1536 .f32 := broadcastInDim S1536 ![] bcast_S_S1536 main_cst_34
  let main_v91 : IVec S1536 1 := cmpf .olt main_v89 main_v90
  let main_c_35 : IVec S_ 1 := constantI S_ 1 1#1
  let main_v92 : IVec S_ 1 := (fun x v => Host.reduce IntOp.andi x v reducesTo_S1536_S_d0 h_S_) main_v91 main_c_35
  let main_v93 : IVec S_ 1 := andi main_v88 main_v92
  let main_v94 : FVec F S1536x128 .f32 := Host.absf main_arg19
  let main_cst_36 : FVec F S_ .f32 := constant S_ .f32 0x7F800000#32
  let main_v95 : FVec F S1536x128 .f32 := broadcastInDim S1536x128 ![] bcast_S_S1536x128 main_cst_36
  let main_v96 : IVec S1536x128 1 := cmpf .olt main_v94 main_v95
  let main_c_37 : IVec S_ 1 := constantI S_ 1 1#1
  let main_v97 : IVec S_ 1 := (fun x v => Host.reduce IntOp.andi x v reducesTo_S1536x128_S_d0_1 h_S_) main_v96 main_c_37
  let main_v98 : IVec S_ 1 := andi main_v93 main_v97
  let main_v99 : FVec F S1536x512 .f32 := Host.absf main_arg20
  let main_cst_38 : FVec F S_ .f32 := constant S_ .f32 0x7F800000#32
  let main_v100 : FVec F S1536x512 .f32 := broadcastInDim S1536x512 ![] bcast_S_S1536x512 main_cst_38
  let main_v101 : IVec S1536x512 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S128x128 .f32) (main_arg15 : FVec F S1536x128 .f32) (main_arg16 : FVec F S1536x512 .f32) (main_arg17 : FVec F S1536 .f32) (main_arg18 : FVec F S1536 .f32) (main_arg19 : FVec F S1536x128 .f32) (main_arg20 : FVec F S1536x512 .f32) (main_arg21 : FVec F S1536 .f32) (main_arg22 : FVec F S1536 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S1536x128 .f32 := Host.absf main_arg15
  let main_cst_28 : FVec F S_ .f32 := constant S_ .f32 0x7F800000#32
  let main_v75 : FVec F S1536x128 .f32 := broadcastInDim S1536x128 ![] bcast_S_S1536x128 main_cst_28
  let main_v76 : IVec S1536x128 1 := cmpf .olt main_v74 main_v75
  let main_c_29 : IVec S_ 1 := constantI S_ 1 1#1
  let main_v77 : IVec S_ 1 := (fun x v => Host.reduce IntOp.andi x v reducesTo_S1536x128_S_d0_1 h_S_) main_v76 main_c_29
  let main_v78 : IVec S_ 1 := andi main_v73 main_v77
  let main_v79 : FVec F S1536x512 .f32 := Host.absf main_arg16
  let main_cst_30 : FVec F S_ .f32 := constant S_ .f32 0x7F800000#32
  let main_v80 : FVec F S1536x512 .f32 := broadcastInDim S1536x512 ![] bcast_S_S1536x512 main_cst_30
  let main_v81 : IVec S1536x512 1 := cmpf .olt main_v79 main_v80
  let main_c_31 : IVec S_ 1 := constantI S_ 1 1#1
  let main_v82 : IVec S_ 1 := (fun x v => Host.reduce IntOp.andi x v reducesTo_S1536x512_S_d0_1 h_S_) main_v81 main_c_31
  let main_v83 : IVec S_ 1 := andi main_v78 main_v82
  let main_v84 : FVec F S1536 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S1x512 .f32) (main_arg12 : FVec F S128x128 .f32) (main_arg13 : FVec F S128x512 .f32) (main_arg14 : FVec F S128x128 .f32) (main_arg15 : FVec F S1536x128 .f32) (main_arg16 : FVec F S1536x512 .f32) (main_arg17 : FVec F S1536 .f32) (main_arg18 : FVec F S1536 .f32) (main_arg19 : FVec F S1536x128 .f32) (main_arg20 : FVec F S1536x512 .f32) (main_arg21 : FVec F S1536 .f32) (main_arg22 : FVec F S1536 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S1x512 .f32 := Host.absf main_arg11
  let main_cst_20 : FVec F S_ .f32 := constant S_ .f32 0x7F800000#32
  let main_v55 : FVec F S1x512 .f32 := broadcastInDim S1x512 ![] bcast_S_S1x512 main_cst_20
  let main_v56 : IVec S1x512 1 := cmpf .olt main_v54 main_v55
  let main_c_21 : IVec S_ 1 := constantI S_ 1 1#1
  let main_v57 : IVec S_ 1 := (fun x v => Host.reduce IntOp.andi x v reducesTo_S1x512_S_d0_1 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x512 .f32 := Host.absf main_arg13
  let main_cst_24 : FVec F S_ .f32 := constant S_ .f32 0x7F800000#32
  let main_v65 : FVec F S128x512 .f32 := broadcastInDim S128x512 ![] bcast_S_S128x512 main_cst_24
  let main_v66 : IVec S128x512 1 := cmpf .olt main_v64 main_v65
  let main_c_25 : IVec S_ 1 := constantI S_ 1 1#1
  let main_v67 : IVec S_ 1 := (fun x v => Host.reduce IntOp.andi x v reducesTo_S128x512_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S128x300 .f32) (main_arg8 : FVec F S128x128 .f32) (main_arg9 : FVec F S512x128 .f32) (main_arg10 : FVec F S512x512 .f32) (main_arg11 : FVec F S1x512 .f32) (main_arg12 : FVec F S128x128 .f32) (main_arg13 : FVec F S128x512 .f32) (main_arg14 : FVec F S128x128 .f32) (main_arg15 : FVec F S1536x128 .f32) (main_arg16 : FVec F S1536x512 .f32) (main_arg17 : FVec F S1536 .f32) (main_arg18 : FVec F S1536 .f32) (main_arg19 : FVec F S1536x128 .f32) (main_arg20 : FVec F S1536x512 .f32) (main_arg21 : FVec F S1536 .f32) (main_arg22 : FVec F S1536 .f32) (main_v33 : IVec S_ 1) : IVec S_ 1 :=
  let main_v34 : FVec F S128x300 .f32 := Host.absf main_arg7
  let main_cst_12 : FVec F S_ .f32 := constant S_ .f32 0x7F800000#32
  let main_v35 : FVec F S128x300 .f32 := broadcastInDim S128x300 ![] bcast_S_S128x300 main_cst_12
  let main_v36 : IVec S128x300 1 := cmpf .olt main_v34 main_v35
  let main_c_13 : IVec S_ 1 := constantI S_ 1 1#1
  let main_v37 : IVec S_ 1 := (fun x v => Host.reduce IntOp.andi x v reducesTo_S128x300_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S512x128 .f32 := Host.absf main_arg9
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S1024x512 .f32) (main_arg5 : FVec F S128x512 .f32) (main_arg6 : FVec F S128x128 .f32) (main_arg7 : FVec F S128x300 .f32) (main_arg8 : FVec F S128x128 .f32) (main_arg9 : FVec F S512x128 .f32) (main_arg10 : FVec F S512x512 .f32) (main_arg11 : FVec F S1x512 .f32) (main_arg12 : FVec F S128x128 .f32) (main_arg13 : FVec F S128x512 .f32) (main_arg14 : FVec F S128x128 .f32) (main_arg15 : FVec F S1536x128 .f32) (main_arg16 : FVec F S1536x512 .f32) (main_arg17 : FVec F S1536 .f32) (main_arg18 : FVec F S1536 .f32) (main_arg19 : FVec F S1536x128 .f32) (main_arg20 : FVec F S1536x512 .f32) (main_arg21 : FVec F S1536 .f32) (main_arg22 : FVec F S1536 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S128x512 .f32 := Host.absf main_arg5
  let main_cst_8 : FVec F S_ .f32 := constant S_ .f32 0x7F800000#32
  let main_v25 : FVec F S128x512 .f32 := broadcastInDim S128x512 ![] bcast_S_S128x512 main_cst_8
  let main_v26 : IVec S128x512 1 := cmpf .olt main_v24 main_v25
  let main_c_9 : IVec S_ 1 := constantI S_ 1 1#1
  let main_v27 : IVec S_ 1 := (fun x v => Host.reduce IntOp.andi x v reducesTo_S128x512_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S1024x300 .f32) (main_arg1 : FVec F S1024x128 .f32) (main_arg2 : FVec F S1024x256x128 .f32) (main_arg3 : FVec F S1024x512 .f32) (main_arg4 : FVec F S1024x512 .f32) (main_arg5 : FVec F S128x512 .f32) (main_arg6 : FVec F S128x128 .f32) (main_arg7 : FVec F S128x300 .f32) (main_arg8 : FVec F S128x128 .f32) (main_arg9 : FVec F S512x128 .f32) (main_arg10 : FVec F S512x512 .f32) (main_arg11 : FVec F S1x512 .f32) (main_arg12 : FVec F S128x128 .f32) (main_arg13 : FVec F S128x512 .f32) (main_arg14 : FVec F S128x128 .f32) (main_arg15 : FVec F S1536x128 .f32) (main_arg16 : FVec F S1536x512 .f32) (main_arg17 : FVec F S1536 .f32) (main_arg18 : FVec F S1536 .f32) (main_arg19 : FVec F S1536x128 .f32) (main_arg20 : FVec F S1536x512 .f32) (main_arg21 : FVec F S1536 .f32) (main_arg22 : FVec F S1536 .f32) : IVec S_ 1 :=
  let main_v0 : FVec F S1024x300 .f32 := Host.absf main_arg0
  let main_cst : FVec F S_ .f32 := constant S_ .f32 0x7F800000#32
  let main_v1 : FVec F S1024x300 .f32 := broadcastInDim S1024x300 ![] bcast_S_S1024x300 main_cst
  let main_v2 : IVec S1024x300 1 := cmpf .olt main_v0 main_v1
  let main_c : IVec S_ 1 := constantI S_ 1 1#1
  let main_v3 : IVec S_ 1 := (fun x v => Host.reduce IntOp.andi x v reducesTo_S1024x300_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x256x128 .f32 := Host.absf main_arg2
  let main_cst_2 : FVec F S_ .f32 := constant S_ .f32 0x7F800000#32
  let main_v10 : FVec F S1024x256x128 .f32 := broadcastInDim S1024x256x128 ![] bcast_S_S1024x256x128 main_cst_2
  let main_v11 : IVec S1024x256x128 1 := cmpf .olt main_v9 main_v10
  let main_c_3 : IVec S_ 1 := constantI S_ 1 1#1
  let main_v12 : IVec S_ 1 := (fun x v => Host.reduce IntOp.andi x v reducesTo_S1024x256x128_S_d0_1_2 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S1024x300 : Shape := ⟨2, ![1024, 300]⟩
abbrev S1024x128 : Shape := ⟨2, ![1024, 128]⟩
abbrev S1024x256x128 : Shape := ⟨3, ![1024, 256, 128]⟩
abbrev S1024x512 : Shape := ⟨2, ![1024, 512]⟩
abbrev S128x512 : Shape := ⟨2, ![128, 512]⟩
abbrev S128x128 : Shape := ⟨2, ![128, 128]⟩
abbrev S128x300 : Shape := ⟨2, ![128, 300]⟩
abbrev S512x128 : Shape := ⟨2, ![512, 128]⟩
abbrev S512x512 : Shape := ⟨2, ![512, 512]⟩
abbrev S1x512 : Shape := ⟨2, ![1, 512]⟩
abbrev S1536x128 : Shape := ⟨2, ![1536, 128]⟩
abbrev S1536x512 : Shape := ⟨2, ![1536, 512]⟩
abbrev S1536 : Shape := ⟨1, ![1536]⟩
abbrev S1024x256 : Shape := ⟨2, ![1024, 256]⟩
abbrev S64x300 : Shape := ⟨2, ![64, 300]⟩
abbrev S64x128 : Shape := ⟨2, ![64, 128]⟩
abbrev S64x256x128 : Shape := ⟨3, ![64, 256, 128]⟩
abbrev S64x512 : Shape := ⟨2, ![64, 512]⟩
abbrev S64x256 : Shape := ⟨2, ![64, 256]⟩
abbrev S300x128 : Shape := ⟨2, ![300, 128]⟩
abbrev S128x1536 : Shape := ⟨2, ![128, 1536]⟩
abbrev S64x1536 : Shape := ⟨2, ![64, 1536]⟩
abbrev S1x1536 : Shape := ⟨2, ![1, 1536]⟩
abbrev S512x1536 : Shape := ⟨2, ![512, 1536]⟩
abbrev S512 : Shape := ⟨1, ![512]⟩
abbrev S64x64x128 : Shape := ⟨3, ![64, 64, 128]⟩
abbrev S4096x128 : Shape := ⟨2, ![4096, 128]⟩
abbrev S4096x512 : Shape := ⟨2, ![4096, 512]⟩
abbrev S64x64x512 : Shape := ⟨3, ![64, 64, 512]⟩
abbrev S64x1x512 : Shape := ⟨3, ![64, 1, 512]⟩
abbrev S1x1x512 : Shape := ⟨3, ![1, 1, 512]⟩
abbrev S64x64 : Shape := ⟨2, ![64, 64]⟩
abbrev S64 : Shape := ⟨1, ![64]⟩
abbrev S64x1 : Shape := ⟨2, ![64, 1]⟩
abbrev S64x64x1 : Shape := ⟨3, ![64, 64, 1]⟩
abbrev S1024x256x1 : Shape := ⟨3, ![1024, 256, 1]⟩

abbrev nBuf : Space → Nat
  | .hbm => 27
  | .vmem => 34
  | .smem => 0
  | _ => 0

abbrev bufTy : (tb : Table) → Fin (tcTables nBuf tb) → BufTy
  | .hbm, ⟨0, _⟩ => ⟨S1024x300, .f32⟩
  | .hbm, ⟨1, _⟩ => ⟨S1024x128, .f32⟩
  | .hbm, ⟨2, _⟩ => ⟨S1024x256x128, .f32⟩
  | .hbm, ⟨3, _⟩ => ⟨S1024x512, .f32⟩
  | .hbm, ⟨4, _⟩ => ⟨S1024x512, .f32⟩
  | .hbm, ⟨5, _⟩ => ⟨S128x512, .f32⟩
  | .hbm, ⟨6, _⟩ => ⟨S128x128, .f32⟩
  | .hbm, ⟨7, _⟩ => ⟨S128x300, .f32⟩
  | .hbm, ⟨8, _⟩ => ⟨S128x128, .f32⟩
  | .hbm, ⟨9, _⟩ => ⟨S512x128, .f32⟩
  | .hbm, ⟨10, _⟩ => ⟨S512x512, .f32⟩
  | .hbm, ⟨11, _⟩ => ⟨S1x512, .f32⟩
  | .hbm, ⟨12, _⟩ => ⟨S128x128, .f32⟩
  | .hbm, ⟨13, _⟩ => ⟨S128x512, .f32⟩
  | .hbm, ⟨14, _⟩ => ⟨S128x128, .f32⟩
  | .hbm, ⟨15, _⟩ => ⟨S1536x128, .f32⟩
  | .hbm, ⟨16, _⟩ => ⟨S1536x512, .f32⟩
  | .hbm, ⟨17, _⟩ => ⟨S1536, .f32⟩
  | .hbm, ⟨18, _⟩ => ⟨S1536, .f32⟩
  | .hbm, ⟨19, _⟩ => ⟨S1536x128, .f32⟩
  | .hbm, ⟨20, _⟩ => ⟨S1536x512, .f32⟩
  | .hbm, ⟨21, _⟩ => ⟨S1536, .f32⟩
  | .hbm, ⟨22, _⟩ => ⟨S1536, .f32⟩
  | .hbm, ⟨23, _⟩ => ⟨S1024x512, .f32⟩
  | .hbm, ⟨24, _⟩ => ⟨S1024x512, .f32⟩
  | .hbm, ⟨25, _⟩ => ⟨S1024x256, .f32⟩
  | .hbm, ⟨26, _⟩ => ⟨S1024x256x1, .f32⟩
  | .local _ .vmem, ⟨0, _⟩ => ⟨S64x300, .f32⟩
  | .local _ .vmem, ⟨1, _⟩ => ⟨S64x300, .f32⟩
  | .local _ .vmem, ⟨2, _⟩ => ⟨S64x128, .f32⟩
  | .local _ .vmem, ⟨3, _⟩ => ⟨S64x128, .f32⟩
  | .local _ .vmem, ⟨4, _⟩ => ⟨S64x256x128, .f32⟩
  | .local _ .vmem, ⟨5, _⟩ => ⟨S64x256x128, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S128x512, .f32⟩
  | .local _ .vmem, ⟨11, _⟩ => ⟨S128x128, .f32⟩
  | .local _ .vmem, ⟨12, _⟩ => ⟨S128x300, .f32⟩
  | .local _ .vmem, ⟨13, _⟩ => ⟨S128x128, .f32⟩
  | .local _ .vmem, ⟨14, _⟩ => ⟨S512x128, .f32⟩
  | .local _ .vmem, ⟨15, _⟩ => ⟨S512x512, .f32⟩
  | .local _ .vmem, ⟨16, _⟩ => ⟨S1x512, .f32⟩
  | .local _ .vmem, ⟨17, _⟩ => ⟨S128x128, .f32⟩
  | .local _ .vmem, ⟨18, _⟩ => ⟨S128x512, .f32⟩
  | .local _ .vmem, ⟨19, _⟩ => ⟨S128x128, .f32⟩
  | .local _ .vmem, ⟨20, _⟩ => ⟨S1536x128, .f32⟩
  | .local _ .vmem, ⟨21, _⟩ => ⟨S1536x512, .f32⟩
  | .local _ .vmem, ⟨22, _⟩ => ⟨S1536, .f32⟩
  | .local _ .vmem, ⟨23, _⟩ => ⟨S1536, .f32⟩
  | .local _ .vmem, ⟨24, _⟩ => ⟨S1536x128, .f32⟩
  | .local _ .vmem, ⟨25, _⟩ => ⟨S1536x512, .f32⟩
  | .local _ .vmem, ⟨26, _⟩ => ⟨S1536, .f32⟩
  | .local _ .vmem, ⟨27, _⟩ => ⟨S1536, .f32⟩
  | .local _ .vmem, ⟨28, _⟩ => ⟨S64x512, .f32⟩
  | .local _ .vmem, ⟨29, _⟩ => ⟨S64x512, .f32⟩
  | .local _ .vmem, ⟨30, _⟩ => ⟨S64x512, .f32⟩
  | .local _ .vmem, ⟨31, _⟩ => ⟨S64x512, .f32⟩
  | .local _ .vmem, ⟨32, _⟩ => ⟨S64x256, .f32⟩
  | .local _ .vmem, ⟨33, _⟩ => ⟨S64x256, .f32⟩
  | _, _ => ⟨S1024x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0_0 : Ref sig .tc := ⟨.hbm, 23, rfl⟩
abbrev main_v0_1 : Ref sig .tc := ⟨.hbm, 24, rfl⟩
abbrev main_v0_2 : Ref sig .tc := ⟨.hbm, 25, rfl⟩
abbrev main_v1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg23_0 : Ref sig .tc := ⟨.vmem, 28, rfl⟩
abbrev cc0_stg23_1 : Ref sig .tc := ⟨.vmem, 29, rfl⟩
abbrev cc0_stg24_0 : Ref sig .tc := ⟨.vmem, 30, rfl⟩
abbrev cc0_stg24_1 : Ref sig .tc := ⟨.vmem, 31, rfl⟩
abbrev cc0_stg25_0 : Ref sig .tc := ⟨.vmem, 32, rfl⟩
abbrev cc0_stg25_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem22_0 : DmaSem sig := 27
abbrev cc0_sem23_0 : DmaSem sig := 28
abbrev cc0_sem23_1 : DmaSem sig := 29
abbrev cc0_sem24_0 : DmaSem sig := 30
abbrev cc0_sem24_1 : DmaSem sig := 31
abbrev cc0_sem25_0 : DmaSem sig := 32
abbrev cc0_sem25_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x300 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1536x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1536x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1536 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1536 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1536x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1536x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1536 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1536 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S64x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S64x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S64x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

class Facts₀ : Prop where
  inb_S64x300_S64x300_0_0 : ∀ a, (![0, 0] : Fin 2 → Nat) a + S64x300.size a ≤ S64x300.size a
  h_S64x300 : 0 < S64x300.numel
  inb_S64x128_S64x128_0_0 : ∀ a, (![0, 0] : Fin 2 → Nat) a + S64x128.size a ≤ S64x128.size a
  h_S64x128 : 0 < S64x128.numel
  inb_S64x512_S64x512_0_0 : ∀ a, (![0, 0] : Fin 2 → Nat) a + S64x512.size a ≤ S64x512.size a
  h_S64x512 : 0 < S64x512.numel
  inb_S128x512_S128x512_0_0 : ∀ a, (![0, 0] : Fin 2 → Nat) a + S128x512.size a ≤ S128x512.size a
  h_S128x512 : 0 < S128x512.numel
  inb_S128x128_S128x128_0_0 : ∀ a, (![0, 0] : Fin 2 → Nat) a + S128x128.size a ≤ S128x128.size a
  h_S128x128 : 0 < S128x128.numel
  inb_S128x300_S128x300_0_0 : ∀ a, (![0, 0] : Fin 2 → Nat) a + S128x300.size a ≤ S128x300.size a
  h_S128x300 : 0 < S128x300.numel
  inb_S512x128_S512x128_0_0 : ∀ a, (![0, 0] : Fin 2 → Nat) a + S512x128.size a ≤ S512x128.size a
  h_S512x128 : 0 < S512x128.numel
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  inb_S1536x128_S1536x128_0_0 : ∀ a, (![0, 0] : Fin 2 → Nat) a + S1536x128.size a ≤ S1536x128.size a
  h_S1536x128 : 0 < S1536x128.numel
  inb_S1536x512_S1536x512_0_0 : ∀ a, (![0, 0] : Fin 2 → Nat) a + S1536x512.size a ≤ S1536x512.size a
  h_S1536x512 : 0 < S1536x512.numel
  inb_S1536_S1536_0 : ∀ a, (![0] : Fin 1 → Nat) a + S1536.size a ≤ S1536.size a
  h_S1536 : 0 < S1536.numel
  bitsLt_bf16_f32 : FTy.bits .bf16 < FTy.bits .f32
  transposes_S128x300_p1_0_S300x128 : S128x300.Transposes [1, 0] S300x128
  transposes_S128x512_p1_0_S512x128 : S128x512.Transposes [1, 0] S512x128
  transposes_S128x128_p1_0_S128x128 : S128x128.Transposes [1, 0] S128x128
  transposes_S1536x128_p1_0_S128x1536 : S1536x128.Transposes [1, 0] S128x1536
  shapeCasts_S1536_S1x1536 : S1536.ShapeCasts S1x1536
  broadcasts_S1x1536_S64x1536 : S1x1536.Broadcasts S64x1536
  transposes_S1536x512_p1_0_S512x1536 : S1536x512.Transposes [1, 0] S512x1536
  slices_S64x1536_o0_0_S64x512 : S64x1536.Slices ![0, 0] S64x512
  slices_S64x1536_o0_512_S64x512 : S64x1536.Slices ![0, 512] S64x512
  slices_S64x1536_o0_1024_S64x512 : S64x1536.Slices ![0, 1024] S64x512
  transposes_S512x512_p1_0_S512x512 : S512x512.Transposes [1, 0] S512x512
  shapeCasts_S1x512_S512 : S1x512.ShapeCasts S512
  inb_S64x256x128_S64x64x128_0_0_0 : ∀ a, (![0, 0, 0] : Fin 3 → Nat) a + S64x64x128.size a ≤ S64x256x128.size a
  h_S64x64x128 : 0 < S64x64x128.numel
  shapeCasts_S64x64x128_S4096x128 : S64x64x128.ShapeCasts S4096x128
  transposes_S512x128_p1_0_S128x512 : S512x128.Transposes [1, 0] S128x512
  shapeCasts_S4096x512_S64x64x512 : S4096x512.ShapeCasts S64x64x512
  shapeCasts_S64x512_S64x1x512 : S64x512.ShapeCasts S64x1x512
  broadcasts_S64x1x512_S64x64x512 : S64x1x512.Broadcasts S64x64x512
  shapeCasts_S512_S1x1x512 : S512.ShapeCasts S1x1x512
  broadcasts_S1x1x512_S64x64x512 : S1x1x512.Broadcasts S64x64x512
  reduces_S64x64x512_S64x64 : S64x64x512.Reduces [2] S64x64
  inb_S64x256x128_S64x64x128_0_64_0 : ∀ a, (![0, 64, 0] : Fin 3 → Nat) a + S64x64x128.size a ≤ S64x256x128.size a
  inb_S64x256x128_S64x64x128_0_128_0 : ∀ a, (![0, 128, 0] : Fin 3 → Nat) a + S64x64x128.size a ≤ S64x256x128.size a
  inb_S64x256x128_S64x64x128_0_192_0 : ∀ a, (![0, 192, 0] : Fin 3 → Nat) a + S64x64x128.size a ≤ S64x256x128.size a
  concatenates_S64x64_S64x64_S64x64_S64x64_S64x256_d1 : Shape.Concatenates [S64x64, S64x64, S64x64, S64x64] S64x256 1
  reduces_S64x256_S64 : S64x256.Reduces [1] S64
  shapeCasts_S64_S64x1 : S64.ShapeCasts S64x1
  broadcasts_S64x1_S64x256 : S64x1.Broadcasts S64x256
  slices_S64x256_o0_0_S64x64 : S64x256.Slices ![0, 0] S64x64
  shapeCasts_S64x64_S64x64x1 : S64x64.ShapeCasts S64x64x1
  broadcasts_S64x64x1_S64x64x128 : S64x64x1.Broadcasts S64x64x128
  reduces_S64x64x128_S64x128 : S64x64x128.Reduces [1] S64x128
  slices_S64x256_o0_64_S64x64 : S64x256.Slices ![0, 64] S64x64
  slices_S64x256_o0_128_S64x64 : S64x256.Slices ![0, 128] S64x64
  slices_S64x256_o0_192_S64x64 : S64x256.Slices ![0, 192] S64x64
  inb_S64x256_S64x256_0_0 : ∀ a, (![0, 0] : Fin 2 → Nat) a + S64x256.size a ≤ S64x256.size a
  h_S64x256 : 0 < S64x256.numel
  bcast_S1024x256_S1024x256x1_0_1 : S1024x256.BroadcastsInDim S1024x256x1 (![0, 1] : Fin 2 → Fin S1024x256x1.rank)
  dot_S64x300_S300x128_S64x128_1_0_0_1_n_n_wf : DotDims.WF S64x300 S300x128 S64x128 [1] [0] [0] [1] [] []
  dot_S64x512_S512x128_S64x128_1_0_0_1_n_n_wf : DotDims.WF S64x512 S512x128 S64x128 [1] [0] [0] [1] [] []
  dot_S64x128_S128x128_S64x128_1_0_0_1_n_n_wf : DotDims.WF S64x128 S128x128 S64x128 [1] [0] [0] [1] [] []
  dot_S64x128_S128x1536_S64x1536_1_0_0_1_n_n_wf : DotDims.WF S64x128 S128x1536 S64x1536 [1] [0] [0] [1] [] []
  dot_S64x512_S512x1536_S64x1536_1_0_0_1_n_n_wf : DotDims.WF S64x512 S512x1536 S64x1536 [1] [0] [0] [1] [] []
  dot_S64x512_S512x512_S64x512_1_0_0_1_n_n_wf : DotDims.WF S64x512 S512x512 S64x512 [1] [0] [0] [1] [] []
  dot_S4096x128_S128x512_S4096x512_1_0_0_1_n_n_wf : DotDims.WF S4096x128 S128x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x300.size a ≤ S1024x300.size a
  hwx0_0 : ∀ i : grid0.Coords, EltTy.bits .f32 = 32 ∨ (Rect.block (s := S1024x300) S64x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S1024x128.size a
  hwx0_1 : ∀ i : grid0.Coords, EltTy.bits .f32 = 32 ∨ (Rect.block (s := S1024x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256x128.size a ≤ S1024x256x128.size a
  hwx0_2 : ∀ i : grid0.Coords, EltTy.bits .f32 = 32 ∨ (Rect.block (s := S1024x256x128) S64x256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S1024x512.size a
  hwx0_3 : ∀ i : grid0.Coords, EltTy.bits .f32 = 32 ∨ (Rect.block (s := S1024x512) S64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x512.size a ≤ S1024x512.size a
  hwx0_4 : ∀ i : grid0.Coords, EltTy.bits .f32 = 32 ∨ (Rect.block (s := S1024x512) S64x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .f32 = 32 ∨ (Rect.block (s := S128x512) S128x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x300.size a ≤ S128x300.size a
  hwx0_7 : ∀ i : grid0.Coords, EltTy.bits .f32 = 32 ∨ (Rect.block (s := S128x300) S128x300.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S512x128.size a
  hwx0_9 : ∀ i : grid0.Coords, EltTy.bits .f32 = 32 ∨ (Rect.block (s := S512x128) S512x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .f32 = 32 ∨ (Rect.block (s := S512x512) S512x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x512.size a ≤ S128x512.size a
  hwx0_13 : ∀ i : grid0.Coords, EltTy.bits .f32 = 32 ∨ (Rect.block (s := S128x512) S128x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .f32 = 32 ∨ (Rect.block (s := S128x128) S128x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1536x128.size a ≤ S1536x128.size a
  hwx0_15 : ∀ i : grid0.Coords, EltTy.bits .f32 = 32 ∨ (Rect.block (s := S1536x128) S1536x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1536x512.size a ≤ S1536x512.size a
  hwx0_16 : ∀ i : grid0.Coords, EltTy.bits .f32 = 32 ∨ (Rect.block (s := S1536x512) S1536x512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1536.size a ≤ S1536.size a
  hwx0_17 : ∀ i : grid0.Coords, EltTy.bits .f32 = 32 ∨ (Rect.block (s := S1536) S1536.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1536.size a ≤ S1536.size a
  hwx0_18 : ∀ i : grid0.Coords, EltTy.bits .f32 = 32 ∨ (Rect.block (s := S1536) S1536.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1536x128.size a ≤ S1536x128.size a
  hwx0_19 : ∀ i : grid0.Coords, EltTy.bits .f32 = 32 ∨ (Rect.block (s := S1536x128) S1536x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1536x512.size a ≤ S1536x512.size a
  hwx0_20 : ∀ i : grid0.Coords, EltTy.bits .f32 = 32 ∨ (Rect.block (s := S1536x512) S1536x512.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1536.size a ≤ S1536.size a
  hwx0_21 : ∀ i : grid0.Coords, EltTy.bits .f32 = 32 ∨ (Rect.block (s := S1536) S1536.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1536.size a ≤ S1536.size a
  hwx0_22 : ∀ i : grid0.Coords, EltTy.bits .f32 = 32 ∨ (Rect.block (s := S1536) S1536.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S64x512.size a ≤ S1024x512.size a
  hwx0_23 : ∀ i : grid0.Coords, EltTy.bits .f32 = 32 ∨ (Rect.block (s := S1024x512) S64x512.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S64x512.size a ≤ S1024x512.size a
  hwx0_24 : ∀ i : grid0.Coords, EltTy.bits .f32 = 32 ∨ (Rect.block (s := S1024x512) S64x512.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S64x256.size a ≤ S1024x256.size a
  hwx0_25 : ∀ i : grid0.Coords, EltTy.bits .f32 = 32 ∨ (Rect.block (s := S1024x256) S64x256.size (cc0_transform_25 i) (hinb0_25 i)).WholeWords (EltTy.packing .f32)

variable [Facts₀]

def dot_S64x300_S300x128_S64x128_1_0_0_1_n_n : DotDims S64x300 S300x128 S64x128 where
  lhsContracting := [1]
  rhsContracting := [0]
  lhsNonContracting := [0]
  rhsNonContracting := [1]
  lhsBatch := []
  rhsBatch := []
  wf := dot_S64x300_S300x128_S64x128_1_0_0_1_n_n_wf
def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1536_S64x1536_1_0_0_1_n_n : DotDims S64x128 S128x1536 S64x1536 where
  lhsContracting := [1]
  rhsContracting := [0]
  lhsNonContracting := [0]
  rhsNonContracting := [1]
  lhsBatch := []
  rhsBatch := []
  wf := dot_S64x128_S128x1536_S64x1536_1_0_0_1_n_n_wf
def dot_S64x512_S512x1536_S64x1536_1_0_0_1_n_n : DotDims S64x512 S512x1536 S64x1536 where
  lhsContracting := [1]
  rhsContracting := [0]
  lhsNonContracting := [0]
  rhsNonContracting := [1]
  lhsBatch := []
  rhsBatch := []
  wf := dot_S64x512_S512x1536_S64x1536_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf

abbrev win0_0 : Pipeline.Window sig grid0 :=
  Pipeline.Window.ofSpec (Memref.whole main_arg0) S64x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x300.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S128x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S1536x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S1536x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S1536.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S1536.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S1536x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S1536x512.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S1536.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S1536.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v0_0) S64x512.size cc0_transform_23 reads0_23 true false 2 stage0_23 sem0_23
    hrank0 hreads0_23 hinb0_23 nbuf0_23 (Memref.isWhole_whole _) hwx0_23 hstage0_23

abbrev win0_24 : Pipeline.Window sig grid0 :=
  Pipeline.Window.ofSpec (Memref.whole main_v0_1) S64x512.size cc0_transform_24 reads0_24 true false 2 stage0_24 sem0_24
    hrank0 hreads0_24 hinb0_24 nbuf0_24 (Memref.isWhole_whole _) hwx0_24 hstage0_24

abbrev win0_25 : Pipeline.Window sig grid0 :=
  Pipeline.Window.ofSpec (Memref.whole main_v0_2) S64x256.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

class Facts : Prop extends Facts₀ where

variable [Facts]
-- ==== ReferenceIdeal.lean ====
abbrev S1024x300 : Shape := ⟨2, ![1024, 300]⟩
abbrev S1024x128 : Shape := ⟨2, ![1024, 128]⟩
abbrev S1024x256x128 : Shape := ⟨3, ![1024, 256, 128]⟩
abbrev S1024x512 : Shape := ⟨2, ![1024, 512]⟩
abbrev S128x512 : Shape := ⟨2, ![128, 512]⟩
abbrev S128x128 : Shape := ⟨2, ![128, 128]⟩
abbrev S128x300 : Shape := ⟨2, ![128, 300]⟩
abbrev S512x128 : Shape := ⟨2, ![512, 128]⟩
abbrev S512x512 : Shape := ⟨2, ![512, 512]⟩
abbrev S1x512 : Shape := ⟨2, ![1, 512]⟩
abbrev S1536x128 : Shape := ⟨2, ![1536, 128]⟩
abbrev S1536x512 : Shape := ⟨2, ![1536, 512]⟩
abbrev S1536 : Shape := ⟨1, ![1536]⟩
abbrev S300x128 : Shape := ⟨2, ![300, 128]⟩
abbrev S_ : Shape := ⟨0, ![]⟩
abbrev S128x1536 : Shape := ⟨2, ![128, 1536]⟩
abbrev S1024x1536 : Shape := ⟨2, ![1024, 1536]⟩
abbrev S1x1536 : Shape := ⟨2, ![1, 1536]⟩
abbrev S512x1536 : Shape := ⟨2, ![512, 1536]⟩
abbrev S1024x256x512 : Shape := ⟨3, ![1024, 256, 512]⟩
abbrev S1024x1x512 : Shape := ⟨3, ![1024, 1, 512]⟩
abbrev S1024x256x1 : Shape := ⟨3, ![1024, 256, 1]⟩
abbrev S1024x1 : Shape := ⟨2, ![1024, 1]⟩
abbrev S1024x1x1 : Shape := ⟨3, ![1024, 1, 1]⟩

abbrev nBuf : Space → Nat
  | .hbm => 160
  | .vmem => 0
  | .smem => 0
  | _ => 0

abbrev hbmTy0_0 (i : Nat) : BufTy := match i % 128 with
  | 0 => ⟨S1024x300, .f32⟩
  | 1 => ⟨S1024x128, .f32⟩
  | 2 => ⟨S1024x256x128, .f32⟩
  | 3 => ⟨S1024x512, .f32⟩
  | 4 => ⟨S1024x512, .f32⟩
  | 5 => ⟨S128x512, .f32⟩
  | 6 => ⟨S128x128, .f32⟩
  | 7 => ⟨S128x300, .f32⟩
  | 8 => ⟨S128x128, .f32⟩
  | 9 => ⟨S512x128, .f32⟩
  | 10 => ⟨S512x512, .f32⟩
  | 11 => ⟨S1x512, .f32⟩
  | 12 => ⟨S128x128, .f32⟩
  | 13 => ⟨S128x512, .f32⟩
  | 14 => ⟨S128x128, .f32⟩
  | 15 => ⟨S1536x128, .f32⟩
  | 16 => ⟨S1536x512, .f32⟩
  | 17 => ⟨S1536, .f32⟩
  | 18 => ⟨S1536, .f32⟩
  | 19 => ⟨S1536x128, .f32⟩
  | 20 => ⟨S1536x512, .f32⟩
  | 21 => ⟨S1536, .f32⟩
  | 22 => ⟨S1536, .f32⟩
  | 23 => ⟨S300x128, .f32⟩
  | 24 => ⟨S1024x128, .f32⟩
  | 25 => ⟨S512x128, .f32⟩
  | 26 => ⟨S1024x128, .f32⟩
  | 27 => ⟨S1024x128, .f32⟩
  | 28 => ⟨S128x128, .f32⟩
  | 29 => ⟨S1024x128, .f32⟩
  | 30 => ⟨S1024x128, .f32⟩
  | 31 => ⟨S1024x128, .f32⟩
  | 32 => ⟨S128x128, .f32⟩
  | 33 => ⟨S1024x128, .f32⟩
  | 34 => ⟨S_, .f32⟩
  | 35 => ⟨S1024x128, .f32⟩
  | 36 => ⟨S1024x128, .f32⟩
  | 37 => ⟨S128x1536, .f32⟩
  | 38 => ⟨S1024x1536, .f32⟩
  | 39 => ⟨S1x1536, .f32⟩
  | 40 => ⟨S1024x1536, .f32⟩
  | 41 => ⟨S1024x1536, .f32⟩
  | 42 => ⟨S512x1536, .f32⟩
  | 43 => ⟨S1024x1536, .f32⟩
  | 44 => ⟨S1x1536, .f32⟩
  | 45 => ⟨S1024x1536, .f32⟩
  | 46 => ⟨S1024x1536, .f32⟩
  | 47 => ⟨S1024x512, .f32⟩
  | 48 => ⟨S1024x512, .f32⟩
  | 49 => ⟨S1024x512, .f32⟩
  | 50 => ⟨S1024x512, .f32⟩
  | 51 => ⟨S1024x512, .f32⟩
  | 52 => ⟨S1024x512, .f32⟩
  | 53 => ⟨S1024x512, .f32⟩
  | 54 => ⟨S1024x512, .f32⟩
  | 55 => ⟨S1024x512, .f32⟩
  | 56 => ⟨S_, .f32⟩
  | 57 => ⟨S1024x512, .f32⟩
  | 58 => ⟨S1024x512, .f32⟩
  | 59 => ⟨S_, .f32⟩
  | 60 => ⟨S1024x512, .f32⟩
  | 61 => ⟨S1024x512, .f32⟩
  | 62 => ⟨S1024x512, .f32⟩
  | 63 => ⟨S1024x512, .f32⟩
  | 64 => ⟨S1024x512, .f32⟩
  | 65 => ⟨S_, .f32⟩
  | 66 => ⟨S1024x512, .f32⟩
  | 67 => ⟨S1024x512, .f32⟩
  | 68 => ⟨S_, .f32⟩
  | 69 => ⟨S1024x512, .f32⟩
  | 70 => ⟨S1024x512, .f32⟩
  | 71 => ⟨S1024x512, .f32⟩
  | 72 => ⟨S1024x512, .f32⟩
  | 73 => ⟨S1024x512, .f32⟩
  | 74 => ⟨S_, .f32⟩
  | 75 => ⟨S1024x512, .f32⟩
  | 76 => ⟨S1024x512, .f32⟩
  | 77 => ⟨S1024x512, .f32⟩
  | 78 => ⟨S1024x512, .f32⟩
  | 79 => ⟨S1024x512, .f32⟩
  | 80 => ⟨S1024x256x512, .f32⟩
  | 81 => ⟨S512x512, .f32⟩
  | 82 => ⟨S1024x512, .f32⟩
  | 83 => ⟨S1024x1x512, .f32⟩
  | 84 => ⟨S1024x256x512, .f32⟩
  | 85 => ⟨S1024x256x512, .f32⟩
  | 86 => ⟨S1024x256x512, .f32⟩
  | 87 => ⟨S1024x256x1, .f32⟩
  | 88 => ⟨S_, .f32⟩
  | 89 => ⟨S1024x1, .f32⟩
  | 90 => ⟨S_, .f32⟩
  | 91 => ⟨S1024x1, .f32⟩
  | 92 => ⟨S1024x1, .f32⟩
  | 93 => ⟨S1024x1x1, .f32⟩
  | 94 => ⟨S1024x256x1, .f32⟩
  | 95 => ⟨S1024x256x1, .f32⟩
  | 96 => ⟨S1024x256x1, .f32⟩
  | 97 => ⟨S_, .f32⟩
  | 98 => ⟨S1024x1, .f32⟩
  | 99 => ⟨S1024x1x1, .f32⟩
  | 100 => ⟨S1024x256x1, .f32⟩
  | 101 => ⟨S1024x256x1, .f32⟩
  | 102 => ⟨S1024x256x128, .f32⟩
  | 103 => ⟨S1024x256x128, .f32⟩
  | 104 => ⟨S_, .f32⟩
  | 105 => ⟨S1024x128, .f32⟩
  | 106 => ⟨S128x128, .f32⟩
  | 107 => ⟨S1024x128, .f32⟩
  | 108 => ⟨S512x128, .f32⟩
  | 109 => ⟨S1024x128, .f32⟩
  | 110 => ⟨S1024x128, .f32⟩
  | 111 => ⟨S1024x128, .f32⟩
  | 112 => ⟨S128x128, .f32⟩
  | 113 => ⟨S1024x128, .f32⟩
  | 114 => ⟨S_, .f32⟩
  | 115 => ⟨S1024x128, .f32⟩
  | 116 => ⟨S1024x128, .f32⟩
  | 117 => ⟨S128x1536, .f32⟩
  | 118 => ⟨S1024x1536, .f32⟩
  | 119 => ⟨S1x1536, .f32⟩
  | 120 => ⟨S1024x1536, .f32⟩
  | 121 => ⟨S1024x1536, .f32⟩
  | 122 => ⟨S512x1536, .f32⟩
  | 123 => ⟨S1024x1536, .f32⟩
  | 124 => ⟨S1x1536, .f32⟩
  | 125 => ⟨S1024x1536, .f32⟩
  | 126 => ⟨S1024x1536, .f32⟩
  | 127 => ⟨S1024x512, .f32⟩
  | _ => ⟨S1024x300, .f32⟩

abbrev hbmTy0_1 (i : Nat) : BufTy := match i % 128 with
  | 0 => ⟨S1024x512, .f32⟩
  | 1 => ⟨S1024x512, .f32⟩
  | 2 => ⟨S1024x512, .f32⟩
  | 3 => ⟨S1024x512, .f32⟩
  | 4 => ⟨S1024x512, .f32⟩
  | 5 => ⟨S1024x512, .f32⟩
  | 6 => ⟨S1024x512, .f32⟩
  | 7 => ⟨S1024x512, .f32⟩
  | 8 => ⟨S_, .f32⟩
  | 9 => ⟨S1024x512, .f32⟩
  | 10 => ⟨S1024x512, .f32⟩
  | 11 => ⟨S_, .f32⟩
  | 12 => ⟨S1024x512, .f32⟩
  | 13 => ⟨S1024x512, .f32⟩
  | 14 => ⟨S1024x512, .f32⟩
  | 15 => ⟨S1024x512, .f32⟩
  | 16 => ⟨S1024x512, .f32⟩
  | 17 => ⟨S_, .f32⟩
  | 18 => ⟨S1024x512, .f32⟩
  | 19 => ⟨S1024x512, .f32⟩
  | 20 => ⟨S_, .f32⟩
  | 21 => ⟨S1024x512, .f32⟩
  | 22 => ⟨S1024x512, .f32⟩
  | 23 => ⟨S1024x512, .f32⟩
  | 24 => ⟨S1024x512, .f32⟩
  | 25 => ⟨S1024x512, .f32⟩
  | 26 => ⟨S_, .f32⟩
  | 27 => ⟨S1024x512, .f32⟩
  | 28 => ⟨S1024x512, .f32⟩
  | 29 => ⟨S1024x512, .f32⟩
  | 30 => ⟨S1024x512, .f32⟩
  | 31 => ⟨S1024x512, .f32⟩
  | _ => ⟨S1024x300, .f32⟩

abbrev hbmTy (i : Nat) : BufTy := match i / 128 with
  | 0 => hbmTy0_0 i
  | 1 => hbmTy0_1 i
  | _ => ⟨S1024x300, .f32⟩

abbrev bufTy : (tb : Table) → Fin (tcTables nBuf tb) → BufTy
  | .hbm, ⟨i, _⟩ => hbmTy i
  | _, _ => ⟨S1024x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_call0_cst : Ref sig .tc := ⟨.hbm, 34, rfl⟩
abbrev main_call0_v0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst : Ref sig .tc := ⟨.hbm, 56, rfl⟩
abbrev main_v31 : Ref sig .tc := ⟨.hbm, 57, rfl⟩
abbrev main_v32 : Ref sig .tc := ⟨.hbm, 58, rfl⟩
abbrev main_cst_0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_1 : Ref sig .tc := ⟨.hbm, 65, rfl⟩
abbrev main_v38 : Ref sig .tc := ⟨.hbm, 66, rfl⟩
abbrev main_v39 : Ref sig .tc := ⟨.hbm, 67, rfl⟩
abbrev main_cst_2 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_3 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_4 : Ref sig .tc := ⟨.hbm, 88, rfl⟩
abbrev main_v58 : Ref sig .tc := ⟨.hbm, 89, rfl⟩
abbrev main_cst_5 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_6 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_7 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_call1_cst : Ref sig .tc := ⟨.hbm, 114, rfl⟩
abbrev main_call1_v0 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_8 : Ref sig .tc := ⟨.hbm, 136, rfl⟩
abbrev main_v100 : Ref sig .tc := ⟨.hbm, 137, rfl⟩
abbrev main_v101 : Ref sig .tc := ⟨.hbm, 138, rfl⟩
abbrev main_cst_9 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_10 : Ref sig .tc := ⟨.hbm, 145, rfl⟩
abbrev main_v107 : Ref sig .tc := ⟨.hbm, 146, rfl⟩
abbrev main_v108 : Ref sig .tc := ⟨.hbm, 147, rfl⟩
abbrev main_cst_11 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_12 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩

abbrev nD : Nat := 1
abbrev τ : Topo := Topo.v7x

variable {F : FTy → Type} [FloatOps F]

class Facts₀ : Prop where
  transposes_S128x300_S300x128_1_0 : S128x300.Transposes [1, 0] S300x128
  transposes_S128x512_S512x128_1_0 : S128x512.Transposes [1, 0] S512x128
  transposes_S128x128_S128x128_1_0 : S128x128.Transposes [1, 0] S128x128
  bcast_S_S1024x128 : S_.BroadcastsInDim S1024x128 (![] : Fin 0 → Fin S1024x128.rank)
  transposes_S1536x128_S128x1536_1_0 : S1536x128.Transposes [1, 0] S128x1536
  bcast_S1536_S1x1536_1 : S1536.BroadcastsInDim S1x1536 (![1] : Fin 1 → Fin S1x1536.rank)
  bcast_S1x1536_S1024x1536_0_1 : S1x1536.BroadcastsInDim S1024x1536 (![0, 1] : Fin 2 → Fin S1024x1536.rank)
  transposes_S1536x512_S512x1536_1_0 : S1536x512.Transposes [1, 0] S512x1536
  slices_S1024x1536_S1024x512_0_0 : S1024x1536.Slices ![0, 0] S1024x512
  slices_S1024x1536_S1024x512_0_512 : S1024x1536.Slices ![0, 512] S1024x512
  slices_S1024x1536_S1024x512_0_1024 : S1024x1536.Slices ![0, 1024] S1024x512
  bcast_S_S1024x512 : S_.BroadcastsInDim S1024x512 (![] : Fin 0 → Fin S1024x512.rank)
  transposes_S512x512_S512x512_1_0 : S512x512.Transposes [1, 0] S512x512
  bcast_S1024x512_S1024x1x512_0_2 : S1024x512.BroadcastsInDim S1024x1x512 (![0, 2] : Fin 2 → Fin S1024x1x512.rank)
  bcast_S1024x1x512_S1024x256x512_0_1_2 : S1024x1x512.BroadcastsInDim S1024x256x512 (![0, 1, 2] : Fin 3 → Fin S1024x256x512.rank)
  reducesTo_S1024x256x1_S1024x1_d1 : S1024x256x1.ReducesTo [1] S1024x1
  h_S_ : 0 < S_.numel
  bcast_S_S1024x1 : S_.BroadcastsInDim S1024x1 (![] : Fin 0 → Fin S1024x1.rank)
  bcast_S1024x1_S1024x1x1_0_2 : S1024x1.BroadcastsInDim S1024x1x1 (![0, 2] : Fin 2 → Fin S1024x1x1.rank)
  bcast_S1024x1x1_S1024x256x1_0_1_2 : S1024x1x1.BroadcastsInDim S1024x256x1 (![0, 1, 2] : Fin 3 → Fin S1024x256x1.rank)
  bcast_S1024x256x1_S1024x256x128_0_1_2 : S1024x256x1.BroadcastsInDim S1024x256x128 (![0, 1, 2] : Fin 3 → Fin S1024x256x128.rank)
  reducesTo_S1024x256x128_S1024x128_d1 : S1024x256x128.ReducesTo [1] S1024x128
  dot_S1024x300_S300x128_S1024x128_1_0_0_1_n_n_wf : DotDims.WF S1024x300 S300x128 S1024x128 [1] [0] [0] [1] [] []
  dot_S1024x512_S512x128_S1024x128_1_0_0_1_n_n_wf : DotDims.WF S1024x512 S512x128 S1024x128 [1] [0] [0] [1] [] []
  dot_S1024x128_S128x128_S1024x128_1_0_0_1_n_n_wf : DotDims.WF S1024x128 S128x128 S1024x128 [1] [0] [0] [1] [] []
  dot_S1024x128_S128x1536_S1024x1536_1_0_0_1_n_n_wf : DotDims.WF S1024x128 S128x1536 S1024x1536 [1] [0] [0] [1] [] []
  dot_S1024x512_S512x1536_S1024x1536_1_0_0_1_n_n_wf : DotDims.WF S1024x512 S512x1536 S1024x1536 [1] [0] [0] [1] [] []
  dot_S1024x256x128_S512x128_S1024x256x512_2_1_01_0_n_n_wf : DotDims.WF S1024x256x128 S512x128 S1024x256x512 [2] [1] [0, 1] [0] [] []
  dot_S1024x512_S512x512_S1024x512_1_0_0_1_n_n_wf : DotDims.WF S1024x512 S512x512 S1024x512 [1] [0] [0] [1] [] []
  dot_S1024x256x512_S1x512_S1024x256x1_2_1_01_0_n_n_wf : DotDims.WF S1024x256x512 S1x512 S1024x256x1 [2] [1] [0, 1] [0] [] []

variable [Facts₀]

def dot_S1024x300_S300x128_S1024x128_1_0_0_1_n_n : DotDims S1024x300 S300x128 S1024x128 where
  lhsContracting := [1]
  rhsContracting := [0]
  lhsNonContracting := [0]
  rhsNonContracting := [1]
  lhsBatch := []
  rhsBatch := []
  wf := dot_S1024x300_S300x128_S1024x128_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1536_S1024x1536_1_0_0_1_n_n : DotDims S1024x128 S128x1536 S1024x1536 where
  lhsContracting := [1]
  rhsContracting := [0]
  lhsNonContracting := [0]
  rhsNonContracting := [1]
  lhsBatch := []
  rhsBatch := []
  wf := dot_S1024x128_S128x1536_S1024x1536_1_0_0_1_n_n_wf
def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S1024x256x128_S512x128_S1024x256x512_2_1_01_0_n_n : DotDims S1024x256x128 S512x128 S1024x256x512 where
  lhsContracting := [2]
  rhsContracting := [1]
  lhsNonContracting := [0, 1]
  rhsNonContracting := [0]
  lhsBatch := []
  rhsBatch := []
  wf := dot_S1024x256x128_S512x128_S1024x256x512_2_1_01_0_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x256x512_S1x512_S1024x256x1_2_1_01_0_n_n : DotDims S1024x256x512 S1x512 S1024x256x1 where
  lhsContracting := [2]
  rhsContracting := [1]
  lhsNonContracting := [0, 1]
  rhsNonContracting := [0]
  lhsBatch := []
  rhsBatch := []
  wf := dot_S1024x256x512_S1x512_S1024x256x1_2_1_01_0_n_n_wf

class Facts : Prop extends Facts₀ where

variable [Facts]
-- ==== Proof.BlocksRun.lean ====
/-
  What the program leaves in its three results. The sixteen blocks write the two new states and the
  attention weights through their windows, so those arrays end as the blocks' contributions laid over
  them; one host operation after the blocks gives the weights a trailing axis of length one.
-/
import proofs.«129328_j52226802320074_1_alg».proof.Proof.Gen.KernelIdeal.Frame
import Idealize.ShloMosaic.Lib.StableHlo.Run
import Idealize.ShloMosaic.PureOps.Ideal
import Idealize.ShloMosaic.Lib.Pipeline.Frame
import Idealize.ShloMosaic.Lib.Pipeline.FrameSuffix

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-- The buffer of the weights with the trailing axis is no window's array and is not scoped. -/
theorem main_v1_rest : main_v1 ∈ Pipeline.restRefs sig spec0 :=
  Pipeline.mem_restRefs_of main_v1 rfl (by decide)

/-- After the one host operation that follows the blocks, the buffer of the weights with the trailing axis
    holds the weights' array (the last window's) with an axis of length one appended. -/
theorem tail_main_v1 (c : Dev nD) :
    Pipeline.afterTail₀ cfgs (dats m) 0 (V0 m) [hostOps1] c main_v1
      = broadcastInDim S1024x256x1 ![0, 1] bcast_S1024x256_S1024x256x1_0_1 ((dats m 0 c).arrAt 25 cfg0.N) := by
  unfold Pipeline.afterTail₀
  show StableHlo.after hostOps1 _ (Proc.devRef .tc main_v1) = _
  after_results
  exact congrArg _ (Pipeline.withArrays_arr spec0 launch0.win.arr_inj c _ _ 25)

/-- Every run of the program ends with the two new states in the arrays of windows 23 and 24 and the
    weights, with their trailing axis, computed from the array of window 25. -/
theorem run_named : θ_run defs (onTc (τ := τ) (main (F := Ideal))) ⟨m, fun _ => 0, ρ⟩ (fun r => ∀ c : Dev nD,
      r.2.mem ((c.tc : Thread nD τ).loc main_v0_0) = (dats m 0 c).arrAt 23 cfg0.N
      ∧ r.2.mem ((c.tc : Thread nD τ).loc main_v0_1) = (dats m 0 c).arrAt 24 cfg0.N
      ∧ r.2.mem ((c.tc : Thread nD τ).loc main_v1) = broadcastInDim S1024x256x1 ![0, 1] bcast_S1024x256_S1024x256x1_0_1 ((dats m 0 c).arrAt 25 cfg0.N)) :=
  (θ_run defs _ _).mono (fun _ h c => ⟨(h c).1 23, (h c).1 24, ((h c).2 main_v1 main_v1_rest).trans (tail_main_v1 m c)⟩)
    (run_main m ρ)

end Cert.KernelIdeal.Blocks

end
-- ==== Proof.Rows.lean ====
/-
  The batch axis is cut into sixteen blocks of sixty-four rows, and the proposal axis into four
  chunks of sixty-four proposals. This module names a row of a block as a row of the whole batch,
  a proposal of a chunk as a proposal of the whole axis, and says what it means for a vector to be
  one block of rows (or one block of rows and one chunk of proposals) of a whole array.
-/
import Idealize.ShloMosaic.PureOps.Ideal
import Idealize.ShloMosaic.Lib.ValueIdx

namespace Cert.Bridge

open Idealize.ShloMosaic Idealize.ShloMosaic.ValueIdx

/-- Row `r` of block `t` is row `64 t + r` of the batch. -/
def rowOf (t : Fin 16) (r : Fin 64) : Fin 1024 := ⟨64 * t.val + r.val, by omega⟩

@[simp] theorem rowOf_val (t : Fin 16) (r : Fin 64) : (rowOf t r).val = 64 * t.val + r.val := rfl

/-- Proposal `q` of chunk `k` is proposal `64 k + q`. -/
def propOf (k : Fin 4) (q : Fin 64) : Fin 256 := ⟨64 * k.val + q.val, by omega⟩

@[simp] theorem propOf_val (k : Fin 4) (q : Fin 64) : (propOf k q).val = 64 * k.val + q.val := rfl

/-- `b` holds rows `64 t … 64 t + 63` of the matrix `X`. -/
def RowBlk {n : Nat} (t : Fin 16) (b : FVec Ideal ⟨2, ![64, n]⟩ .f32) (X : FVec Ideal ⟨2, ![1024, n]⟩ .f32) : Prop :=
  ∀ (r : Fin 64) (c : Fin n), b (ix2 r c) = X (ix2 (rowOf t r) c)

/-- `ch` holds, of the rank-three array `X`, the rows of block `t` and the proposals of chunk `k`. -/
def ChunkBlk (t : Fin 16) (k : Fin 4) (ch : FVec Ideal ⟨3, ![64, 64, 128]⟩ .f32) (X : FVec Ideal ⟨3, ![1024, 256, 128]⟩ .f32) : Prop :=
  ∀ (r : Fin 64) (q : Fin 64) (f : Fin 128), ch (ix3 r q f) = X (ix3 (rowOf t r) (propOf k q) f)

end Cert.Bridge
-- ==== Proof.KDefs.lean ====
/-
  Names for four pieces of arithmetic that the kernel's body spells several times over:
  the projection of one chunk of proposals' features, a chunk's attention scores, the softmax of a
  row of scores laid out as four chunks, and a chunk's share of the attention-weighted feature sum.
  Each stored value of the body is one of these applied to the others; the equations below say which.
-/
import proofs.«129328_j52226802320074_1_alg».proof.Proof.Gen.KernelIdeal.Skeleton

noncomputable section

namespace Cert.KernelIdeal.Pieces

open Idealize.ShloMosaic Cert.KernelIdeal Cert.KernelIdeal.Gen

variable {F : FTy → Type} [FloatOps F]

/-- One chunk of proposals (64 rows × 64 proposals × 128 features, read as 4096 × 128) times the
    transposed feature weights: a 4096 × 512 matrix of projected features. -/
def featProj (W : Vec F S512x128 .f32) (ch : Vec F S64x64x128 .f32) : FVec F S4096x512 .f32 :=
  matmul dot_S4096x128_S128x512_S4096x512_1_0_0_1_n_n none
    (truncf .bf16 (shapeCast S4096x128 ch shapeCasts_S64x64x128_S4096x128) bitsLt_bf16_f32)
    (transpose S128x512 [1, 0] (truncf .bf16 W bitsLt_bf16_f32) transposes_S512x128_p1_0_S128x512)
    (constant S4096x512 .f32 0x00000000#32)

/-- A chunk's scores: `∑ₕ tanh(fp[r, q, h] + hp[r, h]) · wa[h]`. -/
def chunkScore (hp : FVec F S64x512 .f32) (wa : FVec F S512 .f32) (fp : FVec F S4096x512 .f32) : FVec F S64x64 .f32 :=
  multiReduction .add [2] S64x64
    (mulf (tanh (addf (shapeCast S64x64x512 fp shapeCasts_S4096x512_S64x64x512)
                      (broadcastTo S64x64x512 (shapeCast S64x1x512 hp shapeCasts_S64x512_S64x1x512) broadcasts_S64x1x512_S64x64x512)))
          (broadcastTo S64x64x512 (shapeCast S1x1x512 wa shapeCasts_S512_S1x1x512) broadcasts_S1x1x512_S64x64x512))
    0x00000000#32 reduces_S64x64x512_S64x64 (.inl rfl) rfl

/-- The four chunks of scores side by side. -/
def scoreRow (s0 s1 s2 s3 : FVec F S64x64 .f32) : FVec F S64x256 .f32 :=
  concatenate S64x256 1 [⟨S64x64, s0⟩, ⟨S64x64, s1⟩, ⟨S64x64, s2⟩, ⟨S64x64, s3⟩] concatenates_S64x64_S64x64_S64x64_S64x64_S64x256_d1

/-- Softmax along a row of 256 scores: subtract the row's maximum, exponentiate, divide by the row's sum. -/
def rowSoftmax (s : FVec F S64x256 .f32) : FVec F S64x256 .f32 :=
  have e : FVec F S64x256 .f32 :=
    exp (subf s (broadcastTo S64x256 (shapeCast S64x1
      (maximumf (broadcast S64 (Scalar.ofBits .f32 0xFF800000#32))
        (multiReduction .maximumf [1] S64 s 0xFF800000#32 reduces_S64x256_S64 (.inl rfl) rfl)) shapeCasts_S64_S64x1) broadcasts_S64x1_S64x256))
  divf e (broadcastTo S64x256 (shapeCast S64x1 (multiReduction .add [1] S64 e 0x00000000#32 reduces_S64x256_S64 (.inl rfl) rfl) shapeCasts_S64_S64x1) broadcasts_S64x1_S64x256)

/-- A chunk's share of the weighted feature sum: `∑_q ch[r, q, f] · w[r, off + q]`, the weights a 64-wide
    band of the softmax row starting at column `off 1`. -/
def weightedChunk (off : Fin 2 → Nat) (hs : S64x256.Slices off S64x64) (w : FVec F S64x256 .f32) (ch : Vec F S64x64x128 .f32) : FVec F S64x128 .f32 :=
  multiReduction .add [1] S64x128
    (mulf ch (broadcastTo S64x64x128 (shapeCast S64x64x1 (extractStridedSlice S64x64 off w hs) shapeCasts_S64x64_S64x64x1) broadcasts_S64x64x1_S64x64x128))
    0x00000000#32 reduces_S64x64x128_S64x128 (.inl rfl) rfl

/-! The body's stored values in these names. -/

theorem pay10_eq (v2 : Vec F S64x512 .f32) (v8 : Vec F S512x128 .f32) (v9 : Vec F S512x512 .f32) (v10 : Vec F S1x512 .f32)
    (v66 v69 v70 : FVec F S64x512 .f32) (v80 : Vec F S64x64x128 .f32) :
    k0_pay10 v2 v8 v9 v10 v66 v69 v70 v80 = chunkScore (k0_pay8 v2 v9 v66 v69 v70) (k0_pay9 v10) (featProj v8 v80) := rfl

theorem pay11_eq (v2 : Vec F S64x512 .f32) (v8 : Vec F S512x128 .f32) (v9 : Vec F S512x512 .f32) (v10 : Vec F S1x512 .f32)
    (v66 v69 v70 : FVec F S64x512 .f32) (v95 : Vec F S64x64x128 .f32) :
    k0_pay11 v2 v8 v9 v10 v66 v69 v70 v95 = chunkScore (k0_pay8 v2 v9 v66 v69 v70) (k0_pay9 v10) (featProj v8 v95) := rfl

theorem pay12_eq (v8 : Vec F S512x128 .f32) (v110 : Vec F S64x64x128 .f32) : k0_pay12 v8 v110 = featProj v8 v110 := rfl

theorem pay13_eq (v8 : Vec F S512x128 .f32) (v78 : FVec F S64x512 .f32) (v79 : FVec F S512 .f32) (v94 v109 : FVec F S64x64 .f32)
    (v115 : FVec F S4096x512 .f32) (v125 : Vec F S64x64x128 .f32) :
    k0_pay13 v8 v78 v79 v94 v109 v115 v125
      = rowSoftmax (scoreRow v94 v109 (chunkScore v78 v79 v115) (chunkScore v78 v79 (featProj v8 v125))) := rfl

theorem pay14_eq (v8 : Vec F S512x128 .f32) (v78 : FVec F S64x512 .f32) (v79 : FVec F S512 .f32) (v94 v109 : FVec F S64x64 .f32)
    (v115 : FVec F S4096x512 .f32) (v125 v153 : Vec F S64x64x128 .f32) :
    k0_pay14 v8 v78 v79 v94 v109 v115 v125 v153
      = addf (broadcast S64x128 (Scalar.ofBits .f32 0x00000000#32))
          (weightedChunk ![0, 0] slices_S64x256_o0_0_S64x64 (k0_pay13 v8 v78 v79 v94 v109 v115 v125) v153) := rfl

end Cert.KernelIdeal.Pieces

end
-- ==== Proof.KMatmul.lean ====
/-
  A block product of the body, read at one entry. Every product in the body has the shape
  `x · wᵀ`: the left factor narrowed to bf16, the weight matrix narrowed and transposed, the
  accumulator zero. Over the extended reals narrowing changes nothing, so entry (r, c) of the
  product is `∑ₖ x[r, k] · w[c, k]`. One statement per pair of shapes the body multiplies.
-/
import proofs.«129328_j52226802320074_1_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.Products

open Idealize.ShloMosaic Idealize.ShloMosaic.ValueIdx Cert.KernelIdeal Cert.KernelIdeal.Gen

/-- Left operand of the 64×300 by 300×128 product: the row coordinate is the output's row. -/
theorem lhs_64x300_128_0 (i : S64x128.Idx) (q : dot_S64x300_S300x128_S64x128_1_0_0_1_n_n.contr.Idx) :
    (dot_S64x300_S300x128_S64x128_1_0_0_1_n_n.lhsIdx i q 0).val = (i 0).val := by
  unfold DotDims.lhsIdx
  rw [dif_neg (show ¬(0 : Fin S64x300.rank) ∈ dot_S64x300_S300x128_S64x128_1_0_0_1_n_n.lhsBatch by decide), dif_pos (show (0 : Fin S64x300.rank) ∈ dot_S64x300_S300x128_S64x128_1_0_0_1_n_n.lhsNonContracting by decide)]
  rfl
/-- Left operand: the column coordinate is the summation index. -/
theorem lhs_64x300_128_1 (i : S64x128.Idx) (q : dot_S64x300_S300x128_S64x128_1_0_0_1_n_n.contr.Idx) :
    (dot_S64x300_S300x128_S64x128_1_0_0_1_n_n.lhsIdx i q 1).val = (q ⟨0, by decide⟩).val :=
  dot_S64x300_S300x128_S64x128_1_0_0_1_n_n.lhsIdx_val_of_single rfl i q
/-- Right operand: the row coordinate is the summation index. -/
theorem rhs_64x300_128_0 (i : S64x128.Idx) (q : dot_S64x300_S300x128_S64x128_1_0_0_1_n_n.contr.Idx) :
    (dot_S64x300_S300x128_S64x128_1_0_0_1_n_n.rhsIdx i q 0).val = (q ⟨0, by decide⟩).val :=
  dot_S64x300_S300x128_S64x128_1_0_0_1_n_n.rhsIdx_val_of_single rfl i q
/-- Right operand: the column coordinate is the output's column. -/
theorem rhs_64x300_128_1 (i : S64x128.Idx) (q : dot_S64x300_S300x128_S64x128_1_0_0_1_n_n.contr.Idx) :
    (dot_S64x300_S300x128_S64x128_1_0_0_1_n_n.rhsIdx i q 1).val = (i 1).val := by
  unfold DotDims.rhsIdx
  rw [dif_neg (show ¬(1 : Fin S300x128.rank) ∈ dot_S64x300_S300x128_S64x128_1_0_0_1_n_n.rhsBatch by decide), dif_pos (show (1 : Fin S300x128.rank) ∈ dot_S64x300_S300x128_S64x128_1_0_0_1_n_n.rhsNonContracting by decide)]
  rfl

theorem xwT_64x300_128 (x : FVec Ideal S64x300 .f32) (w : FVec Ideal S128x300 .f32) (r : Fin 64) (c : Fin 128) :
    matmul dot_S64x300_S300x128_S64x128_1_0_0_1_n_n none (truncf .bf16 x bitsLt_bf16_f32)
      (transpose S300x128 [1, 0] (truncf .bf16 w bitsLt_bf16_f32) transposes_S128x300_p1_0_S300x128)
      (constant S64x128 .f32 0x00000000#32) (ix2 r c)
    = ∑ k : Fin 300, x (ix2 r k) * w (ix2 c k) := by
  simp only [matmul]
  rw [Ideal.matmul_constant_zero_apply, ← Equiv.sum_comp (ValueIdx.contrEquiv1 dot_S64x300_S300x128_S64x128_1_0_0_1_n_n 300 rfl rfl).symm]
  refine Finset.sum_congr rfl fun k _ => ?_
  have hk := ValueIdx.contrEquiv1_symm_val dot_S64x300_S300x128_S64x128_1_0_0_1_n_n 300 rfl rfl k
  have el : dot_S64x300_S300x128_S64x128_1_0_0_1_n_n.lhsIdx (ix2 r c) ((ValueIdx.contrEquiv1 dot_S64x300_S300x128_S64x128_1_0_0_1_n_n 300 rfl rfl).symm k) = ix2 r k := funext fun a => Fin.ext (by
    match a with
    | ⟨0, _⟩ => exact lhs_64x300_128_0 _ _
    | ⟨1, _⟩ => exact (lhs_64x300_128_1 _ _).trans hk)
  have er : dot_S64x300_S300x128_S64x128_1_0_0_1_n_n.rhsIdx (ix2 r c) ((ValueIdx.contrEquiv1 dot_S64x300_S300x128_S64x128_1_0_0_1_n_n 300 rfl rfl).symm k) = ix2 k c := funext fun a => Fin.ext (by
    match a with
    | ⟨0, _⟩ => exact (rhs_64x300_128_0 _ _).trans hk
    | ⟨1, _⟩ => exact rhs_64x300_128_1 _ _)
  rw [el, er]
  rw [transpose_apply [1, 0] (truncf .bf16 w bitsLt_bf16_f32) transposes_S128x300_p1_0_S300x128 (ix2 k c) (ix2 c k) (fun b => match b with
    | ⟨0, _⟩ => rfl
    | ⟨1, _⟩ => rfl)]
  rfl

/-- Left operand of the 64×512 by 512×128 product: the row coordinate is the output's row. -/
theorem lhs_64x512_128_0 (i : S64x128.Idx) (q : dot_S64x512_S512x128_S64x128_1_0_0_1_n_n.contr.Idx) :
    (dot_S64x512_S512x128_S64x128_1_0_0_1_n_n.lhsIdx i q 0).val = (i 0).val := by
  unfold DotDims.lhsIdx
  rw [dif_neg (show ¬(0 : Fin S64x512.rank) ∈ dot_S64x512_S512x128_S64x128_1_0_0_1_n_n.lhsBatch by decide), dif_pos (show (0 : Fin S64x512.rank) ∈ dot_S64x512_S512x128_S64x128_1_0_0_1_n_n.lhsNonContracting by decide)]
  rfl
/-- Left operand: the column coordinate is the summation index. -/
theorem lhs_64x512_128_1 (i : S64x128.Idx) (q : dot_S64x512_S512x128_S64x128_1_0_0_1_n_n.contr.Idx) :
    (dot_S64x512_S512x128_S64x128_1_0_0_1_n_n.lhsIdx i q 1).val = (q ⟨0, by decide⟩).val :=
  dot_S64x512_S512x128_S64x128_1_0_0_1_n_n.lhsIdx_val_of_single rfl i q
/-- Right operand: the row coordinate is the summation index. -/
theorem rhs_64x512_128_0 (i : S64x128.Idx) (q : dot_S64x512_S512x128_S64x128_1_0_0_1_n_n.contr.Idx) :
    (dot_S64x512_S512x128_S64x128_1_0_0_1_n_n.rhsIdx i q 0).val = (q ⟨0, by decide⟩).val :=
  dot_S64x512_S512x128_S64x128_1_0_0_1_n_n.rhsIdx_val_of_single rfl i q
/-- Right operand: the column coordinate is the output's column. -/
theorem rhs_64x512_128_1 (i : S64x128.Idx) (q : dot_S64x512_S512x128_S64x128_1_0_0_1_n_n.contr.Idx) :
    (dot_S64x512_S512x128_S64x128_1_0_0_1_n_n.rhsIdx i q 1).val = (i 1).val := by
  unfold DotDims.rhsIdx
  rw [dif_neg (show ¬(1 : Fin S512x128.rank) ∈ dot_S64x512_S512x128_S64x128_1_0_0_1_n_n.rhsBatch by decide), dif_pos (show (1 : Fin S512x128.rank) ∈ dot_S64x512_S512x128_S64x128_1_0_0_1_n_n.rhsNonContracting by decide)]
  rfl

theorem xwT_64x512_128 (x : FVec Ideal S64x512 .f32) (w : FVec Ideal S128x512 .f32) (r : Fin 64) (c : Fin 128) :
    matmul dot_S64x512_S512x128_S64x128_1_0_0_1_n_n none (truncf .bf16 x bitsLt_bf16_f32)
      (transpose S512x128 [1, 0] (truncf .bf16 w bitsLt_bf16_f32) transposes_S128x512_p1_0_S512x128)
      (constant S64x128 .f32 0x00000000#32) (ix2 r c)
    = ∑ k : Fin 512, x (ix2 r k) * w (ix2 c k) := by
  simp only [matmul]
  rw [Ideal.matmul_constant_zero_apply, ← Equiv.sum_comp (ValueIdx.contrEquiv1 dot_S64x512_S512x128_S64x128_1_0_0_1_n_n 512 rfl rfl).symm]
  refine Finset.sum_congr rfl fun k _ => ?_
  have hk := ValueIdx.contrEquiv1_symm_val dot_S64x512_S512x128_S64x128_1_0_0_1_n_n 512 rfl rfl k
  have el : dot_S64x512_S512x128_S64x128_1_0_0_1_n_n.lhsIdx (ix2 r c) ((ValueIdx.contrEquiv1 dot_S64x512_S512x128_S64x128_1_0_0_1_n_n 512 rfl rfl).symm k) = ix2 r k := funext fun a => Fin.ext (by
    match a with
    | ⟨0, _⟩ => exact lhs_64x512_128_0 _ _
    | ⟨1, _⟩ => exact (lhs_64x512_128_1 _ _).trans hk)
  have er : dot_S64x512_S512x128_S64x128_1_0_0_1_n_n.rhsIdx (ix2 r c) ((ValueIdx.contrEquiv1 dot_S64x512_S512x128_S64x128_1_0_0_1_n_n 512 rfl rfl).symm k) = ix2 k c := funext fun a => Fin.ext (by
    match a with
    | ⟨0, _⟩ => exact (rhs_64x512_128_0 _ _).trans hk
    | ⟨1, _⟩ => exact rhs_64x512_128_1 _ _)
  rw [el, er]
  rw [transpose_apply [1, 0] (truncf .bf16 w bitsLt_bf16_f32) transposes_S128x512_p1_0_S512x128 (ix2 k c) (ix2 c k) (fun b => match b with
    | ⟨0, _⟩ => rfl
    | ⟨1, _⟩ => rfl)]
  rfl

/-- Left operand of the 64×128 by 128×128 product: the row coordinate is the output's row. -/
theorem lhs_64x128_128_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
/-- Left operand: the column coordinate is the summation index. -/
theorem lhs_64x128_128_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
/-- Right operand: the row coordinate is the summation index. -/
theorem rhs_64x128_128_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
/-- Right operand: the column coordinate is the output's column. -/
theorem rhs_64x128_128_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

theorem xwT_64x128_128 (x : FVec Ideal S64x128 .f32) (w : FVec Ideal S128x128 .f32) (r : Fin 64) (c : Fin 128) :
    matmul dot_S64x128_S128x128_S64x128_1_0_0_1_n_n none (truncf .bf16 x bitsLt_bf16_f32)
      (transpose S128x128 [1, 0] (truncf .bf16 w bitsLt_bf16_f32) transposes_S128x128_p1_0_S128x128)
      (constant S64x128 .f32 0x00000000#32) (ix2 r c)
    = ∑ k : Fin 128, x (ix2 r k) * w (ix2 c k) := by
  simp only [matmul]
  rw [Ideal.matmul_constant_zero_apply, ← Equiv.sum_comp (ValueIdx.contrEquiv1 dot_S64x128_S128x128_S64x128_1_0_0_1_n_n 128 rfl rfl).symm]
  refine Finset.sum_congr rfl fun k _ => ?_
  have hk := ValueIdx.contrEquiv1_symm_val dot_S64x128_S128x128_S64x128_1_0_0_1_n_n 128 rfl rfl k
  have el : dot_S64x128_S128x128_S64x128_1_0_0_1_n_n.lhsIdx (ix2 r c) ((ValueIdx.contrEquiv1 dot_S64x128_S128x128_S64x128_1_0_0_1_n_n 128 rfl rfl).symm k) = ix2 r k := funext fun a => Fin.ext (by
    match a with
    | ⟨0, _⟩ => exact lhs_64x128_128_0 _ _
    | ⟨1, _⟩ => exact (lhs_64x128_128_1 _ _).trans hk)
  have er : dot_S64x128_S128x128_S64x128_1_0_0_1_n_n.rhsIdx (ix2 r c) ((ValueIdx.contrEquiv1 dot_S64x128_S128x128_S64x128_1_0_0_1_n_n 128 rfl rfl).symm k) = ix2 k c := funext fun a => Fin.ext (by
    match a with
    | ⟨0, _⟩ => exact (rhs_64x128_128_0 _ _).trans hk
    | ⟨1, _⟩ => exact rhs_64x128_128_1 _ _)
  rw [el, er]
  rw [transpose_apply [1, 0] (truncf .bf16 w bitsLt_bf16_f32) transposes_S128x128_p1_0_S128x128 (ix2 k c) (ix2 c k) (fun b => match b with
    | ⟨0, _⟩ => rfl
    | ⟨1, _⟩ => rfl)]
  rfl

/-- Left operand of the 64×128 by 128×1536 product: the row coordinate is the output's row. -/
theorem lhs_64x128_1536_0 (i : S64x1536.Idx) (q : dot_S64x128_S128x1536_S64x1536_1_0_0_1_n_n.contr.Idx) :
    (dot_S64x128_S128x1536_S64x1536_1_0_0_1_n_n.lhsIdx i q 0).val = (i 0).val := by
  unfold DotDims.lhsIdx
  rw [dif_neg (show ¬(0 : Fin S64x128.rank) ∈ dot_S64x128_S128x1536_S64x1536_1_0_0_1_n_n.lhsBatch by decide), dif_pos (show (0 : Fin S64x128.rank) ∈ dot_S64x128_S128x1536_S64x1536_1_0_0_1_n_n.lhsNonContracting by decide)]
  rfl
/-- Left operand: the column coordinate is the summation index. -/
theorem lhs_64x128_1536_1 (i : S64x1536.Idx) (q : dot_S64x128_S128x1536_S64x1536_1_0_0_1_n_n.contr.Idx) :
    (dot_S64x128_S128x1536_S64x1536_1_0_0_1_n_n.lhsIdx i q 1).val = (q ⟨0, by decide⟩).val :=
  dot_S64x128_S128x1536_S64x1536_1_0_0_1_n_n.lhsIdx_val_of_single rfl i q
/-- Right operand: the row coordinate is the summation index. -/
theorem rhs_64x128_1536_0 (i : S64x1536.Idx) (q : dot_S64x128_S128x1536_S64x1536_1_0_0_1_n_n.contr.Idx) :
    (dot_S64x128_S128x1536_S64x1536_1_0_0_1_n_n.rhsIdx i q 0).val = (q ⟨0, by decide⟩).val :=
  dot_S64x128_S128x1536_S64x1536_1_0_0_1_n_n.rhsIdx_val_of_single rfl i q
/-- Right operand: the column coordinate is the output's column. -/
theorem rhs_64x128_1536_1 (i : S64x1536.Idx) (q : dot_S64x128_S128x1536_S64x1536_1_0_0_1_n_n.contr.Idx) :
    (dot_S64x128_S128x1536_S64x1536_1_0_0_1_n_n.rhsIdx i q 1).val = (i 1).val := by
  unfold DotDims.rhsIdx
  rw [dif_neg (show ¬(1 : Fin S128x1536.rank) ∈ dot_S64x128_S128x1536_S64x1536_1_0_0_1_n_n.rhsBatch by decide), dif_pos (show (1 : Fin S128x1536.rank) ∈ dot_S64x128_S128x1536_S64x1536_1_0_0_1_n_n.rhsNonContracting by decide)]
  rfl

theorem xwT_64x128_1536 (x : FVec Ideal S64x128 .f32) (w : FVec Ideal S1536x128 .f32) (r : Fin 64) (c : Fin 1536) :
    matmul dot_S64x128_S128x1536_S64x1536_1_0_0_1_n_n none (truncf .bf16 x bitsLt_bf16_f32)
      (transpose S128x1536 [1, 0] (truncf .bf16 w bitsLt_bf16_f32) transposes_S1536x128_p1_0_S128x1536)
      (constant S64x1536 .f32 0x00000000#32) (ix2 r c)
    = ∑ k : Fin 128, x (ix2 r k) * w (ix2 c k) := by
  simp only [matmul]
  rw [Ideal.matmul_constant_zero_apply, ← Equiv.sum_comp (ValueIdx.contrEquiv1 dot_S64x128_S128x1536_S64x1536_1_0_0_1_n_n 128 rfl rfl).symm]
  refine Finset.sum_congr rfl fun k _ => ?_
  have hk := ValueIdx.contrEquiv1_symm_val dot_S64x128_S128x1536_S64x1536_1_0_0_1_n_n 128 rfl rfl k
  have el : dot_S64x128_S128x1536_S64x1536_1_0_0_1_n_n.lhsIdx (ix2 r c) ((ValueIdx.contrEquiv1 dot_S64x128_S128x1536_S64x1536_1_0_0_1_n_n 128 rfl rfl).symm k) = ix2 r k := funext fun a => Fin.ext (by
    match a with
    | ⟨0, _⟩ => exact lhs_64x128_1536_0 _ _
    | ⟨1, _⟩ => exact (lhs_64x128_1536_1 _ _).trans hk)
  have er : dot_S64x128_S128x1536_S64x1536_1_0_0_1_n_n.rhsIdx (ix2 r c) ((ValueIdx.contrEquiv1 dot_S64x128_S128x1536_S64x1536_1_0_0_1_n_n 128 rfl rfl).symm k) = ix2 k c := funext fun a => Fin.ext (by
    match a with
    | ⟨0, _⟩ => exact (rhs_64x128_1536_0 _ _).trans hk
    | ⟨1, _⟩ => exact rhs_64x128_1536_1 _ _)
  rw [el, er]
  rw [transpose_apply [1, 0] (truncf .bf16 w bitsLt_bf16_f32) transposes_S1536x128_p1_0_S128x1536 (ix2 k c) (ix2 c k) (fun b => match b with
    | ⟨0, _⟩ => rfl
    | ⟨1, _⟩ => rfl)]
  rfl

/-- Left operand of the 64×512 by 512×1536 product: the row coordinate is the output's row. -/
theorem lhs_64x512_1536_0 (i : S64x1536.Idx) (q : dot_S64x512_S512x1536_S64x1536_1_0_0_1_n_n.contr.Idx) :
    (dot_S64x512_S512x1536_S64x1536_1_0_0_1_n_n.lhsIdx i q 0).val = (i 0).val := by
  unfold DotDims.lhsIdx
  rw [dif_neg (show ¬(0 : Fin S64x512.rank) ∈ dot_S64x512_S512x1536_S64x1536_1_0_0_1_n_n.lhsBatch by decide), dif_pos (show (0 : Fin S64x512.rank) ∈ dot_S64x512_S512x1536_S64x1536_1_0_0_1_n_n.lhsNonContracting by decide)]
  rfl
/-- Left operand: the column coordinate is the summation index. -/
theorem lhs_64x512_1536_1 (i : S64x1536.Idx) (q : dot_S64x512_S512x1536_S64x1536_1_0_0_1_n_n.contr.Idx) :
    (dot_S64x512_S512x1536_S64x1536_1_0_0_1_n_n.lhsIdx i q 1).val = (q ⟨0, by decide⟩).val :=
  dot_S64x512_S512x1536_S64x1536_1_0_0_1_n_n.lhsIdx_val_of_single rfl i q
/-- Right operand: the row coordinate is the summation index. -/
theorem rhs_64x512_1536_0 (i : S64x1536.Idx) (q : dot_S64x512_S512x1536_S64x1536_1_0_0_1_n_n.contr.Idx) :
    (dot_S64x512_S512x1536_S64x1536_1_0_0_1_n_n.rhsIdx i q 0).val = (q ⟨0, by decide⟩).val :=
  dot_S64x512_S512x1536_S64x1536_1_0_0_1_n_n.rhsIdx_val_of_single rfl i q
/-- Right operand: the column coordinate is the output's column. -/
theorem rhs_64x512_1536_1 (i : S64x1536.Idx) (q : dot_S64x512_S512x1536_S64x1536_1_0_0_1_n_n.contr.Idx) :
    (dot_S64x512_S512x1536_S64x1536_1_0_0_1_n_n.rhsIdx i q 1).val = (i 1).val := by
  unfold DotDims.rhsIdx
  rw [dif_neg (show ¬(1 : Fin S512x1536.rank) ∈ dot_S64x512_S512x1536_S64x1536_1_0_0_1_n_n.rhsBatch by decide), dif_pos (show (1 : Fin S512x1536.rank) ∈ dot_S64x512_S512x1536_S64x1536_1_0_0_1_n_n.rhsNonContracting by decide)]
  rfl

theorem xwT_64x512_1536 (x : FVec Ideal S64x512 .f32) (w : FVec Ideal S1536x512 .f32) (r : Fin 64) (c : Fin 1536) :
    matmul dot_S64x512_S512x1536_S64x1536_1_0_0_1_n_n none (truncf .bf16 x bitsLt_bf16_f32)
      (transpose S512x1536 [1, 0] (truncf .bf16 w bitsLt_bf16_f32) transposes_S1536x512_p1_0_S512x1536)
      (constant S64x1536 .f32 0x00000000#32) (ix2 r c)
    = ∑ k : Fin 512, x (ix2 r k) * w (ix2 c k) := by
  simp only [matmul]
  rw [Ideal.matmul_constant_zero_apply, ← Equiv.sum_comp (ValueIdx.contrEquiv1 dot_S64x512_S512x1536_S64x1536_1_0_0_1_n_n 512 rfl rfl).symm]
  refine Finset.sum_congr rfl fun k _ => ?_
  have hk := ValueIdx.contrEquiv1_symm_val dot_S64x512_S512x1536_S64x1536_1_0_0_1_n_n 512 rfl rfl k
  have el : dot_S64x512_S512x1536_S64x1536_1_0_0_1_n_n.lhsIdx (ix2 r c) ((ValueIdx.contrEquiv1 dot_S64x512_S512x1536_S64x1536_1_0_0_1_n_n 512 rfl rfl).symm k) = ix2 r k := funext fun a => Fin.ext (by
    match a with
    | ⟨0, _⟩ => exact lhs_64x512_1536_0 _ _
    | ⟨1, _⟩ => exact (lhs_64x512_1536_1 _ _).trans hk)
  have er : dot_S64x512_S512x1536_S64x1536_1_0_0_1_n_n.rhsIdx (ix2 r c) ((ValueIdx.contrEquiv1 dot_S64x512_S512x1536_S64x1536_1_0_0_1_n_n 512 rfl rfl).symm k) = ix2 k c := funext fun a => Fin.ext (by
    match a with
    | ⟨0, _⟩ => exact (rhs_64x512_1536_0 _ _).trans hk
    | ⟨1, _⟩ => exact rhs_64x512_1536_1 _ _)
  rw [el, er]
  rw [transpose_apply [1, 0] (truncf .bf16 w bitsLt_bf16_f32) transposes_S1536x512_p1_0_S512x1536 (ix2 k c) (ix2 c k) (fun b => match b with
    | ⟨0, _⟩ => rfl
    | ⟨1, _⟩ => rfl)]
  rfl

/-- Left operand of the 64×512 by 512×512 product: the row coordinate is the output's row. -/
theorem lhs_64x512_512_0 (i : S64x512.Idx) (q : dot_S64x512_S512x512_S64x512_1_0_0_1_n_n.contr.Idx) :
    (dot_S64x512_S512x512_S64x512_1_0_0_1_n_n.lhsIdx i q 0).val = (i 0).val := by
  unfold DotDims.lhsIdx
  rw [dif_neg (show ¬(0 : Fin S64x512.rank) ∈ dot_S64x512_S512x512_S64x512_1_0_0_1_n_n.lhsBatch by decide), dif_pos (show (0 : Fin S64x512.rank) ∈ dot_S64x512_S512x512_S64x512_1_0_0_1_n_n.lhsNonContracting by decide)]
  rfl
/-- Left operand: the column coordinate is the summation index. -/
theorem lhs_64x512_512_1 (i : S64x512.Idx) (q : dot_S64x512_S512x512_S64x512_1_0_0_1_n_n.contr.Idx) :
    (dot_S64x512_S512x512_S64x512_1_0_0_1_n_n.lhsIdx i q 1).val = (q ⟨0, by decide⟩).val :=
  dot_S64x512_S512x512_S64x512_1_0_0_1_n_n.lhsIdx_val_of_single rfl i q
/-- Right operand: the row coordinate is the summation index. -/
theorem rhs_64x512_512_0 (i : S64x512.Idx) (q : dot_S64x512_S512x512_S64x512_1_0_0_1_n_n.contr.Idx) :
    (dot_S64x512_S512x512_S64x512_1_0_0_1_n_n.rhsIdx i q 0).val = (q ⟨0, by decide⟩).val :=
  dot_S64x512_S512x512_S64x512_1_0_0_1_n_n.rhsIdx_val_of_single rfl i q
/-- Right operand: the column coordinate is the output's column. -/
theorem rhs_64x512_512_1 (i : S64x512.Idx) (q : dot_S64x512_S512x512_S64x512_1_0_0_1_n_n.contr.Idx) :
    (dot_S64x512_S512x512_S64x512_1_0_0_1_n_n.rhsIdx i q 1).val = (i 1).val := by
  unfold DotDims.rhsIdx
  rw [dif_neg (show ¬(1 : Fin S512x512.rank) ∈ dot_S64x512_S512x512_S64x512_1_0_0_1_n_n.rhsBatch by decide), dif_pos (show (1 : Fin S512x512.rank) ∈ dot_S64x512_S512x512_S64x512_1_0_0_1_n_n.rhsNonContracting by decide)]
  rfl

theorem xwT_64x512_512 (x : FVec Ideal S64x512 .f32) (w : FVec Ideal S512x512 .f32) (r : Fin 64) (c : Fin 512) :
    matmul dot_S64x512_S512x512_S64x512_1_0_0_1_n_n none (truncf .bf16 x bitsLt_bf16_f32)
      (transpose S512x512 [1, 0] (truncf .bf16 w bitsLt_bf16_f32) transposes_S512x512_p1_0_S512x512)
      (constant S64x512 .f32 0x00000000#32) (ix2 r c)
    = ∑ k : Fin 512, x (ix2 r k) * w (ix2 c k) := by
  simp only [matmul]
  rw [Ideal.matmul_constant_zero_apply, ← Equiv.sum_comp (ValueIdx.contrEquiv1 dot_S64x512_S512x512_S64x512_1_0_0_1_n_n 512 rfl rfl).symm]
  refine Finset.sum_congr rfl fun k _ => ?_
  have hk := ValueIdx.contrEquiv1_symm_val dot_S64x512_S512x512_S64x512_1_0_0_1_n_n 512 rfl rfl k
  have el : dot_S64x512_S512x512_S64x512_1_0_0_1_n_n.lhsIdx (ix2 r c) ((ValueIdx.contrEquiv1 dot_S64x512_S512x512_S64x512_1_0_0_1_n_n 512 rfl rfl).symm k) = ix2 r k := funext fun a => Fin.ext (by
    match a with
    | ⟨0, _⟩ => exact lhs_64x512_512_0 _ _
    | ⟨1, _⟩ => exact (lhs_64x512_512_1 _ _).trans hk)
  have er : dot_S64x512_S512x512_S64x512_1_0_0_1_n_n.rhsIdx (ix2 r c) ((ValueIdx.contrEquiv1 dot_S64x512_S512x512_S64x512_1_0_0_1_n_n 512 rfl rfl).symm k) = ix2 k c := funext fun a => Fin.ext (by
    match a with
    | ⟨0, _⟩ => exact (rhs_64x512_512_0 _ _).trans hk
    | ⟨1, _⟩ => exact rhs_64x512_512_1 _ _)
  rw [el, er]
  rw [transpose_apply [1, 0] (truncf .bf16 w bitsLt_bf16_f32) transposes_S512x512_p1_0_S512x512 (ix2 k c) (ix2 c k) (fun b => match b with
    | ⟨0, _⟩ => rfl
    | ⟨1, _⟩ => rfl)]
  rfl

/-- Left operand of the 4096×128 by 128×512 product: the row coordinate is the output's row. -/
theorem lhs_4096x128_512_0 (i : S4096x512.Idx) (q : dot_S4096x128_S128x512_S4096x512_1_0_0_1_n_n.contr.Idx) :
    (dot_S4096x128_S128x512_S4096x512_1_0_0_1_n_n.lhsIdx i q 0).val = (i 0).val := by
  unfold DotDims.lhsIdx
  rw [dif_neg (show ¬(0 : Fin S4096x128.rank) ∈ dot_S4096x128_S128x512_S4096x512_1_0_0_1_n_n.lhsBatch by decide), dif_pos (show (0 : Fin S4096x128.rank) ∈ dot_S4096x128_S128x512_S4096x512_1_0_0_1_n_n.lhsNonContracting by decide)]
  rfl
/-- Left operand: the column coordinate is the summation index. -/
theorem lhs_4096x128_512_1 (i : S4096x512.Idx) (q : dot_S4096x128_S128x512_S4096x512_1_0_0_1_n_n.contr.Idx) :
    (dot_S4096x128_S128x512_S4096x512_1_0_0_1_n_n.lhsIdx i q 1).val = (q ⟨0, by decide⟩).val :=
  dot_S4096x128_S128x512_S4096x512_1_0_0_1_n_n.lhsIdx_val_of_single rfl i q
/-- Right operand: the row coordinate is the summation index. -/
theorem rhs_4096x128_512_0 (i : S4096x512.Idx) (q : dot_S4096x128_S128x512_S4096x512_1_0_0_1_n_n.contr.Idx) :
    (dot_S4096x128_S128x512_S4096x512_1_0_0_1_n_n.rhsIdx i q 0).val = (q ⟨0, by decide⟩).val :=
  dot_S4096x128_S128x512_S4096x512_1_0_0_1_n_n.rhsIdx_val_of_single rfl i q
/-- Right operand: the column coordinate is the output's column. -/
theorem rhs_4096x128_512_1 (i : S4096x512.Idx) (q : dot_S4096x128_S128x512_S4096x512_1_0_0_1_n_n.contr.Idx) :
    (dot_S4096x128_S128x512_S4096x512_1_0_0_1_n_n.rhsIdx i q 1).val = (i 1).val := by
  unfold DotDims.rhsIdx
  rw [dif_neg (show ¬(1 : Fin S128x512.rank) ∈ dot_S4096x128_S128x512_S4096x512_1_0_0_1_n_n.rhsBatch by decide), dif_pos (show (1 : Fin S128x512.rank) ∈ dot_S4096x128_S128x512_S4096x512_1_0_0_1_n_n.rhsNonContracting by decide)]
  rfl

theorem xwT_4096x128_512 (x : FVec Ideal S4096x128 .f32) (w : FVec Ideal S512x128 .f32) (r : Fin 4096) (c : Fin 512) :
    matmul dot_S4096x128_S128x512_S4096x512_1_0_0_1_n_n none (truncf .bf16 x bitsLt_bf16_f32)
      (transpose S128x512 [1, 0] (truncf .bf16 w bitsLt_bf16_f32) transposes_S512x128_p1_0_S128x512)
      (constant S4096x512 .f32 0x00000000#32) (ix2 r c)
    = ∑ k : Fin 128, x (ix2 r k) * w (ix2 c k) := by
  simp only [matmul]
  rw [Ideal.matmul_constant_zero_apply, ← Equiv.sum_comp (ValueIdx.contrEquiv1 dot_S4096x128_S128x512_S4096x512_1_0_0_1_n_n 128 rfl rfl).symm]
  refine Finset.sum_congr rfl fun k _ => ?_
  have hk := ValueIdx.contrEquiv1_symm_val dot_S4096x128_S128x512_S4096x512_1_0_0_1_n_n 128 rfl rfl k
  have el : dot_S4096x128_S128x512_S4096x512_1_0_0_1_n_n.lhsIdx (ix2 r c) ((ValueIdx.contrEquiv1 dot_S4096x128_S128x512_S4096x512_1_0_0_1_n_n 128 rfl rfl).symm k) = ix2 r k := funext fun a => Fin.ext (by
    match a with
    | ⟨0, _⟩ => exact lhs_4096x128_512_0 _ _
    | ⟨1, _⟩ => exact (lhs_4096x128_512_1 _ _).trans hk)
  have er : dot_S4096x128_S128x512_S4096x512_1_0_0_1_n_n.rhsIdx (ix2 r c) ((ValueIdx.contrEquiv1 dot_S4096x128_S128x512_S4096x512_1_0_0_1_n_n 128 rfl rfl).symm k) = ix2 k c := funext fun a => Fin.ext (by
    match a with
    | ⟨0, _⟩ => exact (rhs_4096x128_512_0 _ _).trans hk
    | ⟨1, _⟩ => exact rhs_4096x128_512_1 _ _)
  rw [el, er]
  rw [transpose_apply [1, 0] (truncf .bf16 w bitsLt_bf16_f32) transposes_S512x128_p1_0_S128x512 (ix2 k c) (ix2 c k) (fun b => match b with
    | ⟨0, _⟩ => rfl
    | ⟨1, _⟩ => rfl)]
  rfl

end Cert.KernelIdeal.Products

end
-- ==== Proof.PartA.lean ====
/-
  The first recurrent cell, one block of rows at a time. The body computes, for the 64 rows of a block,
  the fused top-down input (three products summed, tanh, one more product, clamped at zero) and one step of a
  gated recurrent cell on it; the reference computes the same for all 1024 rows at once. Every step acts
  on each row by itself, so the block's result is the block of the reference's result.
-/
import proofs.«129328_j52226802320074_1_alg».proof.Proof.Gen.KernelIdeal.Skeleton
import proofs.«129328_j52226802320074_1_alg».proof.Proof.Gen.ReferenceIdeal.Read
import proofs.«129328_j52226802320074_1_alg».proof.Proof.Rows
import proofs.«129328_j52226802320074_1_alg».proof.Proof.KMatmul

noncomputable section

namespace Cert.Bridge.CellOne

open Idealize.ShloMosaic Idealize.ShloMosaic.ValueIdx Cert.Bridge Cert.KernelIdeal Cert.KernelIdeal.Gen
open Cert.ReferenceIdeal.Read (val_main_v49 val_main_v52 val_main_v57 val_main_v68 val_main_v71 val_main_v118)

open Cert.KernelIdeal.Products
open Cert.ReferenceIdeal.Read

/-! ## The body's intermediate values, named -/

/-- The block's fused input before the tanh: the step input times its weights, plus the second hidden state
    times its weights, plus the target feature times its weights (each weight matrix transposed). -/
def tdK (b0 : FVec Ideal S64x300 .f32) (b1 : FVec Ideal S64x128 .f32) (b4 : FVec Ideal S64x512 .f32)
    (X5 : FVec Ideal S128x512 .f32) (X6 : FVec Ideal S128x128 .f32) (X7 : FVec Ideal S128x300 .f32) : FVec Ideal S64x128 .f32 :=
  addf (addf
    (matmul dot_S64x300_S300x128_S64x128_1_0_0_1_n_n none (truncf .bf16 b0 bitsLt_bf16_f32)
      (transpose S300x128 [1, 0] (truncf .bf16 X7 bitsLt_bf16_f32) transposes_S128x300_p1_0_S300x128) (constant S64x128 .f32 0x00000000#32))
    (matmul dot_S64x512_S512x128_S64x128_1_0_0_1_n_n none (truncf .bf16 b4 bitsLt_bf16_f32)
      (transpose S512x128 [1, 0] (truncf .bf16 X5 bitsLt_bf16_f32) transposes_S128x512_p1_0_S512x128) (constant S64x128 .f32 0x00000000#32)))
    (matmul dot_S64x128_S128x128_S64x128_1_0_0_1_n_n none (truncf .bf16 b1 bitsLt_bf16_f32)
      (transpose S128x128 [1, 0] (truncf .bf16 X6 bitsLt_bf16_f32) transposes_S128x128_p1_0_S128x128) (constant S64x128 .f32 0x00000000#32))

/-- The block's fused input: tanh of the sum above, times the fusion weights transposed, clamped below at zero. -/
def reluK (b0 : FVec Ideal S64x300 .f32) (b1 : FVec Ideal S64x128 .f32) (b4 : FVec Ideal S64x512 .f32)
    (X5 : FVec Ideal S128x512 .f32) (X6 : FVec Ideal S128x128 .f32) (X7 : FVec Ideal S128x300 .f32) (X8 : FVec Ideal S128x128 .f32) : FVec Ideal S64x128 .f32 :=
  maximumf
    (matmul dot_S64x128_S128x128_S64x128_1_0_0_1_n_n none (truncf .bf16 (tanh (tdK b0 b1 b4 X5 X6 X7)) bitsLt_bf16_f32)
      (transpose S128x128 [1, 0] (truncf .bf16 X8 bitsLt_bf16_f32) transposes_S128x128_p1_0_S128x128) (constant S64x128 .f32 0x00000000#32))
    (broadcast S64x128 (Scalar.ofBits .f32 0x00000000#32))

/-- The cell's input-side gate rows are the fused input times the input weights transposed, plus the input bias. -/
theorem pay2_eq (b0 : FVec Ideal S64x300 .f32) (b1 : FVec Ideal S64x128 .f32) (b4 : FVec Ideal S64x512 .f32)
    (X5 : FVec Ideal S128x512 .f32) (X6 : FVec Ideal S128x128 .f32) (X7 : FVec Ideal S128x300 .f32) (X8 : FVec Ideal S128x128 .f32)
    (X15 : FVec Ideal S1536x128 .f32) (X17 : FVec Ideal S1536 .f32) :
    k0_pay2 b0 b1 b4 X5 X6 X7 X8 X15 X17
      = addf (matmul dot_S64x128_S128x1536_S64x1536_1_0_0_1_n_n none (truncf .bf16 (reluK b0 b1 b4 X5 X6 X7 X8) bitsLt_bf16_f32)
          (transpose S128x1536 [1, 0] (truncf .bf16 X15 bitsLt_bf16_f32) transposes_S1536x128_p1_0_S128x1536) (constant S64x1536 .f32 0x00000000#32))
        (broadcastTo S64x1536 (shapeCast S1x1536 X17 shapeCasts_S1536_S1x1536) broadcasts_S1x1536_S64x1536) := rfl

/-- The cell's hidden-side gate rows are the first hidden state times the hidden weights transposed, plus the hidden bias. -/
theorem pay3_eq (b3 : FVec Ideal S64x512 .f32) (X16 : FVec Ideal S1536x512 .f32) (X18 : FVec Ideal S1536 .f32) :
    k0_pay3 b3 X16 X18
      = addf (matmul dot_S64x512_S512x1536_S64x1536_1_0_0_1_n_n none (truncf .bf16 b3 bitsLt_bf16_f32)
          (transpose S512x1536 [1, 0] (truncf .bf16 X16 bitsLt_bf16_f32) transposes_S1536x512_p1_0_S512x1536) (constant S64x1536 .f32 0x00000000#32))
        (broadcastTo S64x1536 (shapeCast S1x1536 X18 shapeCasts_S1536_S1x1536) broadcasts_S1x1536_S64x1536) := rfl

/-! ## The reference's products read at an entry -/

/-- Entry (b, c) of the step input times its transposed weights. -/
theorem ref_v1 (X0 : FVec Ideal S1024x300 .f32) (X7 : FVec Ideal S128x300 .f32) (b : Fin 1024) (c : Fin 128) :
    val_main_v1 (F := Ideal) X0 X7 (ix2 b c) = ∑ k : Fin 300, X0 (ix2 b k) * X7 (ix2 c k) := by
  rw [val_main_v1_apply]
  refine Finset.sum_congr rfl fun k _ => ?_
  rw [val_main_v0_apply]
  have e1 : lidx_main_v1 (ix2 b c) k = ix2 b k := funext fun a => Fin.ext (by match a with | ⟨0, _⟩ => rfl | ⟨1, _⟩ => rfl)
  have e2 : idx_main_v0 (ridx_main_v1 (ix2 b c) k) = ix2 c k := funext fun a => Fin.ext (by match a with | ⟨0, _⟩ => rfl | ⟨1, _⟩ => rfl)
  rw [e1, e2]

/-- Entry (b, c) of the second hidden state times its transposed weights. -/
theorem ref_v3 (X4 : FVec Ideal S1024x512 .f32) (X5 : FVec Ideal S128x512 .f32) (b : Fin 1024) (c : Fin 128) :
    val_main_v3 (F := Ideal) X4 X5 (ix2 b c) = ∑ k : Fin 512, X4 (ix2 b k) * X5 (ix2 c k) := by
  rw [val_main_v3_apply]
  refine Finset.sum_congr rfl fun k _ => ?_
  rw [val_main_v2_apply]
  have e1 : lidx_main_v3 (ix2 b c) k = ix2 b k := funext fun a => Fin.ext (by match a with | ⟨0, _⟩ => rfl | ⟨1, _⟩ => rfl)
  have e2 : idx_main_v2 (ridx_main_v3 (ix2 b c) k) = ix2 c k := funext fun a => Fin.ext (by match a with | ⟨0, _⟩ => rfl | ⟨1, _⟩ => rfl)
  rw [e1, e2]

/-- Entry (b, c) of the target feature times its transposed weights. -/
theorem ref_v6 (X1 : FVec Ideal S1024x128 .f32) (X6 : FVec Ideal S128x128 .f32) (b : Fin 1024) (c : Fin 128) :
    val_main_v6 (F := Ideal) X1 X6 (ix2 b c) = ∑ k : Fin 128, X1 (ix2 b k) * X6 (ix2 c k) := by
  rw [val_main_v6_apply]
  refine Finset.sum_congr rfl fun k _ => ?_
  rw [val_main_v5_apply]
  have e1 : lidx_main_v6 (ix2 b c) k = ix2 b k := funext fun a => Fin.ext (by match a with | ⟨0, _⟩ => rfl | ⟨1, _⟩ => rfl)
  have e2 : idx_main_v5 (ridx_main_v6 (ix2 b c) k) = ix2 c k := funext fun a => Fin.ext (by match a with | ⟨0, _⟩ => rfl | ⟨1, _⟩ => rfl)
  rw [e1, e2]

/-- Entry (b, c) of the reference's sum of the three products. -/
theorem ref_v7 (X0 : FVec Ideal S1024x300 .f32) (X1 : FVec Ideal S1024x128 .f32) (X4 : FVec Ideal S1024x512 .f32)
    (X5 : FVec Ideal S128x512 .f32) (X6 : FVec Ideal S128x128 .f32) (X7 : FVec Ideal S128x300 .f32) (b : Fin 1024) (c : Fin 128) :
    val_main_v7 (F := Ideal) X0 X1 X4 X5 X6 X7 (ix2 b c)
      = (∑ k : Fin 300, X0 (ix2 b k) * X7 (ix2 c k)) + (∑ k : Fin 512, X4 (ix2 b k) * X5 (ix2 c k)) + ∑ k : Fin 128, X1 (ix2 b k) * X6 (ix2 c k) := by
  rw [val_main_v7_apply, val_main_v4_apply, ref_v1, ref_v3, ref_v6]
  rfl

/-! ## The block's fused input is the block of the reference's -/

/-- Entry (r, c) of the body's sum of the three products. -/
theorem tdK_apply (b0 : FVec Ideal S64x300 .f32) (b1 : FVec Ideal S64x128 .f32) (b4 : FVec Ideal S64x512 .f32)
    (X5 : FVec Ideal S128x512 .f32) (X6 : FVec Ideal S128x128 .f32) (X7 : FVec Ideal S128x300 .f32) (r : Fin 64) (c : Fin 128) :
    tdK b0 b1 b4 X5 X6 X7 (ix2 r c)
      = (∑ k : Fin 300, b0 (ix2 r k) * X7 (ix2 c k)) + (∑ k : Fin 512, b4 (ix2 r k) * X5 (ix2 c k)) + ∑ k : Fin 128, b1 (ix2 r k) * X6 (ix2 c k) := by
  unfold tdK
  rw [addf_apply, addf_apply, xwT_64x300_128, xwT_64x512_128, xwT_64x128_128]

/-- Row r of the block's sum is row 64 t + r of the reference's. -/
theorem td_blk (t : Fin 16) (X0 : FVec Ideal S1024x300 .f32) (X1 : FVec Ideal S1024x128 .f32) (X4 : FVec Ideal S1024x512 .f32)
    (X5 : FVec Ideal S128x512 .f32) (X6 : FVec Ideal S128x128 .f32) (X7 : FVec Ideal S128x300 .f32)
    (b0 : FVec Ideal S64x300 .f32) (b1 : FVec Ideal S64x128 .f32) (b4 : FVec Ideal S64x512 .f32)
    (h0 : RowBlk t b0 X0) (h1 : RowBlk t b1 X1) (h4 : RowBlk t b4 X4) (r : Fin 64) (c : Fin 128) :
    tdK b0 b1 b4 X5 X6 X7 (ix2 r c) = val_main_v7 (F := Ideal) X0 X1 X4 X5 X6 X7 (ix2 (rowOf t r) c) := by
  rw [tdK_apply, ref_v7]
  congr 1
  · congr 1
    · exact Finset.sum_congr rfl fun k _ => by rw [h0 r k]
    · exact Finset.sum_congr rfl fun k _ => by rw [h4 r k]
  · exact Finset.sum_congr rfl fun k _ => by rw [h1 r k]

/-- Entry (r, c) of the body's clamped fused input: the larger of zero and the row of tanh values times column c of the transposed fusion weights. -/
theorem reluK_apply (b0 : FVec Ideal S64x300 .f32) (b1 : FVec Ideal S64x128 .f32) (b4 : FVec Ideal S64x512 .f32)
    (X5 : FVec Ideal S128x512 .f32) (X6 : FVec Ideal S128x128 .f32) (X7 : FVec Ideal S128x300 .f32) (X8 : FVec Ideal S128x128 .f32) (r : Fin 64) (c : Fin 128) :
    reluK b0 b1 b4 X5 X6 X7 X8 (ix2 r c)
      = max (∑ k : Fin 128, tanh (tdK b0 b1 b4 X5 X6 X7) (ix2 r k) * X8 (ix2 c k)) (Ideal.ofBits .f32 0x00000000#32) := by
  unfold reluK
  rw [maximumf_apply, xwT_64x128_128]
  rfl

/-- Entry (b, c) of the reference's product of the tanh values with the transposed fusion weights. -/
theorem ref_v10 (X0 : FVec Ideal S1024x300 .f32) (X1 : FVec Ideal S1024x128 .f32) (X4 : FVec Ideal S1024x512 .f32)
    (X5 : FVec Ideal S128x512 .f32) (X6 : FVec Ideal S128x128 .f32) (X7 : FVec Ideal S128x300 .f32) (X8 : FVec Ideal S128x128 .f32) (b : Fin 1024) (c : Fin 128) :
    val_main_v10 (F := Ideal) X0 X1 X4 X5 X6 X7 X8 (ix2 b c)
      = ∑ k : Fin 128, val_main_v8 (F := Ideal) X0 X1 X4 X5 X6 X7 (ix2 b k) * X8 (ix2 c k) := by
  rw [val_main_v10_apply]
  refine Finset.sum_congr rfl fun k _ => ?_
  rw [val_main_v9_apply]
  have e1 : lidx_main_v10 (ix2 b c) k = ix2 b k := funext fun a => Fin.ext (by match a with | ⟨0, _⟩ => rfl | ⟨1, _⟩ => rfl)
  have e2 : idx_main_v9 (ridx_main_v10 (ix2 b c) k) = ix2 c k := funext fun a => Fin.ext (by match a with | ⟨0, _⟩ => rfl | ⟨1, _⟩ => rfl)
  rw [e1, e2]

/-- Entry (b, c) of the reference's clamped fused input. -/
theorem ref_v11 (X0 : FVec Ideal S1024x300 .f32) (X1 : FVec Ideal S1024x128 .f32) (X4 : FVec Ideal S1024x512 .f32)
    (X5 : FVec Ideal S128x512 .f32) (X6 : FVec Ideal S128x128 .f32) (X7 : FVec Ideal S128x300 .f32) (X8 : FVec Ideal S128x128 .f32) (b : Fin 1024) (c : Fin 128) :
    val_main_v11 (F := Ideal) X0 X1 X4 X5 X6 X7 X8 (ix2 b c)
      = max (∑ k : Fin 128, val_main_v8 (F := Ideal) X0 X1 X4 X5 X6 X7 (ix2 b k) * X8 (ix2 c k)) (Ideal.ofBits .f32 0x00000000#32) := by
  rw [val_main_v11_apply, val_main_call0_v0_apply, val_main_call0_cst_apply, ref_v10]
  rfl

/-- Row r of the block's clamped fused input is row 64 t + r of the reference's. -/
theorem relu_blk (t : Fin 16) (X0 : FVec Ideal S1024x300 .f32) (X1 : FVec Ideal S1024x128 .f32) (X4 : FVec Ideal S1024x512 .f32)
    (X5 : FVec Ideal S128x512 .f32) (X6 : FVec Ideal S128x128 .f32) (X7 : FVec Ideal S128x300 .f32) (X8 : FVec Ideal S128x128 .f32)
    (b0 : FVec Ideal S64x300 .f32) (b1 : FVec Ideal S64x128 .f32) (b4 : FVec Ideal S64x512 .f32)
    (h0 : RowBlk t b0 X0) (h1 : RowBlk t b1 X1) (h4 : RowBlk t b4 X4) (r : Fin 64) (c : Fin 128) :
    reluK b0 b1 b4 X5 X6 X7 X8 (ix2 r c) = val_main_v11 (F := Ideal) X0 X1 X4 X5 X6 X7 X8 (ix2 (rowOf t r) c) := by
  rw [reluK_apply, ref_v11]
  congr 1
  refine Finset.sum_congr rfl fun k _ => ?_
  rw [val_main_v8_apply, ← td_blk t X0 X1 X4 X5 X6 X7 b0 b1 b4 h0 h1 h4 r k]
  rfl

/-! ## The two gate rows -/

/-- A bias vector laid along every row of a 64-row block: entry (r, c) is the bias at c. -/
theorem bias_apply (v : FVec Ideal S1536 .f32) (r : Fin 64) (c : Fin 1536) :
    broadcastTo S64x1536 (shapeCast S1x1536 v shapeCasts_S1536_S1x1536) broadcasts_S1x1536_S64x1536 (ix2 r c) = v (ix1 c) := by
  rw [broadcastTo_apply _ broadcasts_S1x1536_S64x1536 (ix2 r c) (ix2 (0 : Fin 1) c) (fun a => by
    match a with
    | ⟨0, _⟩ => rfl
    | ⟨1, _⟩ => rfl)]
  exact shapeCast_apply v shapeCasts_S1536_S1x1536 (ix2 (0 : Fin 1) c) (ix1 c) (by
    rw [Shape.rowMajor_val_one, Shape.rowMajor_val_two]; show c.val = 0 * 1536 + c.val; omega)

/-- Entry (r, c) of the body's input-side gate rows. -/
theorem pay2_apply (b0 : FVec Ideal S64x300 .f32) (b1 : FVec Ideal S64x128 .f32) (b4 : FVec Ideal S64x512 .f32)
    (X5 : FVec Ideal S128x512 .f32) (X6 : FVec Ideal S128x128 .f32) (X7 : FVec Ideal S128x300 .f32) (X8 : FVec Ideal S128x128 .f32)
    (X15 : FVec Ideal S1536x128 .f32) (X17 : FVec Ideal S1536 .f32) (r : Fin 64) (c : Fin 1536) :
    k0_pay2 b0 b1 b4 X5 X6 X7 X8 X15 X17 (ix2 r c)
      = (∑ k : Fin 128, reluK b0 b1 b4 X5 X6 X7 X8 (ix2 r k) * X15 (ix2 c k)) + X17 (ix1 c) := by
  rw [pay2_eq, addf_apply, xwT_64x128_1536, bias_apply]

/-- Entry (r, c) of the body's hidden-side gate rows. -/
theorem pay3_apply (b3 : FVec Ideal S64x512 .f32) (X16 : FVec Ideal S1536x512 .f32) (X18 : FVec Ideal S1536 .f32) (r : Fin 64) (c : Fin 1536) :
    k0_pay3 b3 X16 X18 (ix2 r c) = (∑ k : Fin 512, b3 (ix2 r k) * X16 (ix2 c k)) + X18 (ix1 c) := by
  rw [pay3_eq, addf_apply, xwT_64x512_1536, bias_apply]

/-- Entry (b, c) of the reference's product of the fused input with the transposed input weights. -/
theorem ref_v13 (X0 : FVec Ideal S1024x300 .f32) (X1 : FVec Ideal S1024x128 .f32) (X4 : FVec Ideal S1024x512 .f32)
    (X5 : FVec Ideal S128x512 .f32) (X6 : FVec Ideal S128x128 .f32) (X7 : FVec Ideal S128x300 .f32) (X8 : FVec Ideal S128x128 .f32)
    (X15 : FVec Ideal S1536x128 .f32) (b : Fin 1024) (c : Fin 1536) :
    val_main_v13 (F := Ideal) X0 X1 X4 X5 X6 X7 X8 X15 (ix2 b c)
      = ∑ k : Fin 128, val_main_v11 (F := Ideal) X0 X1 X4 X5 X6 X7 X8 (ix2 b k) * X15 (ix2 c k) := by
  rw [val_main_v13_apply]
  refine Finset.sum_congr rfl fun k _ => ?_
  rw [val_main_v12_apply]
  have e1 : lidx_main_v13 (ix2 b c) k = ix2 b k := funext fun a => Fin.ext (by match a with | ⟨0, _⟩ => rfl | ⟨1, _⟩ => rfl)
  have e2 : idx_main_v12 (ridx_main_v13 (ix2 b c) k) = ix2 c k := funext fun a => Fin.ext (by match a with | ⟨0, _⟩ => rfl | ⟨1, _⟩ => rfl)
  rw [e1, e2]

/-- Entry (b, c) of the reference's input bias spread over the rows. -/
theorem ref_v15 (X17 : FVec Ideal S1536 .f32) (b : Fin 1024) (c : Fin 1536) :
    val_main_v15 (F := Ideal) X17 (ix2 b c) = X17 (ix1 c) := by
  rw [val_main_v15_apply, val_main_v14_apply]
  exact congrArg X17 (funext fun a => Fin.ext (by match a with | ⟨0, _⟩ => rfl))

/-- Entry (b, c) of the reference's input-side gate rows. -/
theorem ref_v16 (X0 : FVec Ideal S1024x300 .f32) (X1 : FVec Ideal S1024x128 .f32) (X4 : FVec Ideal S1024x512 .f32)
    (X5 : FVec Ideal S128x512 .f32) (X6 : FVec Ideal S128x128 .f32) (X7 : FVec Ideal S128x300 .f32) (X8 : FVec Ideal S128x128 .f32)
    (X15 : FVec Ideal S1536x128 .f32) (X17 : FVec Ideal S1536 .f32) (b : Fin 1024) (c : Fin 1536) :
    val_main_v16 (F := Ideal) X0 X1 X4 X5 X6 X7 X8 X15 X17 (ix2 b c)
      = (∑ k : Fin 128, val_main_v11 (F := Ideal) X0 X1 X4 X5 X6 X7 X8 (ix2 b k) * X15 (ix2 c k)) + X17 (ix1 c) := by
  rw [val_main_v16_apply, ref_v13, ref_v15]
  rfl

/-- Entry (b, c) of the reference's product of the first hidden state with the transposed hidden weights. -/
theorem ref_v18 (X3 : FVec Ideal S1024x512 .f32) (X16 : FVec Ideal S1536x512 .f32) (b : Fin 1024) (c : Fin 1536) :
    val_main_v18 (F := Ideal) X3 X16 (ix2 b c) = ∑ k : Fin 512, X3 (ix2 b k) * X16 (ix2 c k) := by
  rw [val_main_v18_apply]
  refine Finset.sum_congr rfl fun k _ => ?_
  rw [val_main_v17_apply]
  have e1 : lidx_main_v18 (ix2 b c) k = ix2 b k := funext fun a => Fin.ext (by match a with | ⟨0, _⟩ => rfl | ⟨1, _⟩ => rfl)
  have e2 : idx_main_v17 (ridx_main_v18 (ix2 b c) k) = ix2 c k := funext fun a => Fin.ext (by match a with | ⟨0, _⟩ => rfl | ⟨1, _⟩ => rfl)
  rw [e1, e2]

/-- Entry (b, c) of the reference's hidden bias spread over the rows. -/
theorem ref_v20 (X18 : FVec Ideal S1536 .f32) (b : Fin 1024) (c : Fin 1536) :
    val_main_v20 (F := Ideal) X18 (ix2 b c) = X18 (ix1 c) := by
  rw [val_main_v20_apply, val_main_v19_apply]
  exact congrArg X18 (funext fun a => Fin.ext (by match a with | ⟨0, _⟩ => rfl))

/-- Entry (b, c) of the reference's hidden-side gate rows. -/
theorem ref_v21 (X3 : FVec Ideal S1024x512 .f32) (X16 : FVec Ideal S1536x512 .f32) (X18 : FVec Ideal S1536 .f32) (b : Fin 1024) (c : Fin 1536) :
    val_main_v21 (F := Ideal) X3 X16 X18 (ix2 b c) = (∑ k : Fin 512, X3 (ix2 b k) * X16 (ix2 c k)) + X18 (ix1 c) := by
  rw [val_main_v21_apply, ref_v18, ref_v20]
  rfl

/-- Row r of the block's input-side gate rows is row 64 t + r of the reference's. -/
theorem gi_blk (t : Fin 16) (X0 : FVec Ideal S1024x300 .f32) (X1 : FVec Ideal S1024x128 .f32) (X4 : FVec Ideal S1024x512 .f32)
    (X5 : FVec Ideal S128x512 .f32) (X6 : FVec Ideal S128x128 .f32) (X7 : FVec Ideal S128x300 .f32) (X8 : FVec Ideal S128x128 .f32)
    (X15 : FVec Ideal S1536x128 .f32) (X17 : FVec Ideal S1536 .f32)
    (b0 : FVec Ideal S64x300 .f32) (b1 : FVec Ideal S64x128 .f32) (b4 : FVec Ideal S64x512 .f32)
    (h0 : RowBlk t b0 X0) (h1 : RowBlk t b1 X1) (h4 : RowBlk t b4 X4) (r : Fin 64) (c : Fin 1536) :
    k0_pay2 (F := Ideal) b0 b1 b4 X5 X6 X7 X8 X15 X17 (ix2 r c) = val_main_v16 (F := Ideal) X0 X1 X4 X5 X6 X7 X8 X15 X17 (ix2 (rowOf t r) c) := by
  rw [pay2_apply, ref_v16]
  congr 1
  exact Finset.sum_congr rfl fun k _ => by rw [relu_blk t X0 X1 X4 X5 X6 X7 X8 b0 b1 b4 h0 h1 h4 r k]

/-- Row r of the block's hidden-side gate rows is row 64 t + r of the reference's. -/
theorem gh_blk (t : Fin 16) (X3 : FVec Ideal S1024x512 .f32) (X16 : FVec Ideal S1536x512 .f32) (X18 : FVec Ideal S1536 .f32)
    (b3 : FVec Ideal S64x512 .f32) (h3 : RowBlk t b3 X3) (r : Fin 64) (c : Fin 1536) :
    k0_pay3 (F := Ideal) b3 X16 X18 (ix2 r c) = val_main_v21 (F := Ideal) X3 X16 X18 (ix2 (rowOf t r) c) := by
  rw [pay3_apply, ref_v21]
  congr 1
  exact Finset.sum_congr rfl fun k _ => by rw [h3 r k]

/-! ## The three bands of 512 columns -/

/-- Column c of the first band of a 1536-wide row. -/
def lo (c : Fin 512) : Fin 1536 := ⟨c.val, by omega⟩
/-- Column c of the second band. -/
def mid (c : Fin 512) : Fin 1536 := ⟨512 + c.val, by omega⟩
/-- Column c of the third band. -/
def hi (c : Fin 512) : Fin 1536 := ⟨1024 + c.val, by omega⟩

/-- The first band of a block of gate rows, read at an entry. -/
theorem slice_lo (v : FVec Ideal S64x1536 .f32) (r : Fin 64) (c : Fin 512) :
    extractStridedSlice S64x512 ![0, 0] v slices_S64x1536_o0_0_S64x512 (ix2 r c) = v (ix2 r (lo c)) :=
  extractStridedSlice_apply ![0, 0] v slices_S64x1536_o0_0_S64x512 (ix2 r c) (ix2 r (lo c)) (fun a => by
    match a with
    | ⟨0, _⟩ => exact (Nat.zero_add _).symm
    | ⟨1, _⟩ => exact (Nat.zero_add _).symm)

/-- The second band, read at an entry. -/
theorem slice_mid (v : FVec Ideal S64x1536 .f32) (r : Fin 64) (c : Fin 512) :
    extractStridedSlice S64x512 ![0, 512] v slices_S64x1536_o0_512_S64x512 (ix2 r c) = v (ix2 r (mid c)) :=
  extractStridedSlice_apply ![0, 512] v slices_S64x1536_o0_512_S64x512 (ix2 r c) (ix2 r (mid c)) (fun a => by
    match a with
    | ⟨0, _⟩ => exact (Nat.zero_add _).symm
    | ⟨1, _⟩ => rfl)

/-- The third band, read at an entry. -/
theorem slice_hi (v : FVec Ideal S64x1536 .f32) (r : Fin 64) (c : Fin 512) :
    extractStridedSlice S64x512 ![0, 1024] v slices_S64x1536_o0_1024_S64x512 (ix2 r c) = v (ix2 r (hi c)) :=
  extractStridedSlice_apply ![0, 1024] v slices_S64x1536_o0_1024_S64x512 (ix2 r c) (ix2 r (hi c)) (fun a => by
    match a with
    | ⟨0, _⟩ => exact (Nat.zero_add _).symm
    | ⟨1, _⟩ => rfl)

/-- The word of the number one. -/
theorem one_bits : Ideal.ofBits .f32 0x3F800000#32 = 1 := by
  simp [Ideal.ofBits, Ideal.ieee, -EReal.coe_mul]; norm_num

/-! ## The gates -/

/-- Entry (r, c) of the body's update gate: the logistic of the second bands' sum. -/
theorem pay4_apply (b0 : FVec Ideal S64x300 .f32) (b1 : FVec Ideal S64x128 .f32) (b3 b4 : FVec Ideal S64x512 .f32)
    (X5 : FVec Ideal S128x512 .f32) (X6 : FVec Ideal S128x128 .f32) (X7 : FVec Ideal S128x300 .f32) (X8 : FVec Ideal S128x128 .f32)
    (X15 : FVec Ideal S1536x128 .f32) (X16 : FVec Ideal S1536x512 .f32) (X17 X18 : FVec Ideal S1536 .f32) (r : Fin 64) (c : Fin 512) :
    k0_pay4 (F := Ideal) b0 b1 b3 b4 X5 X6 X7 X8 X15 X16 X17 X18 (ix2 r c)
      = Ideal.logistic (k0_pay2 (F := Ideal) b0 b1 b4 X5 X6 X7 X8 X15 X17 (ix2 r (mid c)) + k0_pay3 (F := Ideal) b3 X16 X18 (ix2 r (mid c))) := by
  show Ideal.logistic (extractStridedSlice S64x512 ![0, 512] (k0_pay2 (F := Ideal) b0 b1 b4 X5 X6 X7 X8 X15 X17) slices_S64x1536_o0_512_S64x512 (ix2 r c)
      + extractStridedSlice S64x512 ![0, 512] (k0_pay3 (F := Ideal) b3 X16 X18) slices_S64x1536_o0_512_S64x512 (ix2 r c)) = _
  rw [slice_mid, slice_mid]

/-- Entry (r, c) of the body's candidate state: tanh of the third input band plus the reset gate times the third hidden band. -/
theorem pay5_apply (b0 : FVec Ideal S64x300 .f32) (b1 : FVec Ideal S64x128 .f32) (b3 b4 : FVec Ideal S64x512 .f32)
    (X5 : FVec Ideal S128x512 .f32) (X6 : FVec Ideal S128x128 .f32) (X7 : FVec Ideal S128x300 .f32) (X8 : FVec Ideal S128x128 .f32)
    (X15 : FVec Ideal S1536x128 .f32) (X16 : FVec Ideal S1536x512 .f32) (X17 X18 : FVec Ideal S1536 .f32) (r : Fin 64) (c : Fin 512) :
    k0_pay5 (F := Ideal) b0 b1 b3 b4 X5 X6 X7 X8 X15 X16 X17 X18 (ix2 r c)
      = Ideal.tanh (k0_pay2 (F := Ideal) b0 b1 b4 X5 X6 X7 X8 X15 X17 (ix2 r (hi c))
          + Ideal.logistic (k0_pay2 (F := Ideal) b0 b1 b4 X5 X6 X7 X8 X15 X17 (ix2 r (lo c)) + k0_pay3 (F := Ideal) b3 X16 X18 (ix2 r (lo c)))
            * k0_pay3 (F := Ideal) b3 X16 X18 (ix2 r (hi c))) := by
  show Ideal.tanh (extractStridedSlice S64x512 ![0, 1024] (k0_pay2 (F := Ideal) b0 b1 b4 X5 X6 X7 X8 X15 X17) slices_S64x1536_o0_1024_S64x512 (ix2 r c)
      + Ideal.logistic (extractStridedSlice S64x512 ![0, 0] (k0_pay2 (F := Ideal) b0 b1 b4 X5 X6 X7 X8 X15 X17) slices_S64x1536_o0_0_S64x512 (ix2 r c)
          + extractStridedSlice S64x512 ![0, 0] (k0_pay3 (F := Ideal) b3 X16 X18) slices_S64x1536_o0_0_S64x512 (ix2 r c))
        * extractStridedSlice S64x512 ![0, 1024] (k0_pay3 (F := Ideal) b3 X16 X18) slices_S64x1536_o0_1024_S64x512 (ix2 r c)) = _
  rw [slice_hi, slice_hi, slice_lo, slice_lo]

/-- The reference's six bands read their gate rows at the same columns. -/
theorem ref_idx22 (b : Fin 1024) (c : Fin 512) : idx_main_v22 (ix2 b c) = ix2 b (lo c) :=
  funext fun a => Fin.ext (by match a with | ⟨0, _⟩ => rfl | ⟨1, _⟩ => rfl)
theorem ref_idx23 (b : Fin 1024) (c : Fin 512) : idx_main_v23 (ix2 b c) = ix2 b (mid c) :=
  funext fun a => Fin.ext (by match a with | ⟨0, _⟩ => rfl | ⟨1, _⟩ => rfl)
theorem ref_idx24 (b : Fin 1024) (c : Fin 512) : idx_main_v24 (ix2 b c) = ix2 b (hi c) :=
  funext fun a => Fin.ext (by match a with | ⟨0, _⟩ => rfl | ⟨1, _⟩ => rfl)
theorem ref_idx25 (b : Fin 1024) (c : Fin 512) : idx_main_v25 (ix2 b c) = ix2 b (lo c) :=
  funext fun a => Fin.ext (by match a with | ⟨0, _⟩ => rfl | ⟨1, _⟩ => rfl)
theorem ref_idx26 (b : Fin 1024) (c : Fin 512) : idx_main_v26 (ix2 b c) = ix2 b (mid c) :=
  funext fun a => Fin.ext (by match a with | ⟨0, _⟩ => rfl | ⟨1, _⟩ => rfl)
theorem ref_idx27 (b : Fin 1024) (c : Fin 512) : idx_main_v27 (ix2 b c) = ix2 b (hi c) :=
  funext fun a => Fin.ext (by match a with | ⟨0, _⟩ => rfl | ⟨1, _⟩ => rfl)

/-- Entry (b, c) of the reference's reset gate: one over one plus the exponential of minus the first bands' sum. -/
theorem ref_v34 (X0 : FVec Ideal S1024x300 .f32) (X1 : FVec Ideal S1024x128 .f32) (X3 X4 : FVec Ideal S1024x512 .f32)
    (X5 : FVec Ideal S128x512 .f32) (X6 : FVec Ideal S128x128 .f32) (X7 : FVec Ideal S128x300 .f32) (X8 : FVec Ideal S128x128 .f32)
    (X15 : FVec Ideal S1536x128 .f32) (X16 : FVec Ideal S1536x512 .f32) (X17 X18 : FVec Ideal S1536 .f32) (b : Fin 1024) (c : Fin 512) :
    val_main_v34 (F := Ideal) X0 X1 X3 X4 X5 X6 X7 X8 X15 X16 X17 X18 (ix2 b c)
      = Ideal.logistic (val_main_v16 (F := Ideal) X0 X1 X4 X5 X6 X7 X8 X15 X17 (ix2 b (lo c)) + val_main_v21 (F := Ideal) X3 X16 X18 (ix2 b (lo c))) := by
  rw [val_main_v34_apply, val_main_v33_apply, val_main_cst_0_apply, val_main_v32_apply, val_main_v31_apply, val_main_cst_apply,
    val_main_v30_apply, val_main_v29_apply, val_main_v28_apply, val_main_v22_apply, val_main_v25_apply, ref_idx22, ref_idx25]
  show Ideal.div (Ideal.ofBits .f32 0x3F800000#32) (Ideal.ofBits .f32 0x3F800000#32 + Ideal.exp (-(_ + _))) = _
  rw [one_bits]
  rfl

/-- Entry (b, c) of the reference's update gate: the same of the second bands' sum. -/
theorem ref_v41 (X0 : FVec Ideal S1024x300 .f32) (X1 : FVec Ideal S1024x128 .f32) (X3 X4 : FVec Ideal S1024x512 .f32)
    (X5 : FVec Ideal S128x512 .f32) (X6 : FVec Ideal S128x128 .f32) (X7 : FVec Ideal S128x300 .f32) (X8 : FVec Ideal S128x128 .f32)
    (X15 : FVec Ideal S1536x128 .f32) (X16 : FVec Ideal S1536x512 .f32) (X17 X18 : FVec Ideal S1536 .f32) (b : Fin 1024) (c : Fin 512) :
    val_main_v41 (F := Ideal) X0 X1 X3 X4 X5 X6 X7 X8 X15 X16 X17 X18 (ix2 b c)
      = Ideal.logistic (val_main_v16 (F := Ideal) X0 X1 X4 X5 X6 X7 X8 X15 X17 (ix2 b (mid c)) + val_main_v21 (F := Ideal) X3 X16 X18 (ix2 b (mid c))) := by
  rw [val_main_v41_apply, val_main_v40_apply, val_main_cst_2_apply, val_main_v39_apply, val_main_v38_apply, val_main_cst_1_apply,
    val_main_v37_apply, val_main_v36_apply, val_main_v35_apply, val_main_v23_apply, val_main_v26_apply, ref_idx23, ref_idx26]
  show Ideal.div (Ideal.ofBits .f32 0x3F800000#32) (Ideal.ofBits .f32 0x3F800000#32 + Ideal.exp (-(_ + _))) = _
  rw [one_bits]
  rfl

/-- Entry (b, c) of the reference's candidate state. -/
theorem ref_v44 (X0 : FVec Ideal S1024x300 .f32) (X1 : FVec Ideal S1024x128 .f32) (X3 X4 : FVec Ideal S1024x512 .f32)
    (X5 : FVec Ideal S128x512 .f32) (X6 : FVec Ideal S128x128 .f32) (X7 : FVec Ideal S128x300 .f32) (X8 : FVec Ideal S128x128 .f32)
    (X15 : FVec Ideal S1536x128 .f32) (X16 : FVec Ideal S1536x512 .f32) (X17 X18 : FVec Ideal S1536 .f32) (b : Fin 1024) (c : Fin 512) :
    val_main_v44 (F := Ideal) X0 X1 X3 X4 X5 X6 X7 X8 X15 X16 X17 X18 (ix2 b c)
      = Ideal.tanh (val_main_v16 (F := Ideal) X0 X1 X4 X5 X6 X7 X8 X15 X17 (ix2 b (hi c))
          + Ideal.logistic (val_main_v16 (F := Ideal) X0 X1 X4 X5 X6 X7 X8 X15 X17 (ix2 b (lo c)) + val_main_v21 (F := Ideal) X3 X16 X18 (ix2 b (lo c)))
            * val_main_v21 (F := Ideal) X3 X16 X18 (ix2 b (hi c))) := by
  rw [val_main_v44_apply, val_main_v43_apply, val_main_v42_apply, ref_v34, val_main_v24_apply, val_main_v27_apply, ref_idx24, ref_idx27]
  rfl

/-- Entry (b, c) of the reference's new hidden state: one minus the update gate, times the candidate, plus the gate times the old state. -/
theorem ref_v49 (X0 : FVec Ideal S1024x300 .f32) (X1 : FVec Ideal S1024x128 .f32) (X3 X4 : FVec Ideal S1024x512 .f32)
    (X5 : FVec Ideal S128x512 .f32) (X6 : FVec Ideal S128x128 .f32) (X7 : FVec Ideal S128x300 .f32) (X8 : FVec Ideal S128x128 .f32)
    (X15 : FVec Ideal S1536x128 .f32) (X16 : FVec Ideal S1536x512 .f32) (X17 X18 : FVec Ideal S1536 .f32) (b : Fin 1024) (c : Fin 512) :
    val_main_v49 (F := Ideal) X0 X1 X3 X4 X5 X6 X7 X8 X15 X16 X17 X18 (ix2 b c)
      = (Ideal.ofBits .f32 0x3F800000#32 - val_main_v41 (F := Ideal) X0 X1 X3 X4 X5 X6 X7 X8 X15 X16 X17 X18 (ix2 b c))
          * val_main_v44 (F := Ideal) X0 X1 X3 X4 X5 X6 X7 X8 X15 X16 X17 X18 (ix2 b c)
        + val_main_v41 (F := Ideal) X0 X1 X3 X4 X5 X6 X7 X8 X15 X16 X17 X18 (ix2 b c) * X3 (ix2 b c) := by
  rw [val_main_v49_apply, val_main_v47_apply, val_main_v48_apply, val_main_v46_apply, val_main_v45_apply, val_main_cst_3_apply]
  rfl

/-- Entry (r, c) of the body's new hidden state, from the gate, the candidate and the old state. -/
theorem pay7_apply (b3 Z N : FVec Ideal S64x512 .f32) (r : Fin 64) (c : Fin 512) :
    k0_pay7 (F := Ideal) b3 Z N (k0_pay6 (F := Ideal)) (ix2 r c)
      = (Ideal.ofBits .f32 0x3F800000#32 - Z (ix2 r c)) * N (ix2 r c) + Z (ix2 r c) * b3 (ix2 r c) := rfl

/-- The new first hidden state of block `t`, as the body computes it from the block's rows of the step input,
    the target feature and the two hidden states, is block `t` of the reference's new first hidden state. -/
theorem h1_block (t : Fin 16) (X0 : FVec Ideal S1024x300 .f32) (X1 : FVec Ideal S1024x128 .f32) (X3 : FVec Ideal S1024x512 .f32) (X4 : FVec Ideal S1024x512 .f32) (X5 : FVec Ideal S128x512 .f32) (X6 : FVec Ideal S128x128 .f32) (X7 : FVec Ideal S128x300 .f32) (X8 : FVec Ideal S128x128 .f32) (X15 : FVec Ideal S1536x128 .f32) (X16 : FVec Ideal S1536x512 .f32) (X17 : FVec Ideal S1536 .f32) (X18 : FVec Ideal S1536 .f32)
    (b0 : FVec Ideal S64x300 .f32) (b1 : FVec Ideal S64x128 .f32) (b3 b4 : FVec Ideal S64x512 .f32)
    (h0 : RowBlk t b0 X0) (h1 : RowBlk t b1 X1) (h3 : RowBlk t b3 X3) (h4 : RowBlk t b4 X4) :
    RowBlk t (k0_pay7 b3 (k0_pay4 b0 b1 b3 b4 X5 X6 X7 X8 X15 X16 X17 X18) (k0_pay5 b0 b1 b3 b4 X5 X6 X7 X8 X15 X16 X17 X18) (k0_pay6 (F := Ideal)))
      (val_main_v49 (F := Ideal) X0 X1 X3 X4 X5 X6 X7 X8 X15 X16 X17 X18) := by
  intro r c
  rw [pay7_apply, ref_v49, pay4_apply, pay5_apply, ref_v41, ref_v44]
  simp only [gi_blk t X0 X1 X4 X5 X6 X7 X8 X15 X17 b0 b1 b4 h0 h1 h4, gh_blk t X3 X16 X18 b3 h3, h3 r c]

end Cert.Bridge.CellOne

end
-- ==== Proof.PartB1.lean ====
/-
  Attention scores, one block of rows and one chunk of proposals at a time. The body projects the new
  first hidden state (a 64 × 512 block) and each chunk of 64 proposals' features, adds the two, takes
  tanh and contracts with the attention vector; the reference does the same for every row and every proposal
  with two contractions. Entry (r, q) of a chunk's scores is the reference's score of row 64 t + r and
  proposal 64 k + q.
-/
import proofs.«129328_j52226802320074_1_alg».proof.Proof.Gen.KernelIdeal.Skeleton
import proofs.«129328_j52226802320074_1_alg».proof.Proof.Gen.ReferenceIdeal.Read
import proofs.«129328_j52226802320074_1_alg».proof.Proof.Rows
import proofs.«129328_j52226802320074_1_alg».proof.Proof.KMatmul
import proofs.«129328_j52226802320074_1_alg».proof.Proof.KDefs

noncomputable section

namespace Cert.Bridge.Scores

open Idealize.ShloMosaic Idealize.ShloMosaic.ValueIdx Cert.Bridge Cert.KernelIdeal Cert.KernelIdeal.Gen
open Cert.KernelIdeal.Pieces
open Cert.ReferenceIdeal.Read (val_main_v49 val_main_v52 val_main_v57 val_main_v68 val_main_v71 val_main_v118)

/-- The projected hidden state of block `t` is block `t` of the reference's projected hidden state, once the
    hidden state itself is block `t` of the reference's. -/
theorem hproj_block (t : Fin 16) (X0 : FVec Ideal S1024x300 .f32) (X1 : FVec Ideal S1024x128 .f32) (X3 : FVec Ideal S1024x512 .f32) (X4 : FVec Ideal S1024x512 .f32) (X5 : FVec Ideal S128x512 .f32) (X6 : FVec Ideal S128x128 .f32) (X7 : FVec Ideal S128x300 .f32) (X8 : FVec Ideal S128x128 .f32) (X10 : FVec Ideal S512x512 .f32) (X15 : FVec Ideal S1536x128 .f32) (X16 : FVec Ideal S1536x512 .f32) (X17 : FVec Ideal S1536 .f32) (X18 : FVec Ideal S1536 .f32)
    (v2 v66 v69 v70 : FVec Ideal S64x512 .f32)
    (hh1 : RowBlk t (k0_pay7 v2 v66 v69 v70) (val_main_v49 (F := Ideal) X0 X1 X3 X4 X5 X6 X7 X8 X15 X16 X17 X18)) :
    RowBlk t (k0_pay8 v2 X10 v66 v69 v70) (val_main_v52 (F := Ideal) X0 X1 X3 X4 X5 X6 X7 X8 X10 X15 X16 X17 X18) := by
  intro r c
  unfold k0_pay8
  refine (Cert.KernelIdeal.Products.xwT_64x512_512 _ _ r c).trans ?_
  rw [Cert.ReferenceIdeal.Read.val_main_v52_apply]
  refine Finset.sum_congr rfl fun k _ => ?_
  rw [Cert.ReferenceIdeal.Read.val_main_v51_apply]
  have e1 : Cert.ReferenceIdeal.Read.lidx_main_v52 (ix2 (rowOf t r) c) k = ix2 (rowOf t r) k :=
    funext fun a => Fin.ext (by match a with | ⟨0, _⟩ => rfl | ⟨1, _⟩ => rfl)
  have e2 : Cert.ReferenceIdeal.Read.idx_main_v51 (Cert.ReferenceIdeal.Read.ridx_main_v52 (ix2 (rowOf t r) c) k) = ix2 c k :=
    funext fun a => Fin.ext (by match a with | ⟨0, _⟩ => rfl | ⟨1, _⟩ => rfl)
  rw [e1, e2, hh1 r k]

/-- Putting lane `h` back over the entry (r, q) of the lane sum gives the entry (r, q, h). -/
theorem lift_rq (r q : Fin 64) (h : Fin 512) :
    reduces_S64x64x512_S64x64.lift (ix2 r q) h = ix3 r q h := by
  funext c
  apply Fin.ext
  match c with
  | ⟨0, _⟩ => rfl
  | ⟨1, _⟩ => rfl
  | ⟨2, _⟩ => rfl

/-- The attention vector, stored as one row, read as a plain vector: entry `h` is entry (0, h). -/
theorem pay9_apply (X11 : FVec Ideal S1x512 .f32) (h : Fin 512) :
    k0_pay9 X11 (ix1 h) = X11 (ix2 (0 : Fin 1) h) := by
  unfold k0_pay9
  exact shapeCast_apply _ _ (ix1 h) (ix2 (0 : Fin 1) h) (by
    refine (Shape.rowMajor_val_two (d := ![1, 512]) (ix2 (0 : Fin 1) h)).trans ?_
    refine Eq.trans ?_ (Shape.rowMajor_val_one (d := ![512]) (ix1 h)).symm
    show 0 * 512 + h.val = h.val
    omega)

/-- The projected features of a chunk: row `64 r + q` of the flattened chunk is proposal `q` of row `r`, so
    entry (64 r + q, h) is `∑_f ch[r, q, f] · W[h, f]`. -/
theorem featProj_apply (W : FVec Ideal S512x128 .f32) (ch : FVec Ideal S64x64x128 .f32) (r q : Fin 64) (h : Fin 512) :
    featProj W ch (ix2 (⟨64 * r.val + q.val, by omega⟩ : Fin 4096) h) = ∑ f : Fin 128, ch (ix3 r q f) * W (ix2 h f) := by
  unfold featProj
  refine (Cert.KernelIdeal.Products.xwT_4096x128_512 _ _ _ h).trans ?_
  refine Finset.sum_congr rfl fun f _ => ?_
  refine congrArg (· * W (ix2 h f)) ?_
  exact shapeCast_apply _ _ (ix2 (⟨64 * r.val + q.val, by omega⟩ : Fin 4096) f) (ix3 r q f) (by
    refine (Shape.rowMajor_val_three (d := ![64, 64, 128]) (ix3 r q f)).trans ?_
    refine Eq.trans ?_ (Shape.rowMajor_val_two (d := ![4096, 128]) (ix2 (⟨64 * r.val + q.val, by omega⟩ : Fin 4096) f)).symm
    show (r.val * 64 + q.val) * 128 + f.val = (64 * r.val + q.val) * 128 + f.val
    omega)

/-- A chunk's score at (r, q): the sum over the 512 lanes of tanh(projected feature + projected hidden state)
    times the attention vector's lane. -/
theorem chunkScore_apply (hp : FVec Ideal S64x512 .f32) (wa : FVec Ideal S512 .f32) (fp : FVec Ideal S4096x512 .f32) (r q : Fin 64) :
    chunkScore hp wa fp (ix2 r q)
      = ∑ h : Fin 512, Ideal.tanh (fp (ix2 (⟨64 * r.val + q.val, by omega⟩ : Fin 4096) h) + hp (ix2 r h)) * wa (ix1 h) := by
  unfold chunkScore
  refine (Ideal.multiReduction_add_single _ _ _ _ _ (ix2 r q)).trans ?_
  refine Finset.sum_congr rfl fun h _ => ?_
  refine (congrArg _ (lift_rq r q h)).trans ?_
  rw [mulf_apply]
  refine congrArg₂ (· * ·) ?_ ?_
  · refine congrArg Ideal.tanh ?_
    rw [addf_apply]
    refine congrArg₂ (· + ·) ?_ ?_
    · exact shapeCast_apply _ _ (ix3 r q h) (ix2 (⟨64 * r.val + q.val, by omega⟩ : Fin 4096) h) (by
        refine (Shape.rowMajor_val_two (d := ![4096, 512]) (ix2 (⟨64 * r.val + q.val, by omega⟩ : Fin 4096) h)).trans ?_
        refine Eq.trans ?_ (Shape.rowMajor_val_three (d := ![64, 64, 512]) (ix3 r q h)).symm
        show (64 * r.val + q.val) * 512 + h.val = (r.val * 64 + q.val) * 512 + h.val
        omega)
    · refine (broadcastTo_apply _ _ (ix3 r q h) (ix3 r (0 : Fin 1) h) (fun a => by
        match a with
        | ⟨0, _⟩ => rfl
        | ⟨1, _⟩ => rfl
        | ⟨2, _⟩ => rfl)).trans ?_
      exact shapeCast_apply _ _ (ix3 r (0 : Fin 1) h) (ix2 r h) (by
        refine (Shape.rowMajor_val_two (d := ![64, 512]) (ix2 r h)).trans ?_
        refine Eq.trans ?_ (Shape.rowMajor_val_three (d := ![64, 1, 512]) (ix3 r (0 : Fin 1) h)).symm
        show r.val * 512 + h.val = (r.val * 1 + 0) * 512 + h.val
        omega)
  · refine (broadcastTo_apply _ _ (ix3 r q h) (ix3 (0 : Fin 1) (0 : Fin 1) h) (fun a => by
      match a with
      | ⟨0, _⟩ => rfl
      | ⟨1, _⟩ => rfl
      | ⟨2, _⟩ => rfl)).trans ?_
    exact shapeCast_apply _ _ (ix3 (0 : Fin 1) (0 : Fin 1) h) (ix1 h) (by
      refine (Shape.rowMajor_val_one (d := ![512]) (ix1 h)).trans ?_
      refine Eq.trans ?_ (Shape.rowMajor_val_three (d := ![1, 1, 512]) (ix3 (0 : Fin 1) (0 : Fin 1) h)).symm
      show h.val = (0 * 1 + 0) * 512 + h.val
      omega)

open Cert.ReferenceIdeal.Read in
/-- The reference's score of row `R` and proposal `Q`: the same sum over the 512 lanes, the projected feature
    being the contraction of the proposal's 128 features with a row of the feature weights, the projected hidden
    state read at row `R`. -/
theorem ref_score_apply (X0 : FVec Ideal S1024x300 .f32) (X1 : FVec Ideal S1024x128 .f32) (X2 : FVec Ideal S1024x256x128 .f32) (X3 : FVec Ideal S1024x512 .f32) (X4 : FVec Ideal S1024x512 .f32) (X5 : FVec Ideal S128x512 .f32) (X6 : FVec Ideal S128x128 .f32) (X7 : FVec Ideal S128x300 .f32) (X8 : FVec Ideal S128x128 .f32) (X9 : FVec Ideal S512x128 .f32) (X10 : FVec Ideal S512x512 .f32) (X11 : FVec Ideal S1x512 .f32) (X15 : FVec Ideal S1536x128 .f32) (X16 : FVec Ideal S1536x512 .f32) (X17 : FVec Ideal S1536 .f32) (X18 : FVec Ideal S1536 .f32)
    (R : Fin 1024) (Q : Fin 256) :
    (val_main_v57 (F := Ideal) X0 X1 X2 X3 X4 X5 X6 X7 X8 X9 X10 X11 X15 X16 X17 X18) (ix3 R Q (0 : Fin 1))
      = ∑ h : Fin 512, Ideal.tanh ((∑ f : Fin 128, X2 (ix3 R Q f) * X9 (ix2 h f))
            + (val_main_v52 (F := Ideal) X0 X1 X3 X4 X5 X6 X7 X8 X10 X15 X16 X17 X18) (ix2 R h)) * X11 (ix2 (0 : Fin 1) h) := by
  rw [val_main_v57_apply]
  refine Finset.sum_congr rfl fun h _ => ?_
  have e1 : lidx_main_v57 (ix3 R Q (0 : Fin 1)) h = ix3 R Q h :=
    funext fun a => Fin.ext (by match a with | ⟨0, _⟩ => rfl | ⟨1, _⟩ => rfl | ⟨2, _⟩ => rfl)
  have e2 : ridx_main_v57 (ix3 R Q (0 : Fin 1)) h = ix2 (0 : Fin 1) h :=
    funext fun a => Fin.ext (by match a with | ⟨0, _⟩ => rfl | ⟨1, _⟩ => rfl)
  have e3 : idx_main_v53 (idx_main_v54 (ix3 R Q h)) = ix2 R h :=
    funext fun a => Fin.ext (by match a with | ⟨0, _⟩ => rfl | ⟨1, _⟩ => rfl)
  rw [e1, e2, val_main_v56_apply, val_main_v55_apply, val_main_v50_apply, val_main_v54_apply, val_main_v53_apply, e3]
  refine congrArg (fun s => Ideal.tanh (s + _) * _) ?_
  refine Finset.sum_congr rfl fun f _ => ?_
  have e4 : lidx_main_v50 (ix3 R Q h) f = ix3 R Q f :=
    funext fun a => Fin.ext (by match a with | ⟨0, _⟩ => rfl | ⟨1, _⟩ => rfl | ⟨2, _⟩ => rfl)
  have e5 : ridx_main_v50 (ix3 R Q h) f = ix2 h f :=
    funext fun a => Fin.ext (by match a with | ⟨0, _⟩ => rfl | ⟨1, _⟩ => rfl)
  rw [e4, e5]

/-- The scores of chunk `k` of block `t`. -/
theorem score_block (t : Fin 16) (k : Fin 4) (X0 : FVec Ideal S1024x300 .f32) (X1 : FVec Ideal S1024x128 .f32) (X2 : FVec Ideal S1024x256x128 .f32) (X3 : FVec Ideal S1024x512 .f32) (X4 : FVec Ideal S1024x512 .f32) (X5 : FVec Ideal S128x512 .f32) (X6 : FVec Ideal S128x128 .f32) (X7 : FVec Ideal S128x300 .f32) (X8 : FVec Ideal S128x128 .f32) (X9 : FVec Ideal S512x128 .f32) (X10 : FVec Ideal S512x512 .f32) (X11 : FVec Ideal S1x512 .f32) (X15 : FVec Ideal S1536x128 .f32) (X16 : FVec Ideal S1536x512 .f32) (X17 : FVec Ideal S1536 .f32) (X18 : FVec Ideal S1536 .f32)
    (hp : FVec Ideal S64x512 .f32) (ch : FVec Ideal S64x64x128 .f32)
    (hhp : RowBlk t hp (val_main_v52 (F := Ideal) X0 X1 X3 X4 X5 X6 X7 X8 X10 X15 X16 X17 X18)) (hch : ChunkBlk t k ch X2) (r q : Fin 64) :
    chunkScore hp (k0_pay9 X11) (featProj X9 ch) (ix2 r q)
      = (val_main_v57 (F := Ideal) X0 X1 X2 X3 X4 X5 X6 X7 X8 X9 X10 X11 X15 X16 X17 X18) (ix3 (rowOf t r) (propOf k q) (0 : Fin 1)) := by
  rw [chunkScore_apply, ref_score_apply]
  refine Finset.sum_congr rfl fun h _ => ?_
  rw [featProj_apply, pay9_apply, hhp r h]
  refine congrArg (fun s => Ideal.tanh (s + _) * _) ?_
  refine Finset.sum_congr rfl fun f _ => ?_
  rw [hch r q f]

end Cert.Bridge.Scores

end
-- ==== Proof.PartB2.lean ====
/-
  The attention-weighted sum of the proposals' features.
  The body adds up feature × weight chunk by chunk, 64 proposals at a time; the reference multiplies and adds
  over the whole proposal axis of 256. A sum over 256 proposals does not depend on how the proposals are
  grouped, so the two agree.
-/
import proofs.«129328_j52226802320074_1_alg».proof.Proof.Gen.KernelIdeal.Skeleton
import proofs.«129328_j52226802320074_1_alg».proof.Proof.Gen.ReferenceIdeal.Read
import proofs.«129328_j52226802320074_1_alg».proof.Proof.Rows
import proofs.«129328_j52226802320074_1_alg».proof.Proof.KDefs

noncomputable section

namespace Cert.Bridge.Attend

open Idealize.ShloMosaic Idealize.ShloMosaic.ValueIdx Cert.Bridge Cert.KernelIdeal Cert.KernelIdeal.Gen
open Cert.KernelIdeal.Pieces
open Cert.ReferenceIdeal.Read (val_main_v49 val_main_v52 val_main_v57 val_main_v68 val_main_v71 val_main_v118)

/-- A sum over the 256 proposals is the sum over the four chunks of the sums over each chunk's 64 proposals. -/
theorem sum_chunks {M : Type*} [AddCommMonoid M] (g : Fin 256 → M) :
    ∑ p : Fin 256, g p = ∑ k : Fin 4, ∑ q : Fin 64, g (propOf k q) := by
  rw [← Fintype.sum_prod_type' (fun k q => g (propOf k q))]
  refine (Equiv.sum_comp (finProdFinEquiv : Fin 4 × Fin 64 ≃ Fin 256) g).symm.trans ?_
  refine Finset.sum_congr rfl fun x _ => congrArg g (Fin.ext ?_)
  simp [finProdFinEquiv, propOf]; omega

/-- Chunk `k`'s share of the weighted feature sum of block `t`. -/
theorem weighted_block (t : Fin 16) (k : Fin 4) (off : Fin 2 → Nat) (hs : S64x256.Slices off S64x64) (hoff : off = ![0, 64 * k.val])
    (X0 : FVec Ideal S1024x300 .f32) (X1 : FVec Ideal S1024x128 .f32) (X2 : FVec Ideal S1024x256x128 .f32) (X3 : FVec Ideal S1024x512 .f32) (X4 : FVec Ideal S1024x512 .f32) (X5 : FVec Ideal S128x512 .f32) (X6 : FVec Ideal S128x128 .f32) (X7 : FVec Ideal S128x300 .f32) (X8 : FVec Ideal S128x128 .f32) (X9 : FVec Ideal S512x128 .f32) (X10 : FVec Ideal S512x512 .f32) (X11 : FVec Ideal S1x512 .f32) (X15 : FVec Ideal S1536x128 .f32) (X16 : FVec Ideal S1536x512 .f32) (X17 : FVec Ideal S1536 .f32) (X18 : FVec Ideal S1536 .f32)
    (w : FVec Ideal S64x256 .f32) (ch : FVec Ideal S64x64x128 .f32)
    (hw : ∀ (r : Fin 64) (p : Fin 256), w (ix2 r p) = (val_main_v68 (F := Ideal) X0 X1 X2 X3 X4 X5 X6 X7 X8 X9 X10 X11 X15 X16 X17 X18) (ix3 (rowOf t r) p (0 : Fin 1)))
    (hch : ChunkBlk t k ch X2) (r : Fin 64) (f : Fin 128) :
    weightedChunk off hs w ch (ix2 r f)
      = ∑ q : Fin 64, X2 (ix3 (rowOf t r) (propOf k q) f) * (val_main_v68 (F := Ideal) X0 X1 X2 X3 X4 X5 X6 X7 X8 X9 X10 X11 X15 X16 X17 X18) (ix3 (rowOf t r) (propOf k q) (0 : Fin 1)) := by
  subst hoff
  unfold weightedChunk
  refine (Ideal.multiReduction_add_single _ _ _ _ _ (ix2 r f)).trans ?_
  refine Finset.sum_congr rfl fun (q : Fin 64) _ => ?_
  -- the summand of the lane sum at proposal q sits at (r, q, f)
  have el : reduces_S64x64x128_S64x128.lift (ix2 r f) q = ix3 r q f :=
    funext fun a => Fin.ext (by match a with | ⟨0, _⟩ => rfl | ⟨1, _⟩ => rfl | ⟨2, _⟩ => rfl)
  rw [el, mulf_apply]
  -- the weight column, repeated along the feature axis, read at (r, q, f) is the band's entry (r, q)
  have eb : broadcastTo S64x64x128
        (shapeCast S64x64x1 (extractStridedSlice S64x64 ![0, 64 * k.val] w hs) shapeCasts_S64x64_S64x64x1)
        broadcasts_S64x64x1_S64x64x128 (ix3 r q f) = w (ix2 r (propOf k q)) := by
    refine (broadcastTo_apply _ broadcasts_S64x64x1_S64x64x128 (ix3 r q f) (ix3 r q (0 : Fin 1)) (fun a => ?_)).trans ?_
    · match a with
      | ⟨0, _⟩ => show r.val = if (64 : Nat) = 1 then 0 else r.val; rw [if_neg (by decide)]
      | ⟨1, _⟩ => show q.val = if (64 : Nat) = 1 then 0 else q.val; rw [if_neg (by decide)]
      | ⟨2, _⟩ => show 0 = if (1 : Nat) = 1 then 0 else f.val; rw [if_pos rfl]
    refine (shapeCast_apply _ shapeCasts_S64x64_S64x64x1 (ix3 r q (0 : Fin 1)) (ix2 r q) ?_).trans ?_
    · refine (Shape.rowMajor_val_two (d := ![64, 64]) (ix2 r q)).trans ?_
      refine Eq.trans ?_ (Shape.rowMajor_val_three (d := ![64, 64, 1]) (ix3 r q (0 : Fin 1))).symm
      show r.val * 64 + q.val = (r.val * 64 + q.val) * 1 + 0
      omega
    refine extractStridedSlice_apply ![0, 64 * k.val] w hs (ix2 r q) (ix2 r (propOf k q)) (fun a => ?_)
    match a with
    | ⟨0, _⟩ => exact (Nat.zero_add _).symm
    | ⟨1, _⟩ => rfl
  rw [eb, hw, hch r q f]

/-- The reference's weighted feature sum over all 256 proposals, grouped into the four chunks. -/
theorem attended_ref (X0 : FVec Ideal S1024x300 .f32) (X1 : FVec Ideal S1024x128 .f32) (X2 : FVec Ideal S1024x256x128 .f32) (X3 : FVec Ideal S1024x512 .f32) (X4 : FVec Ideal S1024x512 .f32) (X5 : FVec Ideal S128x512 .f32) (X6 : FVec Ideal S128x128 .f32) (X7 : FVec Ideal S128x300 .f32) (X8 : FVec Ideal S128x128 .f32) (X9 : FVec Ideal S512x128 .f32) (X10 : FVec Ideal S512x512 .f32) (X11 : FVec Ideal S1x512 .f32) (X15 : FVec Ideal S1536x128 .f32) (X16 : FVec Ideal S1536x512 .f32) (X17 : FVec Ideal S1536 .f32) (X18 : FVec Ideal S1536 .f32) (b : Fin 1024) (f : Fin 128) :
    (val_main_v71 (F := Ideal) X0 X1 X2 X3 X4 X5 X6 X7 X8 X9 X10 X11 X15 X16 X17 X18) (ix2 b f)
      = ∑ k : Fin 4, ∑ q : Fin 64, X2 (ix3 b (propOf k q) f) * (val_main_v68 (F := Ideal) X0 X1 X2 X3 X4 X5 X6 X7 X8 X9 X10 X11 X15 X16 X17 X18) (ix3 b (propOf k q) (0 : Fin 1)) := by
  rw [Cert.ReferenceIdeal.Read.val_main_v71_apply, Cert.ReferenceIdeal.Read.val_main_cst_7_apply]
  refine (congrArg (· + _) Ideal.ofBits_zero_f32).trans ?_
  rw [zero_add, sum_chunks]
  refine Finset.sum_congr rfl fun k _ => Finset.sum_congr rfl fun q _ => ?_
  rw [Cert.ReferenceIdeal.Read.val_main_v70_apply, Cert.ReferenceIdeal.Read.val_main_v69_apply]
  have e1 : Cert.ReferenceIdeal.Read.idx_main_v71 (ix2 b f) (propOf k q) = ix3 b (propOf k q) f :=
    funext fun a => Fin.ext (by match a with | ⟨0, _⟩ => rfl | ⟨1, _⟩ => rfl | ⟨2, _⟩ => rfl)
  have e2 : Cert.ReferenceIdeal.Read.idx_main_v69 (ix3 b (propOf k q) f) = ix3 b (propOf k q) (0 : Fin 1) :=
    funext fun a => Fin.ext (by match a with | ⟨0, _⟩ => rfl | ⟨1, _⟩ => rfl | ⟨2, _⟩ => rfl)
  rw [e1, e2]
  rfl

end Cert.Bridge.Attend

end
-- ==== Proof.PartB3.lean ====
/-
  The softmax over a row's 256 scores. The body lays the four chunks of scores side by side, subtracts the
  row's maximum, exponentiates and divides by the row's sum; the reference does the same over the whole
  proposal axis. A maximum and a sum over 256 proposals do not depend on how the proposals are grouped.
-/
import proofs.«129328_j52226802320074_1_alg».proof.Proof.Gen.KernelIdeal.Skeleton
import proofs.«129328_j52226802320074_1_alg».proof.Proof.Gen.ReferenceIdeal.Read
import proofs.«129328_j52226802320074_1_alg».proof.Proof.Rows
import proofs.«129328_j52226802320074_1_alg».proof.Proof.KDefs
import Idealize.ShloMosaic.Lib.Pipeline.Value
import Idealize.ShloMosaic.PureOps.Ideal.Laws

noncomputable section

namespace Cert.Bridge.Softmax

open Idealize.ShloMosaic Idealize.ShloMosaic.ValueIdx Cert.Bridge Cert.KernelIdeal Cert.KernelIdeal.Gen
open Cert.KernelIdeal.Pieces
open Cert.ReferenceIdeal.Read (val_main_v49 val_main_v52 val_main_v57 val_main_v68 val_main_v71 val_main_v118)

/-- Minus infinity, the value every maximum here starts from. -/
abbrev negInf : EReal := Ideal.ofBits .f32 0xFF800000#32

/-- The softmax of 256 scores at proposal `p`: with `M` the largest score (taken from minus infinity),
    `exp (y p - M)` over the sum of all the `exp (y k - M)`. -/
def softmaxOf (y : Fin 256 → EReal) (p : Fin 256) : EReal :=
  Ideal.div (Ideal.exp (y p - max negInf (Finset.univ.fold max negInf y)))
    (∑ k : Fin 256, Ideal.exp (y k - max negInf (Finset.univ.fold max negInf y)))

/-- Every proposal lies in one of the four chunks. -/
theorem exists_propOf (p : Fin 256) : ∃ (k : Fin 4) (q : Fin 64), p = propOf k q :=
  ⟨⟨p.val / 64, by omega⟩, ⟨p.val % 64, by omega⟩, Fin.ext (by show p.val = 64 * (p.val / 64) + p.val % 64; omega)⟩

section Column
variable {α : Type}

/-- A vector of `a` values reshaped to a column reads, at `(i, 0)`, its value at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column repeated along each row reads, at `(i, c)`, the column's value at row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- One value per row, laid out as a column and repeated along the row: entry `(i, c)` is row `i`'s value. -/
theorem column_apply {a b : ℕ} (m : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (c : Fin b) :
    broadcastTo ⟨2, ![a, b]⟩ (shapeCast ⟨2, ![a, 1]⟩ m h1) h2 (ix2 i c) = m (ix1 i) :=
  (broadcastTo_a1_ab_apply _ h2 i c).trans (shapeCast_a_a1_apply m h1 i 0)

end Column

/-! The four chunks side by side: proposal `64 k + q` of the whole row is proposal `q` of chunk `k`. -/

theorem scoreRow_chunk0 (s0 s1 s2 s3 : FVec Ideal S64x64 .f32) (r q : Fin 64) :
    scoreRow s0 s1 s2 s3 (ix2 r (propOf 0 q)) = s0 (ix2 r q) := by
  unfold scoreRow
  refine concatenate_apply_piece (1 : Fin S64x256.rank) [⟨S64x64, s0⟩, ⟨S64x64, s1⟩, ⟨S64x64, s2⟩, ⟨S64x64, s3⟩]
    concatenates_S64x64_S64x64_S64x64_S64x64_S64x256_d1 (ix2 r (propOf 0 q)) 0 (by show (0 : ℕ) < 4; omega) S64x64 s0 rfl rfl 0 rfl (ix2 r q)
    (fun b hb => ?_) ?_
  · match b with
    | ⟨0, _⟩ => rfl
    | ⟨1, _⟩ => exact absurd rfl hb
  · show 0 + q.val = 64 * 0 + q.val
    omega

theorem scoreRow_chunk1 (s0 s1 s2 s3 : FVec Ideal S64x64 .f32) (r q : Fin 64) :
    scoreRow s0 s1 s2 s3 (ix2 r (propOf 1 q)) = s1 (ix2 r q) := by
  unfold scoreRow
  refine concatenate_apply_piece (1 : Fin S64x256.rank) [⟨S64x64, s0⟩, ⟨S64x64, s1⟩, ⟨S64x64, s2⟩, ⟨S64x64, s3⟩]
    concatenates_S64x64_S64x64_S64x64_S64x64_S64x256_d1 (ix2 r (propOf 1 q)) 1 (by show (1 : ℕ) < 4; omega) S64x64 s1 rfl rfl 64 rfl (ix2 r q)
    (fun b hb => ?_) ?_
  · match b with
    | ⟨0, _⟩ => rfl
    | ⟨1, _⟩ => exact absurd rfl hb
  · show 64 + q.val = 64 * 1 + q.val
    omega

theorem scoreRow_chunk2 (s0 s1 s2 s3 : FVec Ideal S64x64 .f32) (r q : Fin 64) :
    scoreRow s0 s1 s2 s3 (ix2 r (propOf 2 q)) = s2 (ix2 r q) := by
  unfold scoreRow
  refine concatenate_apply_piece (1 : Fin S64x256.rank) [⟨S64x64, s0⟩, ⟨S64x64, s1⟩, ⟨S64x64, s2⟩, ⟨S64x64, s3⟩]
    concatenates_S64x64_S64x64_S64x64_S64x64_S64x256_d1 (ix2 r (propOf 2 q)) 2 (by show (2 : ℕ) < 4; omega) S64x64 s2 rfl rfl 128 rfl (ix2 r q)
    (fun b hb => ?_) ?_
  · match b with
    | ⟨0, _⟩ => rfl
    | ⟨1, _⟩ => exact absurd rfl hb
  · show 128 + q.val = 64 * 2 + q.val
    omega

theorem scoreRow_chunk3 (s0 s1 s2 s3 : FVec Ideal S64x64 .f32) (r q : Fin 64) :
    scoreRow s0 s1 s2 s3 (ix2 r (propOf 3 q)) = s3 (ix2 r q) := by
  unfold scoreRow
  refine concatenate_apply_piece (1 : Fin S64x256.rank) [⟨S64x64, s0⟩, ⟨S64x64, s1⟩, ⟨S64x64, s2⟩, ⟨S64x64, s3⟩]
    concatenates_S64x64_S64x64_S64x64_S64x64_S64x256_d1 (ix2 r (propOf 3 q)) 3 (by show (3 : ℕ) < 4; omega) S64x64 s3 rfl rfl 192 rfl (ix2 r q)
    (fun b hb => ?_) ?_
  · match b with
    | ⟨0, _⟩ => rfl
    | ⟨1, _⟩ => exact absurd rfl hb
  · show 192 + q.val = 64 * 3 + q.val
    omega

/-- If chunk `k` holds, in row `r`, the scores `y (64 k + q)`, then row `r` of the four chunks side by side holds `y`. -/
theorem scoreRow_eq (s0 s1 s2 s3 : FVec Ideal S64x64 .f32) (r : Fin 64) (y : Fin 256 → EReal)
    (h0 : ∀ q : Fin 64, s0 (ix2 r q) = y (propOf 0 q)) (h1 : ∀ q : Fin 64, s1 (ix2 r q) = y (propOf 1 q))
    (h2 : ∀ q : Fin 64, s2 (ix2 r q) = y (propOf 2 q)) (h3 : ∀ q : Fin 64, s3 (ix2 r q) = y (propOf 3 q))
    (p : Fin 256) : scoreRow s0 s1 s2 s3 (ix2 r p) = y p := by
  obtain ⟨k, q, rfl⟩ := exists_propOf p
  match k with
  | ⟨0, _⟩ => exact (scoreRow_chunk0 s0 s1 s2 s3 r q).trans (h0 q)
  | ⟨1, _⟩ => exact (scoreRow_chunk1 s0 s1 s2 s3 r q).trans (h1 q)
  | ⟨2, _⟩ => exact (scoreRow_chunk2 s0 s1 s2 s3 r q).trans (h2 q)
  | ⟨3, _⟩ => exact (scoreRow_chunk3 s0 s1 s2 s3 r q).trans (h3 q)

/-! The body's softmax, step by step at an entry. -/

/-- Each row's largest score (taken from minus infinity), repeated along the row. -/
def rowMaxCol (s : FVec Ideal S64x256 .f32) : FVec Ideal S64x256 .f32 :=
  broadcastTo S64x256 (shapeCast S64x1
    (maximumf (broadcast S64 (Scalar.ofBits .f32 0xFF800000#32))
      (multiReduction .maximumf [1] S64 s 0xFF800000#32 reduces_S64x256_S64 (.inl rfl) rfl)) shapeCasts_S64_S64x1) broadcasts_S64x1_S64x256

/-- The exponentials of the scores less their row's maximum. -/
def expRow (s : FVec Ideal S64x256 .f32) : FVec Ideal S64x256 .f32 := exp (subf s (rowMaxCol s))

/-- Each row's sum, repeated along the row. -/
def rowSumCol (e : FVec Ideal S64x256 .f32) : FVec Ideal S64x256 .f32 :=
  broadcastTo S64x256 (shapeCast S64x1 (multiReduction .add [1] S64 e 0x00000000#32 reduces_S64x256_S64 (.inl rfl) rfl) shapeCasts_S64_S64x1) broadcasts_S64x1_S64x256

theorem rowSoftmax_eq (s : FVec Ideal S64x256 .f32) : rowSoftmax s = divf (expRow s) (rowSumCol (expRow s)) := rfl

theorem rowMaxCol_apply (s : FVec Ideal S64x256 .f32) (r : Fin 64) (c : Fin 256) :
    rowMaxCol s (ix2 r c) = max negInf (Finset.univ.fold max negInf fun k : Fin 256 => s (ix2 r k)) := by
  unfold rowMaxCol
  refine (column_apply _ shapeCasts_S64_S64x1 broadcasts_S64x1_S64x256 r c).trans ?_
  show max negInf (multiReduction .maximumf [1] S64 s 0xFF800000#32 reduces_S64x256_S64 (.inl rfl) rfl (ix1 r)) = _
  refine congrArg (max negInf) ?_
  refine (Ideal.multiReduction_maximumf_single s _ _ _ _ (ix1 r)).trans ?_
  exact Finset.fold_congr fun k _ => congrArg s (funext fun a => Fin.ext (by match a with | ⟨0, _⟩ => rfl | ⟨1, _⟩ => rfl))

theorem expRow_apply (s : FVec Ideal S64x256 .f32) (r : Fin 64) (c : Fin 256) :
    expRow s (ix2 r c) = Ideal.exp (s (ix2 r c) - max negInf (Finset.univ.fold max negInf fun k : Fin 256 => s (ix2 r k))) := by
  show Ideal.exp (s (ix2 r c) - rowMaxCol s (ix2 r c)) = _
  rw [rowMaxCol_apply]

theorem rowSumCol_apply (e : FVec Ideal S64x256 .f32) (r : Fin 64) (c : Fin 256) :
    rowSumCol e (ix2 r c) = ∑ k : Fin 256, e (ix2 r k) := by
  unfold rowSumCol
  refine (column_apply _ shapeCasts_S64_S64x1 broadcasts_S64x1_S64x256 r c).trans ?_
  refine (Ideal.multiReduction_add_single e _ _ _ _ (ix1 r)).trans ?_
  exact Finset.sum_congr rfl fun k _ => congrArg e (funext fun a => Fin.ext (by match a with | ⟨0, _⟩ => rfl | ⟨1, _⟩ => rfl))

/-- The body's softmax at an entry is the softmax of that row's scores. -/
theorem rowSoftmax_apply (s : FVec Ideal S64x256 .f32) (r : Fin 64) (p : Fin 256) :
    rowSoftmax s (ix2 r p) = softmaxOf (fun k => s (ix2 r k)) p := by
  rw [rowSoftmax_eq]
  show Ideal.div (expRow s (ix2 r p)) (rowSumCol (expRow s) (ix2 r p)) = _
  rw [rowSumCol_apply, expRow_apply]
  exact congrArg (Ideal.div _) (Finset.sum_congr rfl fun k _ => expRow_apply s r k)

/-! The reference's softmax over the proposal axis, step by step at an entry. -/

open Cert.ReferenceIdeal.Read (val_main_v58 val_main_v59 val_main_v60 val_main_v61 val_main_v62 val_main_v63 val_main_v64 val_main_v65 val_main_v66 val_main_v67
  val_main_cst_4 val_main_cst_5 val_main_cst_6 val_main_v59_apply val_main_v60_apply val_main_v61_apply val_main_v62_apply val_main_v63_apply
  val_main_v64_apply val_main_v65_apply val_main_v66_apply val_main_v67_apply val_main_v68_apply val_main_cst_4_apply val_main_cst_5_apply
  val_main_cst_6_apply idx_main_v59 idx_main_v61 idx_main_v62 idx_main_v65 idx_main_v66 idx_main_v67)

/-- The reference's row maximum (taken from minus infinity, then once more against minus infinity). -/
theorem ref_max (X0 : FVec Ideal S1024x300 .f32) (X1 : FVec Ideal S1024x128 .f32) (X2 : FVec Ideal S1024x256x128 .f32) (X3 : FVec Ideal S1024x512 .f32) (X4 : FVec Ideal S1024x512 .f32) (X5 : FVec Ideal S128x512 .f32) (X6 : FVec Ideal S128x128 .f32) (X7 : FVec Ideal S128x300 .f32) (X8 : FVec Ideal S128x128 .f32) (X9 : FVec Ideal S512x128 .f32) (X10 : FVec Ideal S512x512 .f32) (X11 : FVec Ideal S1x512 .f32) (X15 : FVec Ideal S1536x128 .f32) (X16 : FVec Ideal S1536x512 .f32) (X17 : FVec Ideal S1536 .f32) (X18 : FVec Ideal S1536 .f32) (R : Fin 1024) :
    val_main_v60 (F := Ideal) X0 X1 X2 X3 X4 X5 X6 X7 X8 X9 X10 X11 X15 X16 X17 X18 (ix2 R (0 : Fin 1))
      = max negInf (Finset.univ.fold max negInf fun k : Fin 256 => val_main_v57 (F := Ideal) X0 X1 X2 X3 X4 X5 X6 X7 X8 X9 X10 X11 X15 X16 X17 X18 (ix3 R k (0 : Fin 1))) := by
  rw [val_main_v60_apply, val_main_v59_apply, val_main_cst_5_apply]
  show max negInf (val_main_v58 (F := Ideal) X0 X1 X2 X3 X4 X5 X6 X7 X8 X9 X10 X11 X15 X16 X17 X18 (ix2 R (0 : Fin 1))) = _
  refine congrArg (max negInf) ?_
  unfold val_main_v58
  refine (Host.reduce_eq_fold_single FloatOps.maximumf _ _ _ (by decide) _ (ix2 R (0 : Fin 1))).trans ?_
  exact Finset.fold_congr fun k _ => congrArg (val_main_v57 (F := Ideal) X0 X1 X2 X3 X4 X5 X6 X7 X8 X9 X10 X11 X15 X16 X17 X18) (funext fun a => Fin.ext (by match a with | ⟨0, _⟩ => rfl | ⟨1, _⟩ => rfl | ⟨2, _⟩ => rfl))

/-- The reference's exponentials of the scores less their row's maximum. -/
theorem ref_exp (X0 : FVec Ideal S1024x300 .f32) (X1 : FVec Ideal S1024x128 .f32) (X2 : FVec Ideal S1024x256x128 .f32) (X3 : FVec Ideal S1024x512 .f32) (X4 : FVec Ideal S1024x512 .f32) (X5 : FVec Ideal S128x512 .f32) (X6 : FVec Ideal S128x128 .f32) (X7 : FVec Ideal S128x300 .f32) (X8 : FVec Ideal S128x128 .f32) (X9 : FVec Ideal S512x128 .f32) (X10 : FVec Ideal S512x512 .f32) (X11 : FVec Ideal S1x512 .f32) (X15 : FVec Ideal S1536x128 .f32) (X16 : FVec Ideal S1536x512 .f32) (X17 : FVec Ideal S1536 .f32) (X18 : FVec Ideal S1536 .f32) (R : Fin 1024) (c : Fin 256) :
    val_main_v64 (F := Ideal) X0 X1 X2 X3 X4 X5 X6 X7 X8 X9 X10 X11 X15 X16 X17 X18 (ix3 R c (0 : Fin 1))
      = Ideal.exp (val_main_v57 (F := Ideal) X0 X1 X2 X3 X4 X5 X6 X7 X8 X9 X10 X11 X15 X16 X17 X18 (ix3 R c (0 : Fin 1)) - max negInf (Finset.univ.fold max negInf fun k : Fin 256 => val_main_v57 (F := Ideal) X0 X1 X2 X3 X4 X5 X6 X7 X8 X9 X10 X11 X15 X16 X17 X18 (ix3 R k (0 : Fin 1)))) := by
  rw [val_main_v64_apply, val_main_v63_apply, val_main_v62_apply, val_main_v61_apply]
  have e : idx_main_v61 (idx_main_v62 (ix3 R c (0 : Fin 1))) = ix2 R (0 : Fin 1) :=
    funext fun a => Fin.ext (by match a with | ⟨0, _⟩ => rfl | ⟨1, _⟩ => rfl)
  rw [e, ref_max]
  rfl

/-- The reference's row sum of the exponentials. -/
theorem ref_sum (X0 : FVec Ideal S1024x300 .f32) (X1 : FVec Ideal S1024x128 .f32) (X2 : FVec Ideal S1024x256x128 .f32) (X3 : FVec Ideal S1024x512 .f32) (X4 : FVec Ideal S1024x512 .f32) (X5 : FVec Ideal S128x512 .f32) (X6 : FVec Ideal S128x128 .f32) (X7 : FVec Ideal S128x300 .f32) (X8 : FVec Ideal S128x128 .f32) (X9 : FVec Ideal S512x128 .f32) (X10 : FVec Ideal S512x512 .f32) (X11 : FVec Ideal S1x512 .f32) (X15 : FVec Ideal S1536x128 .f32) (X16 : FVec Ideal S1536x512 .f32) (X17 : FVec Ideal S1536 .f32) (X18 : FVec Ideal S1536 .f32) (R : Fin 1024) (c : Fin 256) :
    val_main_v67 (F := Ideal) X0 X1 X2 X3 X4 X5 X6 X7 X8 X9 X10 X11 X15 X16 X17 X18 (ix3 R c (0 : Fin 1))
      = ∑ k : Fin 256, val_main_v64 (F := Ideal) X0 X1 X2 X3 X4 X5 X6 X7 X8 X9 X10 X11 X15 X16 X17 X18 (ix3 R k (0 : Fin 1)) := by
  rw [val_main_v67_apply, val_main_v66_apply, val_main_v65_apply, val_main_cst_6_apply]
  show Ideal.ofBits .f32 0x00000000#32 + _ = _
  rw [Ideal.ofBits_zero_f32, zero_add]
  exact Finset.sum_congr rfl fun k _ => congrArg (val_main_v64 (F := Ideal) X0 X1 X2 X3 X4 X5 X6 X7 X8 X9 X10 X11 X15 X16 X17 X18)
    (funext fun a => Fin.ext (by match a with | ⟨0, _⟩ => rfl | ⟨1, _⟩ => rfl | ⟨2, _⟩ => rfl))

/-- The reference's softmax at an entry is the softmax of that row's scores. -/
theorem ref_softmax (X0 : FVec Ideal S1024x300 .f32) (X1 : FVec Ideal S1024x128 .f32) (X2 : FVec Ideal S1024x256x128 .f32) (X3 : FVec Ideal S1024x512 .f32) (X4 : FVec Ideal S1024x512 .f32) (X5 : FVec Ideal S128x512 .f32) (X6 : FVec Ideal S128x128 .f32) (X7 : FVec Ideal S128x300 .f32) (X8 : FVec Ideal S128x128 .f32) (X9 : FVec Ideal S512x128 .f32) (X10 : FVec Ideal S512x512 .f32) (X11 : FVec Ideal S1x512 .f32) (X15 : FVec Ideal S1536x128 .f32) (X16 : FVec Ideal S1536x512 .f32) (X17 : FVec Ideal S1536 .f32) (X18 : FVec Ideal S1536 .f32) (R : Fin 1024) (p : Fin 256) :
    val_main_v68 (F := Ideal) X0 X1 X2 X3 X4 X5 X6 X7 X8 X9 X10 X11 X15 X16 X17 X18 (ix3 R p (0 : Fin 1))
      = softmaxOf (fun k => val_main_v57 (F := Ideal) X0 X1 X2 X3 X4 X5 X6 X7 X8 X9 X10 X11 X15 X16 X17 X18 (ix3 R k (0 : Fin 1))) p := by
  rw [val_main_v68_apply, ref_sum, ref_exp]
  exact congrArg (Ideal.div _) (Finset.sum_congr rfl fun k _ => ref_exp X0 X1 X2 X3 X4 X5 X6 X7 X8 X9 X10 X11 X15 X16 X17 X18 R k)

/-- The attention weights of block `t`: the softmax of the four chunks of scores laid side by side is the
    reference's softmax over the proposal axis. -/
theorem softmax_block (t : Fin 16) (X0 : FVec Ideal S1024x300 .f32) (X1 : FVec Ideal S1024x128 .f32) (X2 : FVec Ideal S1024x256x128 .f32) (X3 : FVec Ideal S1024x512 .f32) (X4 : FVec Ideal S1024x512 .f32) (X5 : FVec Ideal S128x512 .f32) (X6 : FVec Ideal S128x128 .f32) (X7 : FVec Ideal S128x300 .f32) (X8 : FVec Ideal S128x128 .f32) (X9 : FVec Ideal S512x128 .f32) (X10 : FVec Ideal S512x512 .f32) (X11 : FVec Ideal S1x512 .f32) (X15 : FVec Ideal S1536x128 .f32) (X16 : FVec Ideal S1536x512 .f32) (X17 : FVec Ideal S1536 .f32) (X18 : FVec Ideal S1536 .f32)
    (s0 s1 s2 s3 : FVec Ideal S64x64 .f32)
    (hs0 : ∀ r q : Fin 64, s0 (ix2 r q) = (val_main_v57 (F := Ideal) X0 X1 X2 X3 X4 X5 X6 X7 X8 X9 X10 X11 X15 X16 X17 X18) (ix3 (rowOf t r) (propOf 0 q) (0 : Fin 1)))
    (hs1 : ∀ r q : Fin 64, s1 (ix2 r q) = (val_main_v57 (F := Ideal) X0 X1 X2 X3 X4 X5 X6 X7 X8 X9 X10 X11 X15 X16 X17 X18) (ix3 (rowOf t r) (propOf 1 q) (0 : Fin 1)))
    (hs2 : ∀ r q : Fin 64, s2 (ix2 r q) = (val_main_v57 (F := Ideal) X0 X1 X2 X3 X4 X5 X6 X7 X8 X9 X10 X11 X15 X16 X17 X18) (ix3 (rowOf t r) (propOf 2 q) (0 : Fin 1)))
    (hs3 : ∀ r q : Fin 64, s3 (ix2 r q) = (val_main_v57 (F := Ideal) X0 X1 X2 X3 X4 X5 X6 X7 X8 X9 X10 X11 X15 X16 X17 X18) (ix3 (rowOf t r) (propOf 3 q) (0 : Fin 1)))
    (r : Fin 64) (p : Fin 256) :
    rowSoftmax (scoreRow s0 s1 s2 s3) (ix2 r p) = (val_main_v68 (F := Ideal) X0 X1 X2 X3 X4 X5 X6 X7 X8 X9 X10 X11 X15 X16 X17 X18) (ix3 (rowOf t r) p (0 : Fin 1)) := by
  rw [rowSoftmax_apply, ref_softmax]
  exact congrArg (softmaxOf · p) (funext fun k => scoreRow_eq s0 s1 s2 s3 r
    (fun k => val_main_v57 (F := Ideal) X0 X1 X2 X3 X4 X5 X6 X7 X8 X9 X10 X11 X15 X16 X17 X18 (ix3 (rowOf t r) k (0 : Fin 1))) (hs0 r) (hs1 r) (hs2 r) (hs3 r) k)

end Cert.Bridge.Softmax

end
-- ==== Proof.PartC.lean ====
/-
  The second recurrent cell, one block of rows at a time. The body finishes the attention-weighted feature
  sum (chunks 1 to 3 added to chunk 0's share), fuses it with the new first hidden state (two products,
  tanh, one more product, clamped at zero) and takes one step of a gated recurrent cell from the second hidden
  state; the reference computes the same for all 1024 rows. Every step acts on each row by itself.
-/
import proofs.«129328_j52226802320074_1_alg».proof.Proof.Gen.KernelIdeal.Skeleton
import proofs.«129328_j52226802320074_1_alg».proof.Proof.Gen.ReferenceIdeal.Read
import proofs.«129328_j52226802320074_1_alg».proof.Proof.Rows
import proofs.«129328_j52226802320074_1_alg».proof.Proof.KMatmul
import proofs.«129328_j52226802320074_1_alg».proof.Proof.KDefs
import proofs.«129328_j52226802320074_1_alg».proof.Proof.PartB2
import Idealize.ShloMosaic.Lib.IdealHost

noncomputable section

namespace Cert.Bridge.CellTwo

open Idealize.ShloMosaic Idealize.ShloMosaic.ValueIdx Cert.Bridge Cert.KernelIdeal Cert.KernelIdeal.Gen
open Cert.KernelIdeal.Pieces
open Cert.ReferenceIdeal.Read (val_main_v49 val_main_v52 val_main_v57 val_main_v68 val_main_v71 val_main_v118)

/-! ## The reference's stages read at a row and a column -/

section Reference

open Cert.ReferenceIdeal.Read

variable (X0 : FVec Ideal S1024x300 .f32) (X1 : FVec Ideal S1024x128 .f32) (X2 : FVec Ideal S1024x256x128 .f32) (X3 : FVec Ideal S1024x512 .f32) (X4 : FVec Ideal S1024x512 .f32) (X5 : FVec Ideal S128x512 .f32) (X6 : FVec Ideal S128x128 .f32) (X7 : FVec Ideal S128x300 .f32) (X8 : FVec Ideal S128x128 .f32) (X9 : FVec Ideal S512x128 .f32) (X10 : FVec Ideal S512x512 .f32) (X11 : FVec Ideal S1x512 .f32) (X12 : FVec Ideal S128x128 .f32) (X13 : FVec Ideal S128x512 .f32) (X14 : FVec Ideal S128x128 .f32) (X15 : FVec Ideal S1536x128 .f32) (X16 : FVec Ideal S1536x512 .f32) (X17 : FVec Ideal S1536 .f32) (X18 : FVec Ideal S1536 .f32) (X19 : FVec Ideal S1536x128 .f32) (X20 : FVec Ideal S1536x512 .f32) (X21 : FVec Ideal S1536 .f32) (X22 : FVec Ideal S1536 .f32)

/-- Stage 73 at (b, c): the attended features of row b against row c of the first fusion weights. -/
theorem ref73 (b : Fin 1024) (c : Fin 128) :
    val_main_v73 (F := Ideal) X0 X1 X2 X3 X4 X5 X6 X7 X8 X9 X10 X11 X12 X15 X16 X17 X18 (ix2 b c)
      = ∑ k : Fin 128, val_main_v71 (F := Ideal) X0 X1 X2 X3 X4 X5 X6 X7 X8 X9 X10 X11 X15 X16 X17 X18 (ix2 b k) * X12 (ix2 c k) := by
  rw [val_main_v73_apply]
  refine Finset.sum_congr rfl fun k _ => ?_
  rw [val_main_v72_apply]
  have e1 : lidx_main_v73 (ix2 b c) k = ix2 b k := funext fun a => Fin.ext (by match a with | ⟨0, _⟩ => rfl | ⟨1, _⟩ => rfl)
  have e2 : idx_main_v72 (ridx_main_v73 (ix2 b c) k) = ix2 c k := funext fun a => Fin.ext (by match a with | ⟨0, _⟩ => rfl | ⟨1, _⟩ => rfl)
  rw [e1, e2]

/-- Stage 75 at (b, c): the first hidden state of row b against row c of the second fusion weights. -/
theorem ref75 (b : Fin 1024) (c : Fin 128) :
    val_main_v75 (F := Ideal) X0 X1 X3 X4 X5 X6 X7 X8 X13 X15 X16 X17 X18 (ix2 b c)
      = ∑ k : Fin 512, val_main_v49 (F := Ideal) X0 X1 X3 X4 X5 X6 X7 X8 X15 X16 X17 X18 (ix2 b k) * X13 (ix2 c k) := by
  rw [val_main_v75_apply]
  refine Finset.sum_congr rfl fun k _ => ?_
  rw [val_main_v74_apply]
  have e1 : lidx_main_v75 (ix2 b c) k = ix2 b k := funext fun a => Fin.ext (by match a with | ⟨0, _⟩ => rfl | ⟨1, _⟩ => rfl)
  have e2 : idx_main_v74 (ridx_main_v75 (ix2 b c) k) = ix2 c k := funext fun a => Fin.ext (by match a with | ⟨0, _⟩ => rfl | ⟨1, _⟩ => rfl)
  rw [e1, e2]

/-- Stage 77 is the hyperbolic tangent of the sum of stages 73 and 75. -/
theorem ref77 (i : S1024x128.Idx) :
    val_main_v77 (F := Ideal) X0 X1 X2 X3 X4 X5 X6 X7 X8 X9 X10 X11 X12 X13 X15 X16 X17 X18 i
      = Ideal.tanh (val_main_v73 (F := Ideal) X0 X1 X2 X3 X4 X5 X6 X7 X8 X9 X10 X11 X12 X15 X16 X17 X18 i
          + val_main_v75 (F := Ideal) X0 X1 X3 X4 X5 X6 X7 X8 X13 X15 X16 X17 X18 i) := rfl

/-- Stage 79 at (b, c). -/
theorem ref79 (b : Fin 1024) (c : Fin 128) :
    val_main_v79 (F := Ideal) X0 X1 X2 X3 X4 X5 X6 X7 X8 X9 X10 X11 X12 X13 X14 X15 X16 X17 X18 (ix2 b c)
      = ∑ k : Fin 128, val_main_v77 (F := Ideal) X0 X1 X2 X3 X4 X5 X6 X7 X8 X9 X10 X11 X12 X13 X15 X16 X17 X18 (ix2 b k) * X14 (ix2 c k) := by
  rw [val_main_v79_apply]
  refine Finset.sum_congr rfl fun k _ => ?_
  rw [val_main_v78_apply]
  have e1 : lidx_main_v79 (ix2 b c) k = ix2 b k := funext fun a => Fin.ext (by match a with | ⟨0, _⟩ => rfl | ⟨1, _⟩ => rfl)
  have e2 : idx_main_v78 (ridx_main_v79 (ix2 b c) k) = ix2 c k := funext fun a => Fin.ext (by match a with | ⟨0, _⟩ => rfl | ⟨1, _⟩ => rfl)
  rw [e1, e2]

/-- Stage 80 clamps stage 79 at zero. -/
theorem ref80 (i : S1024x128.Idx) :
    val_main_v80 (F := Ideal) X0 X1 X2 X3 X4 X5 X6 X7 X8 X9 X10 X11 X12 X13 X14 X15 X16 X17 X18 i
      = max (val_main_v79 (F := Ideal) X0 X1 X2 X3 X4 X5 X6 X7 X8 X9 X10 X11 X12 X13 X14 X15 X16 X17 X18 i) 0 := by
  rw [val_main_v80_apply, val_main_call1_v0_apply, val_main_call1_cst_apply]
  show max _ (Ideal.ofBits .f32 0x00000000#32) = _
  rw [Ideal.ofBits_zero_f32]

/-- Stage 82 at (b, c). -/
theorem ref82 (b : Fin 1024) (c : Fin 1536) :
    val_main_v82 (F := Ideal) X0 X1 X2 X3 X4 X5 X6 X7 X8 X9 X10 X11 X12 X13 X14 X15 X16 X17 X18 X19 (ix2 b c)
      = ∑ k : Fin 128, val_main_v80 (F := Ideal) X0 X1 X2 X3 X4 X5 X6 X7 X8 X9 X10 X11 X12 X13 X14 X15 X16 X17 X18 (ix2 b k) * X19 (ix2 c k) := by
  rw [val_main_v82_apply]
  refine Finset.sum_congr rfl fun k _ => ?_
  rw [val_main_v81_apply]
  have e1 : lidx_main_v82 (ix2 b c) k = ix2 b k := funext fun a => Fin.ext (by match a with | ⟨0, _⟩ => rfl | ⟨1, _⟩ => rfl)
  have e2 : idx_main_v81 (ridx_main_v82 (ix2 b c) k) = ix2 c k := funext fun a => Fin.ext (by match a with | ⟨0, _⟩ => rfl | ⟨1, _⟩ => rfl)
  rw [e1, e2]

/-- Stage 85 at (b, c): stage 82 plus entry c of the input bias. -/
theorem ref85 (b : Fin 1024) (c : Fin 1536) :
    val_main_v85 (F := Ideal) X0 X1 X2 X3 X4 X5 X6 X7 X8 X9 X10 X11 X12 X13 X14 X15 X16 X17 X18 X19 X21 (ix2 b c)
      = val_main_v82 (F := Ideal) X0 X1 X2 X3 X4 X5 X6 X7 X8 X9 X10 X11 X12 X13 X14 X15 X16 X17 X18 X19 (ix2 b c) + X21 (ix1 c) := by
  rw [val_main_v85_apply, val_main_v84_apply, val_main_v83_apply]
  have e : idx_main_v83 (idx_main_v84 (ix2 b c)) = ix1 c := funext fun a => Fin.ext (by match a with | ⟨0, _⟩ => rfl)
  rw [e]; rfl

/-- Stage 87 at (b, c): the old second hidden state of row b against row c of the recurrent weights. -/
theorem ref87 (b : Fin 1024) (c : Fin 1536) :
    val_main_v87 (F := Ideal) X4 X20 (ix2 b c) = ∑ k : Fin 512, X4 (ix2 b k) * X20 (ix2 c k) := by
  rw [val_main_v87_apply]
  refine Finset.sum_congr rfl fun k _ => ?_
  rw [val_main_v86_apply]
  have e1 : lidx_main_v87 (ix2 b c) k = ix2 b k := funext fun a => Fin.ext (by match a with | ⟨0, _⟩ => rfl | ⟨1, _⟩ => rfl)
  have e2 : idx_main_v86 (ridx_main_v87 (ix2 b c) k) = ix2 c k := funext fun a => Fin.ext (by match a with | ⟨0, _⟩ => rfl | ⟨1, _⟩ => rfl)
  rw [e1, e2]

/-- Stage 90 at (b, c): stage 87 plus entry c of the recurrent bias. -/
theorem ref90 (b : Fin 1024) (c : Fin 1536) :
    val_main_v90 (F := Ideal) X4 X20 X22 (ix2 b c) = val_main_v87 (F := Ideal) X4 X20 (ix2 b c) + X22 (ix1 c) := by
  rw [val_main_v90_apply, val_main_v89_apply, val_main_v88_apply]
  have e : idx_main_v88 (idx_main_v89 (ix2 b c)) = ix1 c := funext fun a => Fin.ext (by match a with | ⟨0, _⟩ => rfl)
  rw [e]; rfl

end Reference

/-! ## The body's pieces, named -/

section Kernel

/-- Column c of the first 512-wide band of a 1536-wide row. -/
def colLo (c : Fin 512) : Fin 1536 := ⟨c.val, by omega⟩
/-- Column c of the second band: column 512 + c. -/
def colMid (c : Fin 512) : Fin 1536 := ⟨512 + c.val, by omega⟩
/-- Column c of the third band: column 1024 + c. -/
def colHi (c : Fin 512) : Fin 1536 := ⟨1024 + c.val, by omega⟩

/-- The weighted feature sum completed: chunk 0's share plus the shares of chunks 1, 2 and 3, in that order. -/
def attended (w : FVec Ideal S64x256 .f32) (a0 : FVec Ideal S64x128 .f32) (c1 c2 c3 : FVec Ideal S64x64x128 .f32) : FVec Ideal S64x128 .f32 :=
  addf (addf (addf a0 (weightedChunk ![0, 64] slices_S64x256_o0_64_S64x64 w c1))
      (weightedChunk ![0, 128] slices_S64x256_o0_128_S64x64 w c2))
    (weightedChunk ![0, 192] slices_S64x256_o0_192_S64x64 w c3)

/-- tanh (att · W1ᵀ + h · W2ᵀ): the fused hidden layer before its output product. -/
def fusedTanh (W1 : FVec Ideal S128x128 .f32) (W2 : FVec Ideal S128x512 .f32) (h : FVec Ideal S64x512 .f32) (att : FVec Ideal S64x128 .f32) : FVec Ideal S64x128 .f32 :=
  tanh (addf
    (matmul dot_S64x128_S128x128_S64x128_1_0_0_1_n_n none (truncf .bf16 att bitsLt_bf16_f32)
      (transpose S128x128 [1, 0] (truncf .bf16 W1 bitsLt_bf16_f32) transposes_S128x128_p1_0_S128x128) (constant S64x128 .f32 0x00000000#32))
    (matmul dot_S64x512_S512x128_S64x128_1_0_0_1_n_n none (truncf .bf16 h bitsLt_bf16_f32)
      (transpose S512x128 [1, 0] (truncf .bf16 W2 bitsLt_bf16_f32) transposes_S128x512_p1_0_S512x128) (constant S64x128 .f32 0x00000000#32)))

/-- max (y · W3ᵀ, 0). -/
def fusedOut (W3 : FVec Ideal S128x128 .f32) (y : FVec Ideal S64x128 .f32) : FVec Ideal S64x128 .f32 :=
  maximumf
    (matmul dot_S64x128_S128x128_S64x128_1_0_0_1_n_n none (truncf .bf16 y bitsLt_bf16_f32)
      (transpose S128x128 [1, 0] (truncf .bf16 W3 bitsLt_bf16_f32) transposes_S128x128_p1_0_S128x128) (constant S64x128 .f32 0x00000000#32))
    (broadcast S64x128 (Scalar.ofBits .f32 0x00000000#32))

/-- u · Wᵀ for the 1536 gate columns. -/
def gateIn (W : FVec Ideal S1536x128 .f32) (u : FVec Ideal S64x128 .f32) : FVec Ideal S64x1536 .f32 :=
  matmul dot_S64x128_S128x1536_S64x1536_1_0_0_1_n_n none (truncf .bf16 u bitsLt_bf16_f32)
    (transpose S128x1536 [1, 0] (truncf .bf16 W bitsLt_bf16_f32) transposes_S1536x128_p1_0_S128x1536) (constant S64x1536 .f32 0x00000000#32)

/-- A bias vector repeated on each of the 64 rows. -/
def biasRows (v : FVec Ideal S1536 .f32) : FVec Ideal S64x1536 .f32 :=
  broadcastTo S64x1536 (shapeCast S1x1536 v shapeCasts_S1536_S1x1536) broadcasts_S1x1536_S64x1536

/-- One step of the gated cell from the old state h, the input-side pre-activations gi and the state-side ones gh:
    reset and update gates from the first two bands, candidate from the third, then (1 − z) · n + z · h. -/
def gatedStep (h : FVec Ideal S64x512 .f32) (gi gh : FVec Ideal S64x1536 .f32) : FVec Ideal S64x512 .f32 :=
  addf
    (mulf (subf (broadcast S64x512 (Scalar.ofBits .f32 0x3F800000#32))
            (logistic (addf (extractStridedSlice S64x512 ![0, 512] gi slices_S64x1536_o0_512_S64x512)
                            (extractStridedSlice S64x512 ![0, 512] gh slices_S64x1536_o0_512_S64x512))))
          (tanh (addf (extractStridedSlice S64x512 ![0, 1024] gi slices_S64x1536_o0_1024_S64x512)
                      (mulf (logistic (addf (extractStridedSlice S64x512 ![0, 0] gi slices_S64x1536_o0_0_S64x512)
                                            (extractStridedSlice S64x512 ![0, 0] gh slices_S64x1536_o0_0_S64x512)))
                            (extractStridedSlice S64x512 ![0, 1024] gh slices_S64x1536_o0_1024_S64x512)))))
    (mulf (logistic (addf (extractStridedSlice S64x512 ![0, 512] gi slices_S64x1536_o0_512_S64x512)
                          (extractStridedSlice S64x512 ![0, 512] gh slices_S64x1536_o0_512_S64x512)))
          h)

/-- The input-side product of the body, in these names. -/
theorem pay17_eq (X12 : FVec Ideal S128x128 .f32) (X13 : FVec Ideal S128x512 .f32) (X14 : FVec Ideal S128x128 .f32) (X19 : FVec Ideal S1536x128 .f32)
    (h1b : FVec Ideal S64x512 .f32) (w : FVec Ideal S64x256 .f32) (a0 : FVec Ideal S64x128 .f32) (c1 c2 c3 : FVec Ideal S64x64x128 .f32) :
    k0_pay17 X12 X13 X14 X19 h1b w a0 c1 c2 c3
      = gateIn X19 (fusedOut X14 (fusedTanh X12 X13 h1b (attended w a0 c1 c2 c3))) := rfl

/-- The input bias of the body, in these names. -/
theorem pay18_eq (X21 : FVec Ideal S1536 .f32) : k0_pay18 X21 = biasRows X21 := rfl

/-- The new second hidden state of the body, in these names. -/
theorem pay1_eq (b4 : FVec Ideal S64x512 .f32) (X22 : FVec Ideal S1536 .f32) (X20 : FVec Ideal S1536x512 .f32) (gi bi : FVec Ideal S64x1536 .f32) :
    k0_pay1 b4 X22 (k0_pay15 b4) (k0_pay16 X20) gi bi
      = gatedStep b4 (addf gi bi)
          (addf (matmul dot_S64x512_S512x1536_S64x1536_1_0_0_1_n_n none (truncf .bf16 b4 bitsLt_bf16_f32)
                  (transpose S512x1536 [1, 0] (truncf .bf16 X20 bitsLt_bf16_f32) transposes_S1536x512_p1_0_S512x1536) (constant S64x1536 .f32 0x00000000#32))
                (biasRows X22)) := rfl

/-! ## Reading the pieces at an entry -/

/-- The repeated bias at (r, c) is entry c of the bias. -/
theorem biasRows_apply (v : FVec Ideal S1536 .f32) (r : Fin 64) (c : Fin 1536) : biasRows v (ix2 r c) = v (ix1 c) := by
  unfold biasRows
  rw [broadcastTo_apply _ broadcasts_S1x1536_S64x1536 (ix2 r c) (ix2 (0 : Fin 1) c)
    (fun a => by match a with | ⟨0, _⟩ => rfl | ⟨1, _⟩ => rfl)]
  refine shapeCast_apply v shapeCasts_S1536_S1x1536 (ix2 (0 : Fin 1) c) (ix1 c) ?_
  rw [Shape.rowMajor_val_one, Shape.rowMajor_val_two]
  show c.val = 0 * _ + c.val
  omega

/-- The first band of a 1536-wide block at (r, c). -/
theorem bandLo_apply (v : FVec Ideal S64x1536 .f32) (r : Fin 64) (c : Fin 512) :
    extractStridedSlice S64x512 ![0, 0] v slices_S64x1536_o0_0_S64x512 (ix2 r c) = v (ix2 r (colLo c)) :=
  extractStridedSlice_apply ![0, 0] v slices_S64x1536_o0_0_S64x512 (ix2 r c) (ix2 r (colLo c))
    (fun a => by match a with | ⟨0, _⟩ => exact (Nat.zero_add _).symm | ⟨1, _⟩ => exact (Nat.zero_add _).symm)

/-- The second band at (r, c). -/
theorem bandMid_apply (v : FVec Ideal S64x1536 .f32) (r : Fin 64) (c : Fin 512) :
    extractStridedSlice S64x512 ![0, 512] v slices_S64x1536_o0_512_S64x512 (ix2 r c) = v (ix2 r (colMid c)) :=
  extractStridedSlice_apply ![0, 512] v slices_S64x1536_o0_512_S64x512 (ix2 r c) (ix2 r (colMid c))
    (fun a => by match a with | ⟨0, _⟩ => exact (Nat.zero_add _).symm | ⟨1, _⟩ => rfl)

/-- The third band at (r, c). -/
theorem bandHi_apply (v : FVec Ideal S64x1536 .f32) (r : Fin 64) (c : Fin 512) :
    extractStridedSlice S64x512 ![0, 1024] v slices_S64x1536_o0_1024_S64x512 (ix2 r c) = v (ix2 r (colHi c)) :=
  extractStridedSlice_apply ![0, 1024] v slices_S64x1536_o0_1024_S64x512 (ix2 r c) (ix2 r (colHi c))
    (fun a => by match a with | ⟨0, _⟩ => exact (Nat.zero_add _).symm | ⟨1, _⟩ => rfl)

/-- The gated step at (r, c), in the extended reals' operations. -/
theorem gatedStep_apply (h : FVec Ideal S64x512 .f32) (gi gh : FVec Ideal S64x1536 .f32) (r : Fin 64) (c : Fin 512) :
    gatedStep h gi gh (ix2 r c)
      = (1 - Ideal.logistic (gi (ix2 r (colMid c)) + gh (ix2 r (colMid c))))
          * Ideal.tanh (gi (ix2 r (colHi c)) + Ideal.logistic (gi (ix2 r (colLo c)) + gh (ix2 r (colLo c))) * gh (ix2 r (colHi c)))
        + Ideal.logistic (gi (ix2 r (colMid c)) + gh (ix2 r (colMid c))) * h (ix2 r c) := by
  rw [← bandLo_apply gi, ← bandLo_apply gh, ← bandMid_apply gi, ← bandMid_apply gh, ← bandHi_apply gi, ← bandHi_apply gh,
    ← Ideal.ofBits_one_f32]
  rfl

end Kernel

section ReferenceCell

open Cert.ReferenceIdeal.Read

variable (X0 : FVec Ideal S1024x300 .f32) (X1 : FVec Ideal S1024x128 .f32) (X2 : FVec Ideal S1024x256x128 .f32) (X3 : FVec Ideal S1024x512 .f32) (X4 : FVec Ideal S1024x512 .f32) (X5 : FVec Ideal S128x512 .f32) (X6 : FVec Ideal S128x128 .f32) (X7 : FVec Ideal S128x300 .f32) (X8 : FVec Ideal S128x128 .f32) (X9 : FVec Ideal S512x128 .f32) (X10 : FVec Ideal S512x512 .f32) (X11 : FVec Ideal S1x512 .f32) (X12 : FVec Ideal S128x128 .f32) (X13 : FVec Ideal S128x512 .f32) (X14 : FVec Ideal S128x128 .f32) (X15 : FVec Ideal S1536x128 .f32) (X16 : FVec Ideal S1536x512 .f32) (X17 : FVec Ideal S1536 .f32) (X18 : FVec Ideal S1536 .f32) (X19 : FVec Ideal S1536x128 .f32) (X20 : FVec Ideal S1536x512 .f32) (X21 : FVec Ideal S1536 .f32) (X22 : FVec Ideal S1536 .f32)

/-- The reference's new second hidden state at (b, c): the gated step from the old state, stage 85 (input side)
    and stage 90 (state side), each read in its three bands. -/
theorem ref118 (b : Fin 1024) (c : Fin 512) :
    val_main_v118 (F := Ideal) X0 X1 X2 X3 X4 X5 X6 X7 X8 X9 X10 X11 X12 X13 X14 X15 X16 X17 X18 X19 X20 X21 X22 (ix2 b c)
      = (1 - Ideal.logistic (val_main_v85 (F := Ideal) X0 X1 X2 X3 X4 X5 X6 X7 X8 X9 X10 X11 X12 X13 X14 X15 X16 X17 X18 X19 X21 (ix2 b (colMid c))
                              + val_main_v90 (F := Ideal) X4 X20 X22 (ix2 b (colMid c))))
          * Ideal.tanh (val_main_v85 (F := Ideal) X0 X1 X2 X3 X4 X5 X6 X7 X8 X9 X10 X11 X12 X13 X14 X15 X16 X17 X18 X19 X21 (ix2 b (colHi c))
              + Ideal.logistic (val_main_v85 (F := Ideal) X0 X1 X2 X3 X4 X5 X6 X7 X8 X9 X10 X11 X12 X13 X14 X15 X16 X17 X18 X19 X21 (ix2 b (colLo c))
                                + val_main_v90 (F := Ideal) X4 X20 X22 (ix2 b (colLo c)))
                * val_main_v90 (F := Ideal) X4 X20 X22 (ix2 b (colHi c)))
        + Ideal.logistic (val_main_v85 (F := Ideal) X0 X1 X2 X3 X4 X5 X6 X7 X8 X9 X10 X11 X12 X13 X14 X15 X16 X17 X18 X19 X21 (ix2 b (colMid c))
                          + val_main_v90 (F := Ideal) X4 X20 X22 (ix2 b (colMid c)))
          * X4 (ix2 b c) := by
  have e91 : idx_main_v91 (ix2 b c) = ix2 b (colLo c) := funext fun a => Fin.ext (by match a with | ⟨0, _⟩ => rfl | ⟨1, _⟩ => rfl)
  have e92 : idx_main_v92 (ix2 b c) = ix2 b (colMid c) := funext fun a => Fin.ext (by match a with | ⟨0, _⟩ => rfl | ⟨1, _⟩ => rfl)
  have e93 : idx_main_v93 (ix2 b c) = ix2 b (colHi c) := funext fun a => Fin.ext (by match a with | ⟨0, _⟩ => rfl | ⟨1, _⟩ => rfl)
  have e94 : idx_main_v94 (ix2 b c) = ix2 b (colLo c) := funext fun a => Fin.ext (by match a with | ⟨0, _⟩ => rfl | ⟨1, _⟩ => rfl)
  have e95 : idx_main_v95 (ix2 b c) = ix2 b (colMid c) := funext fun a => Fin.ext (by match a with | ⟨0, _⟩ => rfl | ⟨1, _⟩ => rfl)
  have e96 : idx_main_v96 (ix2 b c) = ix2 b (colHi c) := funext fun a => Fin.ext (by match a with | ⟨0, _⟩ => rfl | ⟨1, _⟩ => rfl)
  have s91 := val_main_v91_apply (F := Ideal) X0 X1 X2 X3 X4 X5 X6 X7 X8 X9 X10 X11 X12 X13 X14 X15 X16 X17 X18 X19 X21 (ix2 b c)
  have s92 := val_main_v92_apply (F := Ideal) X0 X1 X2 X3 X4 X5 X6 X7 X8 X9 X10 X11 X12 X13 X14 X15 X16 X17 X18 X19 X21 (ix2 b c)
  have s93 := val_main_v93_apply (F := Ideal) X0 X1 X2 X3 X4 X5 X6 X7 X8 X9 X10 X11 X12 X13 X14 X15 X16 X17 X18 X19 X21 (ix2 b c)
  have s94 := val_main_v94_apply (F := Ideal) X4 X20 X22 (ix2 b c)
  have s95 := val_main_v95_apply (F := Ideal) X4 X20 X22 (ix2 b c)
  have s96 := val_main_v96_apply (F := Ideal) X4 X20 X22 (ix2 b c)
  rw [e91] at s91; rw [e92] at s92; rw [e93] at s93; rw [e94] at s94; rw [e95] at s95; rw [e96] at s96
  rw [← s91, ← s92, ← s93, ← s94, ← s95, ← s96]
  simp only [Ideal.ofBits_def, Ideal.ofBits_one_f32, val_main_v118_apply, val_main_v116_apply, val_main_v117_apply, val_main_v115_apply, val_main_v114_apply, val_main_cst_12_apply,
    val_main_v113_apply, val_main_v112_apply, val_main_v111_apply, val_main_v110_apply, val_main_v109_apply, val_main_cst_11_apply,
    val_main_v108_apply, val_main_v107_apply, val_main_cst_10_apply, val_main_v106_apply, val_main_v105_apply, val_main_v104_apply,
    val_main_v103_apply, val_main_v102_apply, val_main_cst_9_apply, val_main_v101_apply, val_main_v100_apply, val_main_cst_8_apply,
    val_main_v99_apply, val_main_v98_apply, val_main_v97_apply]
  rfl

end ReferenceCell

/-! ## Each piece of the body on block t is the reference's stage on the block's rows -/

section Bridge

open Cert.ReferenceIdeal.Read

variable {t : Fin 16} {X0 : FVec Ideal S1024x300 .f32} {X1 : FVec Ideal S1024x128 .f32} {X2 : FVec Ideal S1024x256x128 .f32} {X3 : FVec Ideal S1024x512 .f32} {X4 : FVec Ideal S1024x512 .f32} {X5 : FVec Ideal S128x512 .f32} {X6 : FVec Ideal S128x128 .f32} {X7 : FVec Ideal S128x300 .f32} {X8 : FVec Ideal S128x128 .f32} {X9 : FVec Ideal S512x128 .f32} {X10 : FVec Ideal S512x512 .f32} {X11 : FVec Ideal S1x512 .f32} {X12 : FVec Ideal S128x128 .f32} {X13 : FVec Ideal S128x512 .f32} {X14 : FVec Ideal S128x128 .f32} {X15 : FVec Ideal S1536x128 .f32} {X16 : FVec Ideal S1536x512 .f32} {X17 : FVec Ideal S1536 .f32} {X18 : FVec Ideal S1536 .f32} {X19 : FVec Ideal S1536x128 .f32} {X20 : FVec Ideal S1536x512 .f32} {X21 : FVec Ideal S1536 .f32} {X22 : FVec Ideal S1536 .f32}

/-- The completed weighted feature sum of block t is the reference's sum over all 256 proposals on the block's rows:
    the four chunks' shares, added in the order 0, 1, 2, 3, are the sum over the four chunks. -/
theorem attended_block (w : FVec Ideal S64x256 .f32) (a0 : FVec Ideal S64x128 .f32) (c1 c2 c3 : FVec Ideal S64x64x128 .f32)
    (hw : ∀ (r : Fin 64) (p : Fin 256), w (ix2 r p) = (val_main_v68 (F := Ideal) X0 X1 X2 X3 X4 X5 X6 X7 X8 X9 X10 X11 X15 X16 X17 X18) (ix3 (rowOf t r) p (0 : Fin 1)))
    (ha0 : ∀ (r : Fin 64) (f : Fin 128), a0 (ix2 r f)
      = ∑ q : Fin 64, X2 (ix3 (rowOf t r) (propOf 0 q) f) * (val_main_v68 (F := Ideal) X0 X1 X2 X3 X4 X5 X6 X7 X8 X9 X10 X11 X15 X16 X17 X18) (ix3 (rowOf t r) (propOf 0 q) (0 : Fin 1)))
    (hc1 : ChunkBlk t 1 c1 X2) (hc2 : ChunkBlk t 2 c2 X2) (hc3 : ChunkBlk t 3 c3 X2) (r : Fin 64) (f : Fin 128) :
    attended w a0 c1 c2 c3 (ix2 r f)
      = val_main_v71 (F := Ideal) X0 X1 X2 X3 X4 X5 X6 X7 X8 X9 X10 X11 X15 X16 X17 X18 (ix2 (rowOf t r) f) := by
  have h1 := Attend.weighted_block t 1 ![0, 64] slices_S64x256_o0_64_S64x64 rfl X0 X1 X2 X3 X4 X5 X6 X7 X8 X9 X10 X11 X15 X16 X17 X18 w c1 hw hc1 r f
  have h2 := Attend.weighted_block t 2 ![0, 128] slices_S64x256_o0_128_S64x64 rfl X0 X1 X2 X3 X4 X5 X6 X7 X8 X9 X10 X11 X15 X16 X17 X18 w c2 hw hc2 r f
  have h3 := Attend.weighted_block t 3 ![0, 192] slices_S64x256_o0_192_S64x64 rfl X0 X1 X2 X3 X4 X5 X6 X7 X8 X9 X10 X11 X15 X16 X17 X18 w c3 hw hc3 r f
  rw [Attend.attended_ref, Fin.sum_univ_four, ← ha0 r f, ← h1, ← h2, ← h3]
  rfl

/-- The fused hidden layer of block t: both products run over one row's entries, which are the reference's. -/
theorem fusedTanh_block (h : FVec Ideal S64x512 .f32) (att : FVec Ideal S64x128 .f32)
    (hh : RowBlk t h (val_main_v49 (F := Ideal) X0 X1 X3 X4 X5 X6 X7 X8 X15 X16 X17 X18))
    (hatt : ∀ (r : Fin 64) (f : Fin 128), att (ix2 r f) = val_main_v71 (F := Ideal) X0 X1 X2 X3 X4 X5 X6 X7 X8 X9 X10 X11 X15 X16 X17 X18 (ix2 (rowOf t r) f))
    (r : Fin 64) (c : Fin 128) :
    fusedTanh X12 X13 h att (ix2 r c)
      = val_main_v77 (F := Ideal) X0 X1 X2 X3 X4 X5 X6 X7 X8 X9 X10 X11 X12 X13 X15 X16 X17 X18 (ix2 (rowOf t r) c) := by
  rw [ref77, ref73, ref75]
  refine Eq.trans (b := Ideal.tanh ((∑ k : Fin 128, att (ix2 r k) * X12 (ix2 c k)) + ∑ k : Fin 512, h (ix2 r k) * X13 (ix2 c k))) ?_ ?_
  · exact congrArg Ideal.tanh (congrArg₂ (· + ·) (Products.xwT_64x128_128 att X12 r c) (Products.xwT_64x512_128 h X13 r c))
  · have hh' : ∀ k : Fin 512, h (ix2 r k) = val_main_v49 (F := Ideal) X0 X1 X3 X4 X5 X6 X7 X8 X15 X16 X17 X18 (ix2 (rowOf t r) k) := fun k => hh r k
    simp only [hatt, hh']

/-- The fused layer's output, clamped at zero, on block t. -/
theorem fusedOut_block (y : FVec Ideal S64x128 .f32)
    (hy : ∀ (r : Fin 64) (k : Fin 128), y (ix2 r k) = val_main_v77 (F := Ideal) X0 X1 X2 X3 X4 X5 X6 X7 X8 X9 X10 X11 X12 X13 X15 X16 X17 X18 (ix2 (rowOf t r) k))
    (r : Fin 64) (c : Fin 128) :
    fusedOut X14 y (ix2 r c)
      = val_main_v80 (F := Ideal) X0 X1 X2 X3 X4 X5 X6 X7 X8 X9 X10 X11 X12 X13 X14 X15 X16 X17 X18 (ix2 (rowOf t r) c) := by
  rw [ref80, ref79]
  refine Eq.trans (b := max (∑ k : Fin 128, y (ix2 r k) * X14 (ix2 c k)) 0) ?_ ?_
  · exact congrArg₂ max (Products.xwT_64x128_128 y X14 r c) Ideal.ofBits_zero_f32
  · simp only [hy]

/-- The input-side gate pre-activations of block t: the product with the input weights plus the input bias. -/
theorem gateIn_block (u : FVec Ideal S64x128 .f32)
    (hu : ∀ (r : Fin 64) (k : Fin 128), u (ix2 r k) = val_main_v80 (F := Ideal) X0 X1 X2 X3 X4 X5 X6 X7 X8 X9 X10 X11 X12 X13 X14 X15 X16 X17 X18 (ix2 (rowOf t r) k))
    (r : Fin 64) (c : Fin 1536) :
    addf (gateIn X19 u) (biasRows X21) (ix2 r c)
      = val_main_v85 (F := Ideal) X0 X1 X2 X3 X4 X5 X6 X7 X8 X9 X10 X11 X12 X13 X14 X15 X16 X17 X18 X19 X21 (ix2 (rowOf t r) c) := by
  rw [ref85, ref82]
  refine Eq.trans (b := (∑ k : Fin 128, u (ix2 r k) * X19 (ix2 c k)) + X21 (ix1 c)) ?_ ?_
  · exact congrArg₂ (· + ·) (Products.xwT_64x128_1536 u X19 r c) (biasRows_apply X21 r c)
  · simp only [hu]

/-- The state-side gate pre-activations of block t: the old state's rows against the recurrent weights, plus the
    recurrent bias. -/
theorem gateState_block (b4 : FVec Ideal S64x512 .f32) (h4 : RowBlk t b4 X4) (r : Fin 64) (c : Fin 1536) :
    addf (matmul dot_S64x512_S512x1536_S64x1536_1_0_0_1_n_n none (truncf .bf16 b4 bitsLt_bf16_f32)
            (transpose S512x1536 [1, 0] (truncf .bf16 X20 bitsLt_bf16_f32) transposes_S1536x512_p1_0_S512x1536) (constant S64x1536 .f32 0x00000000#32))
         (biasRows X22) (ix2 r c)
      = val_main_v90 (F := Ideal) X4 X20 X22 (ix2 (rowOf t r) c) := by
  rw [ref90, ref87]
  refine Eq.trans (b := (∑ k : Fin 512, b4 (ix2 r k) * X20 (ix2 c k)) + X22 (ix1 c)) ?_ ?_
  · exact congrArg₂ (· + ·) (Products.xwT_64x512_1536 b4 X20 r c) (biasRows_apply X22 r c)
  · have h4' : ∀ k : Fin 512, b4 (ix2 r k) = X4 (ix2 (rowOf t r) k) := fun k => h4 r k
    simp only [h4']

end Bridge

/-- The new second hidden state of block `t` is block `t` of the reference's, given that the first hidden state,
    the attention weights and chunk 0's share of the weighted sum that the body hands on are the reference's. -/
theorem h2_block (t : Fin 16) (X0 : FVec Ideal S1024x300 .f32) (X1 : FVec Ideal S1024x128 .f32) (X2 : FVec Ideal S1024x256x128 .f32) (X3 : FVec Ideal S1024x512 .f32) (X4 : FVec Ideal S1024x512 .f32) (X5 : FVec Ideal S128x512 .f32) (X6 : FVec Ideal S128x128 .f32) (X7 : FVec Ideal S128x300 .f32) (X8 : FVec Ideal S128x128 .f32) (X9 : FVec Ideal S512x128 .f32) (X10 : FVec Ideal S512x512 .f32) (X11 : FVec Ideal S1x512 .f32) (X12 : FVec Ideal S128x128 .f32) (X13 : FVec Ideal S128x512 .f32) (X14 : FVec Ideal S128x128 .f32) (X15 : FVec Ideal S1536x128 .f32) (X16 : FVec Ideal S1536x512 .f32) (X17 : FVec Ideal S1536 .f32) (X18 : FVec Ideal S1536 .f32) (X19 : FVec Ideal S1536x128 .f32) (X20 : FVec Ideal S1536x512 .f32) (X21 : FVec Ideal S1536 .f32) (X22 : FVec Ideal S1536 .f32)
    (b4 h1b : FVec Ideal S64x512 .f32) (w : FVec Ideal S64x256 .f32) (a0 : FVec Ideal S64x128 .f32) (c1 c2 c3 : FVec Ideal S64x64x128 .f32)
    (h4 : RowBlk t b4 X4) (hh1 : RowBlk t h1b (val_main_v49 (F := Ideal) X0 X1 X3 X4 X5 X6 X7 X8 X15 X16 X17 X18))
    (hw : ∀ (r : Fin 64) (p : Fin 256), w (ix2 r p) = (val_main_v68 (F := Ideal) X0 X1 X2 X3 X4 X5 X6 X7 X8 X9 X10 X11 X15 X16 X17 X18) (ix3 (rowOf t r) p (0 : Fin 1)))
    (ha0 : ∀ (r : Fin 64) (f : Fin 128), a0 (ix2 r f)
      = ∑ q : Fin 64, X2 (ix3 (rowOf t r) (propOf 0 q) f) * (val_main_v68 (F := Ideal) X0 X1 X2 X3 X4 X5 X6 X7 X8 X9 X10 X11 X15 X16 X17 X18) (ix3 (rowOf t r) (propOf 0 q) (0 : Fin 1)))
    (hc1 : ChunkBlk t 1 c1 X2) (hc2 : ChunkBlk t 2 c2 X2) (hc3 : ChunkBlk t 3 c3 X2) :
    RowBlk t (k0_pay1 b4 X22 (k0_pay15 b4) (k0_pay16 X20) (k0_pay17 X12 X13 X14 X19 h1b w a0 c1 c2 c3) (k0_pay18 X21))
      (val_main_v118 (F := Ideal) X0 X1 X2 X3 X4 X5 X6 X7 X8 X9 X10 X11 X12 X13 X14 X15 X16 X17 X18 X19 X20 X21 X22) := by
  intro r c
  have hatt := attended_block (X3 := X3) (X4 := X4) w a0 c1 c2 c3 hw ha0 hc1 hc2 hc3
  have hy := fusedTanh_block (X12 := X12) (X13 := X13) h1b (attended w a0 c1 c2 c3) hh1 hatt
  have hu := fusedOut_block (X14 := X14) (fusedTanh X12 X13 h1b (attended w a0 c1 c2 c3)) hy
  have hgi := gateIn_block (X19 := X19) (X21 := X21) (fusedOut X14 (fusedTanh X12 X13 h1b (attended w a0 c1 c2 c3))) hu
  have hgh := gateState_block (X20 := X20) (X22 := X22) b4 h4
  rw [pay17_eq, pay18_eq, pay1_eq, gatedStep_apply, ref118,
    hgi r (colLo c), hgi r (colMid c), hgi r (colHi c), hgh r (colLo c), hgh r (colMid c), hgh r (colHi c), h4 r c]

end Cert.Bridge.CellTwo

end
-- ==== Proof.Compose.lean ====
/-
  What one grid point leaves in each of the three output blocks, read against the reference.
  The first output block is the new first hidden state of the block's 64 rows, the third the block's
  attention weights, the second the new second hidden state. Each is the corresponding block of rows of the
  reference's result: the recurrent cells, the scores, the softmax and the weighted sum are joined here.
-/
import proofs.«129328_j52226802320074_1_alg».proof.Proof.Gen.KernelIdeal.Frame
import proofs.«129328_j52226802320074_1_alg».proof.Proof.Gen.ReferenceIdeal.Read
import proofs.«129328_j52226802320074_1_alg».proof.Proof.Rows
import proofs.«129328_j52226802320074_1_alg».proof.Proof.KDefs
import proofs.«129328_j52226802320074_1_alg».proof.Proof.PartA
import proofs.«129328_j52226802320074_1_alg».proof.Proof.PartB1
import proofs.«129328_j52226802320074_1_alg».proof.Proof.PartB2
import proofs.«129328_j52226802320074_1_alg».proof.Proof.PartB3
import proofs.«129328_j52226802320074_1_alg».proof.Proof.PartC
import Idealize.ShloMosaic.Lib.Pipeline.Value
import Idealize.ShloMosaic.PureOps.Ideal.Laws

noncomputable section

namespace Cert.Bridge.Join

open Idealize.ShloMosaic Idealize.ShloMosaic.ValueIdx Cert.Bridge Cert.KernelIdeal Cert.KernelIdeal.Gen Cert.KernelIdeal.Pieces
open Cert.ReferenceIdeal.Read (val_main_v49 val_main_v52 val_main_v57 val_main_v68 val_main_v71 val_main_v118)

theorem hz2 : (![0, 0] : Fin 2 → Nat) = fun _ => 0 := funext fun a => by fin_cases a <;> rfl
theorem hz1 : (![0] : Fin 1 → Nat) = fun _ => 0 := funext fun a => by fin_cases a <;> rfl

/-- A load of 64 proposals starting at proposal `64 k` out of a block's 256 is chunk `k` of the block. -/
theorem chunk0 (t : Fin 16) (X2 : FVec Ideal S1024x256x128 .f32) (x2 : Vec Ideal S64x256x128 .f32)
    (h2 : ∀ (r : Fin 64) (p : Fin 256) (f : Fin 128), x2 (ix3 r p f) = X2 (ix3 (rowOf t r) p f)) :
    ChunkBlk t 0 (View.ld (Val := Elt Ideal) x2 r0_12) X2 := fun r q f => by
  refine Eq.trans ?_ (h2 r (propOf 0 q) f)
  show x2 (r0_12.emb (ix3 r q f)) = _
  congr 1; funext a; apply Fin.ext
  match a with
  | ⟨0, _⟩ => show 0 + 1 * r.val = r.val; omega
  | ⟨1, _⟩ => show 0 + 1 * q.val = 64 * 0 + q.val; omega
  | ⟨2, _⟩ => show 0 + 1 * f.val = f.val; omega

theorem chunk1 (t : Fin 16) (X2 : FVec Ideal S1024x256x128 .f32) (x2 : Vec Ideal S64x256x128 .f32)
    (h2 : ∀ (r : Fin 64) (p : Fin 256) (f : Fin 128), x2 (ix3 r p f) = X2 (ix3 (rowOf t r) p f)) :
    ChunkBlk t 1 (View.ld (Val := Elt Ideal) x2 r0_13) X2 := fun r q f => by
  refine Eq.trans ?_ (h2 r (propOf 1 q) f)
  show x2 (r0_13.emb (ix3 r q f)) = _
  congr 1; funext a; apply Fin.ext
  match a with
  | ⟨0, _⟩ => show 0 + 1 * r.val = r.val; omega
  | ⟨1, _⟩ => show 64 + 1 * q.val = 64 * 1 + q.val; omega
  | ⟨2, _⟩ => show 0 + 1 * f.val = f.val; omega

theorem chunk2 (t : Fin 16) (X2 : FVec Ideal S1024x256x128 .f32) (x2 : Vec Ideal S64x256x128 .f32)
    (h2 : ∀ (r : Fin 64) (p : Fin 256) (f : Fin 128), x2 (ix3 r p f) = X2 (ix3 (rowOf t r) p f)) :
    ChunkBlk t 2 (View.ld (Val := Elt Ideal) x2 r0_14) X2 := fun r q f => by
  refine Eq.trans ?_ (h2 r (propOf 2 q) f)
  show x2 (r0_14.emb (ix3 r q f)) = _
  congr 1; funext a; apply Fin.ext
  match a with
  | ⟨0, _⟩ => show 0 + 1 * r.val = r.val; omega
  | ⟨1, _⟩ => show 128 + 1 * q.val = 64 * 2 + q.val; omega
  | ⟨2, _⟩ => show 0 + 1 * f.val = f.val; omega

theorem chunk3 (t : Fin 16) (X2 : FVec Ideal S1024x256x128 .f32) (x2 : Vec Ideal S64x256x128 .f32)
    (h2 : ∀ (r : Fin 64) (p : Fin 256) (f : Fin 128), x2 (ix3 r p f) = X2 (ix3 (rowOf t r) p f)) :
    ChunkBlk t 3 (View.ld (Val := Elt Ideal) x2 r0_15) X2 := fun r q f => by
  refine Eq.trans ?_ (h2 r (propOf 3 q) f)
  show x2 (r0_15.emb (ix3 r q f)) = _
  congr 1; funext a; apply Fin.ext
  match a with
  | ⟨0, _⟩ => show 0 + 1 * r.val = r.val; omega
  | ⟨1, _⟩ => show 192 + 1 * q.val = 64 * 3 + q.val; omega
  | ⟨2, _⟩ => show 0 + 1 * f.val = f.val; omega

section
variable (t : Fin 16) (X0 : FVec Ideal S1024x300 .f32) (X1 : FVec Ideal S1024x128 .f32) (X2 : FVec Ideal S1024x256x128 .f32) (X3 : FVec Ideal S1024x512 .f32) (X4 : FVec Ideal S1024x512 .f32) (X5 : FVec Ideal S128x512 .f32) (X6 : FVec Ideal S128x128 .f32) (X7 : FVec Ideal S128x300 .f32) (X8 : FVec Ideal S128x128 .f32) (X9 : FVec Ideal S512x128 .f32) (X10 : FVec Ideal S512x512 .f32) (X11 : FVec Ideal S1x512 .f32) (X12 : FVec Ideal S128x128 .f32) (X13 : FVec Ideal S128x512 .f32) (X14 : FVec Ideal S128x128 .f32) (X15 : FVec Ideal S1536x128 .f32) (X16 : FVec Ideal S1536x512 .f32) (X17 : FVec Ideal S1536 .f32) (X18 : FVec Ideal S1536 .f32) (X19 : FVec Ideal S1536x128 .f32) (X20 : FVec Ideal S1536x512 .f32) (X21 : FVec Ideal S1536 .f32) (X22 : FVec Ideal S1536 .f32)
  (x0 : Vec Ideal S64x300 .f32) (x1 : Vec Ideal S64x128 .f32) (x2 : Vec Ideal S64x256x128 .f32) (x3 x4 : Vec Ideal S64x512 .f32)

/-- The first output block: the new first hidden state of the block's rows. -/
theorem out23_block (h0 : RowBlk t x0 X0) (h1 : RowBlk t x1 X1) (h3 : RowBlk t x3 X3) (h4 : RowBlk t x4 X4)
    (h2 : ∀ (r : Fin 64) (p : Fin 256) (f : Fin 128), x2 (ix3 r p f) = X2 (ix3 (rowOf t r) p f)) :
    RowBlk t (out0_23 (F := Ideal) x0 x1 x2 x3 x4 X5 X6 X7 X8 X9 X10 X11 X12 X13 X14 X15 X16 X17 X18 X19 X20 X21 X22) (val_main_v49 (F := Ideal) X0 X1 X3 X4 X5 X6 X7 X8 X15 X16 X17 X18) := by
  unfold out0_23
  rw [View.canon_unit_zero hz2]
  simp only [View.ld_unit_zero (S := S64x300) hz2, View.ld_unit_zero (S := S64x128) hz2, View.ld_unit_zero (S := S64x512) hz2,
    View.ld_unit_zero (S := S128x512) hz2, View.ld_unit_zero (S := S128x128) hz2, View.ld_unit_zero (S := S128x300) hz2,
    View.ld_unit_zero (S := S512x128) hz2, View.ld_unit_zero (S := S512x512) hz2, View.ld_unit_zero (S := S1x512) hz2,
    View.ld_unit_zero (S := S1536x128) hz2, View.ld_unit_zero (S := S1536x512) hz2, View.ld_unit_zero (S := S1536) hz1]
  exact CellOne.h1_block t X0 X1 X3 X4 X5 X6 X7 X8 X15 X16 X17 X18 x0 x1 x3 x4 h0 h1 h3 h4

/-- The attention weights as the body computes them for the block's rows. -/
theorem masks_payload (h0 : RowBlk t x0 X0) (h1 : RowBlk t x1 X1) (h3 : RowBlk t x3 X3) (h4 : RowBlk t x4 X4)
    (h2 : ∀ (r : Fin 64) (p : Fin 256) (f : Fin 128), x2 (ix3 r p f) = X2 (ix3 (rowOf t r) p f)) (r : Fin 64) (p : Fin 256) :
    (k0_pay13 X9 (k0_pay8 x3 X10 (k0_pay4 x0 x1 x3 x4 X5 X6 X7 X8 X15 X16 X17 X18) (k0_pay5 x0 x1 x3 x4 X5 X6 X7 X8 X15 X16 X17 X18) (k0_pay6 (F := Ideal))) (k0_pay9 X11) (k0_pay10 x3 X9 X10 X11 (k0_pay4 x0 x1 x3 x4 X5 X6 X7 X8 X15 X16 X17 X18) (k0_pay5 x0 x1 x3 x4 X5 X6 X7 X8 X15 X16 X17 X18) (k0_pay6 (F := Ideal)) (View.ld (Val := Elt Ideal) x2 r0_12)) (k0_pay11 x3 X9 X10 X11 (k0_pay4 x0 x1 x3 x4 X5 X6 X7 X8 X15 X16 X17 X18) (k0_pay5 x0 x1 x3 x4 X5 X6 X7 X8 X15 X16 X17 X18) (k0_pay6 (F := Ideal)) (View.ld (Val := Elt Ideal) x2 r0_13)) (k0_pay12 X9 (View.ld (Val := Elt Ideal) x2 r0_14)) (View.ld (Val := Elt Ideal) x2 r0_15)) (ix2 r p) = (val_main_v68 (F := Ideal) X0 X1 X2 X3 X4 X5 X6 X7 X8 X9 X10 X11 X15 X16 X17 X18) (ix3 (rowOf t r) p (0 : Fin 1)) := by
  rw [pay13_eq, pay10_eq, pay11_eq, pay12_eq]
  have hA := CellOne.h1_block t X0 X1 X3 X4 X5 X6 X7 X8 X15 X16 X17 X18 x0 x1 x3 x4 h0 h1 h3 h4
  have hP := Scores.hproj_block t X0 X1 X3 X4 X5 X6 X7 X8 X10 X15 X16 X17 X18 x3 _ _ _ hA
  exact Softmax.softmax_block t X0 X1 X2 X3 X4 X5 X6 X7 X8 X9 X10 X11 X15 X16 X17 X18 _ _ _ _
    (fun r q => Scores.score_block t 0 X0 X1 X2 X3 X4 X5 X6 X7 X8 X9 X10 X11 X15 X16 X17 X18 _ _ hP (chunk0 t X2 x2 h2) r q)
    (fun r q => Scores.score_block t 1 X0 X1 X2 X3 X4 X5 X6 X7 X8 X9 X10 X11 X15 X16 X17 X18 _ _ hP (chunk1 t X2 x2 h2) r q)
    (fun r q => Scores.score_block t 2 X0 X1 X2 X3 X4 X5 X6 X7 X8 X9 X10 X11 X15 X16 X17 X18 _ _ hP (chunk2 t X2 x2 h2) r q)
    (fun r q => Scores.score_block t 3 X0 X1 X2 X3 X4 X5 X6 X7 X8 X9 X10 X11 X15 X16 X17 X18 _ _ hP (chunk3 t X2 x2 h2) r q) r p

/-- The third output block: the attention weights of the block's rows. -/
theorem out25_block (h0 : RowBlk t x0 X0) (h1 : RowBlk t x1 X1) (h3 : RowBlk t x3 X3) (h4 : RowBlk t x4 X4)
    (h2 : ∀ (r : Fin 64) (p : Fin 256) (f : Fin 128), x2 (ix3 r p f) = X2 (ix3 (rowOf t r) p f)) (r : Fin 64) (p : Fin 256) :
    out0_25 (F := Ideal) x0 x1 x2 x3 x4 X5 X6 X7 X8 X9 X10 X11 X12 X13 X14 X15 X16 X17 X18 X19 X20 X21 X22 (ix2 r p) = (val_main_v68 (F := Ideal) X0 X1 X2 X3 X4 X5 X6 X7 X8 X9 X10 X11 X15 X16 X17 X18) (ix3 (rowOf t r) p (0 : Fin 1)) := by
  unfold out0_25
  rw [View.canon_unit_zero hz2]
  simp only [View.ld_unit_zero (S := S64x300) hz2, View.ld_unit_zero (S := S64x128) hz2, View.ld_unit_zero (S := S64x512) hz2,
    View.ld_unit_zero (S := S128x512) hz2, View.ld_unit_zero (S := S128x128) hz2, View.ld_unit_zero (S := S128x300) hz2,
    View.ld_unit_zero (S := S512x128) hz2, View.ld_unit_zero (S := S512x512) hz2, View.ld_unit_zero (S := S1x512) hz2,
    View.ld_unit_zero (S := S1536x128) hz2, View.ld_unit_zero (S := S1536x512) hz2, View.ld_unit_zero (S := S1536) hz1]
  exact masks_payload t X0 X1 X2 X3 X4 X5 X6 X7 X8 X9 X10 X11 X15 X16 X17 X18 x0 x1 x2 x3 x4 h0 h1 h3 h4 h2 r p

/-- The second output block: the new second hidden state of the block's rows. -/
theorem out24_block (h0 : RowBlk t x0 X0) (h1 : RowBlk t x1 X1) (h3 : RowBlk t x3 X3) (h4 : RowBlk t x4 X4)
    (h2 : ∀ (r : Fin 64) (p : Fin 256) (f : Fin 128), x2 (ix3 r p f) = X2 (ix3 (rowOf t r) p f)) :
    RowBlk t (out0_24 (F := Ideal) x0 x1 x2 x3 x4 X5 X6 X7 X8 X9 X10 X11 X12 X13 X14 X15 X16 X17 X18 X19 X20 X21 X22) (val_main_v118 (F := Ideal) X0 X1 X2 X3 X4 X5 X6 X7 X8 X9 X10 X11 X12 X13 X14 X15 X16 X17 X18 X19 X20 X21 X22) := by
  unfold out0_24
  rw [View.canon_unit_zero hz2]
  simp only [View.ld_unit_zero (S := S64x300) hz2, View.ld_unit_zero (S := S64x128) hz2, View.ld_unit_zero (S := S64x512) hz2,
    View.ld_unit_zero (S := S128x512) hz2, View.ld_unit_zero (S := S128x128) hz2, View.ld_unit_zero (S := S128x300) hz2,
    View.ld_unit_zero (S := S512x128) hz2, View.ld_unit_zero (S := S512x512) hz2, View.ld_unit_zero (S := S1x512) hz2,
    View.ld_unit_zero (S := S1536x128) hz2, View.ld_unit_zero (S := S1536x512) hz2, View.ld_unit_zero (S := S1536) hz1]
  have hA := CellOne.h1_block t X0 X1 X3 X4 X5 X6 X7 X8 X15 X16 X17 X18 x0 x1 x3 x4 h0 h1 h3 h4
  have hW := masks_payload t X0 X1 X2 X3 X4 X5 X6 X7 X8 X9 X10 X11 X15 X16 X17 X18 x0 x1 x2 x3 x4 h0 h1 h3 h4 h2
  refine CellTwo.h2_block t X0 X1 X2 X3 X4 X5 X6 X7 X8 X9 X10 X11 X12 X13 X14 X15 X16 X17 X18 X19 X20 X21 X22 x4 _ _ _ _ _ _ h4 hA hW ?_ (chunk1 t X2 x2 h2) (chunk2 t X2 x2 h2) (chunk3 t X2 x2 h2)
  intro r f
  rw [pay14_eq]
  refine Eq.trans ?_ (Attend.weighted_block t 0 ![0, 0] slices_S64x256_o0_0_S64x64 rfl X0 X1 X2 X3 X4 X5 X6 X7 X8 X9 X10 X11 X15 X16 X17 X18 _ _ hW (chunk0 t X2 x2 h2) r f)
  show Ideal.ofBits .f32 0x00000000#32 + _ = _
  rw [Ideal.ofBits_zero_f32, zero_add]

end

end Cert.Bridge.Join

end
-- ==== Proof.BlocksIn.lean ====
/-
  What the body finds in each input window at grid point t.
  Windows 0, 1, 3 and 4 hold sixty-four consecutive rows of their matrix, rows 64 t … 64 t + 63; window 2
  holds the same rows of the rank-three array with its other two axes whole; windows 5 to 22 hold their
  whole array at every point. Each statement reads the window's block at an index as the array's entry at
  the index the window's map sends it to: block index times block extent plus the coordinate, axis by axis.
-/
import proofs.«129328_j52226802320074_1_alg».proof.Proof.Gen.KernelIdeal.Frame
import proofs.«129328_j52226802320074_1_alg».proof.Proof.Rows
import Idealize.ShloMosaic.Lib.Pipeline.Value
noncomputable section
namespace Cert.KernelIdeal.Blocks
open Idealize.ShloMosaic Idealize.ShloMosaic.ValueIdx Idealize.SL.Sem Cert.Bridge Cert.KernelIdeal Cert.KernelIdeal.Gen
open Idealize.ShloMosaic.Pipeline (Dat Cfg Window)

variable (m : (ℓ : Loc nD τ sig) → Buf (Elt Ideal) ℓ)

/-- A grid point as a block number: the grid has sixteen points. -/
def ptOf (t : Fin cfg0.N) : Fin 16 := ⟨t.val, by have := t.isLt; have h : cfg0.N = 16 := N_0; omega⟩

/-! The block index of each window at point t: t on the row axis of the moving windows, 0 everywhere else. -/

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 3) = t.val ∧ win0_2.index t (1 : Fin 3) = 0
    ∧ win0_2.index t (2 : Fin 3) = 0 :=
  (by decide +kernel : ∀ t : Fin grid0.N, _)

theorem idx3 : ∀ t : Fin cfg0.N, win0_3.index t (0 : Fin 2) = t.val ∧ win0_3.index t (1 : Fin 2) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 2) = 0 ∧ win0_8.index t (1 : Fin 2) = 0 :=
  (by decide +kernel : ∀ t : Fin grid0.N, _)

theorem idx9 : ∀ t : Fin cfg0.N, win0_9.index t (0 : Fin 2) = 0 ∧ win0_9.index t (1 : Fin 2) = 0 :=
  (by decide +kernel : ∀ t : Fin grid0.N, _)

theorem idx10 : ∀ t : Fin cfg0.N, win0_10.index t (0 : Fin 2) = 0 ∧ win0_10.index t (1 : Fin 2) = 0 :=
  (by decide +kernel : ∀ t : Fin grid0.N, _)

theorem idx11 : ∀ t : Fin cfg0.N, win0_11.index t (0 : Fin 2) = 0 ∧ win0_11.index t (1 : Fin 2) = 0 :=
  (by decide +kernel : ∀ t : Fin grid0.N, _)

theorem idx12 : ∀ t : Fin cfg0.N, win0_12.index t (0 : Fin 2) = 0 ∧ win0_12.index t (1 : Fin 2) = 0 :=
  (by decide +kernel : ∀ t : Fin grid0.N, _)

theorem idx13 : ∀ t : Fin cfg0.N, win0_13.index t (0 : Fin 2) = 0 ∧ win0_13.index t (1 : Fin 2) = 0 :=
  (by decide +kernel : ∀ t : Fin grid0.N, _)

theorem idx14 : ∀ t : Fin cfg0.N, win0_14.index t (0 : Fin 2) = 0 ∧ win0_14.index t (1 : Fin 2) = 0 :=
  (by decide +kernel : ∀ t : Fin grid0.N, _)

theorem idx15 : ∀ t : Fin cfg0.N, win0_15.index t (0 : Fin 2) = 0 ∧ win0_15.index t (1 : Fin 2) = 0 :=
  (by decide +kernel : ∀ t : Fin grid0.N, _)

theorem idx16 : ∀ t : Fin cfg0.N, win0_16.index t (0 : Fin 2) = 0 ∧ win0_16.index t (1 : Fin 2) = 0 :=
  (by decide +kernel : ∀ t : Fin grid0.N, _)

theorem idx17 : ∀ t : Fin cfg0.N, win0_17.index t (0 : Fin 1) = 0 :=
  (by decide +kernel : ∀ t : Fin grid0.N, _)

theorem idx18 : ∀ t : Fin cfg0.N, win0_18.index t (0 : Fin 1) = 0 :=
  (by decide +kernel : ∀ t : Fin grid0.N, _)

theorem idx19 : ∀ t : Fin cfg0.N, win0_19.index t (0 : Fin 2) = 0 ∧ win0_19.index t (1 : Fin 2) = 0 :=
  (by decide +kernel : ∀ t : Fin grid0.N, _)

theorem idx20 : ∀ t : Fin cfg0.N, win0_20.index t (0 : Fin 2) = 0 ∧ win0_20.index t (1 : Fin 2) = 0 :=
  (by decide +kernel : ∀ t : Fin grid0.N, _)

theorem idx21 : ∀ t : Fin cfg0.N, win0_21.index t (0 : Fin 1) = 0 :=
  (by decide +kernel : ∀ t : Fin grid0.N, _)

theorem idx22 : ∀ t : Fin cfg0.N, win0_22.index t (0 : Fin 1) = 0 :=
  (by decide +kernel : ∀ t : Fin grid0.N, _)

/-! The moving windows: entry (r, k) of the block at point t is entry (64 t + r, k) of the array. -/

theorem in0 (c : Dev nD) (t : Fin cfg0.N) (r : Fin 64) (k : Fin 300) :
    iblk m c 0 t (ix2 r k) = V m c main_arg0 (ix2 (rowOf (ptOf t) r) k) := by
  show V m c main_arg0 (((cfg0.win 0).blk t).view.emb (ix2 r k)) = _
  congr 1; funext a; apply Fin.ext
  obtain ⟨e0, e1⟩ := idx0 t
  match a with
  | ⟨0, _⟩ => show win0_0.index t (0 : Fin 2) * 64 + 1 * r.val = 64 * t.val + r.val; omega
  | ⟨1, _⟩ => show win0_0.index t (1 : Fin 2) * 300 + 1 * k.val = k.val; omega

theorem in1 (c : Dev nD) (t : Fin cfg0.N) (r : Fin 64) (k : Fin 128) :
    iblk m c 1 t (ix2 r k) = V m c main_arg1 (ix2 (rowOf (ptOf t) r) k) := by
  show V m c main_arg1 (((cfg0.win 1).blk t).view.emb (ix2 r k)) = _
  congr 1; funext a; apply Fin.ext
  obtain ⟨e0, e1⟩ := idx1 t
  match a with
  | ⟨0, _⟩ => show win0_1.index t (0 : Fin 2) * 64 + 1 * r.val = 64 * t.val + r.val; omega
  | ⟨1, _⟩ => show win0_1.index t (1 : Fin 2) * 128 + 1 * k.val = k.val; omega

theorem in2 (c : Dev nD) (t : Fin cfg0.N) (r : Fin 64) (p : Fin 256) (f : Fin 128) :
    iblk m c 2 t (ix3 r p f) = V m c main_arg2 (ix3 (rowOf (ptOf t) r) p f) := by
  show V m c main_arg2 (((cfg0.win 2).blk t).view.emb (ix3 r p f)) = _
  congr 1; funext a; apply Fin.ext
  obtain ⟨e0, e1, e2⟩ := idx2 t
  match a with
  | ⟨0, _⟩ => show win0_2.index t (0 : Fin 3) * 64 + 1 * r.val = 64 * t.val + r.val; omega
  | ⟨1, _⟩ => show win0_2.index t (1 : Fin 3) * 256 + 1 * p.val = p.val; omega
  | ⟨2, _⟩ => show win0_2.index t (2 : Fin 3) * 128 + 1 * f.val = f.val; omega

theorem in3 (c : Dev nD) (t : Fin cfg0.N) (r : Fin 64) (k : Fin 512) :
    iblk m c 3 t (ix2 r k) = V m c main_arg3 (ix2 (rowOf (ptOf t) r) k) := by
  show V m c main_arg3 (((cfg0.win 3).blk t).view.emb (ix2 r k)) = _
  congr 1; funext a; apply Fin.ext
  obtain ⟨e0, e1⟩ := idx3 t
  match a with
  | ⟨0, _⟩ => show win0_3.index t (0 : Fin 2) * 64 + 1 * r.val = 64 * t.val + r.val; omega
  | ⟨1, _⟩ => show win0_3.index t (1 : Fin 2) * 512 + 1 * k.val = k.val; omega

theorem in4 (c : Dev nD) (t : Fin cfg0.N) (r : Fin 64) (k : Fin 512) :
    iblk m c 4 t (ix2 r k) = V m c main_arg4 (ix2 (rowOf (ptOf t) r) k) := by
  show V m c main_arg4 (((cfg0.win 4).blk t).view.emb (ix2 r k)) = _
  congr 1; funext a; apply Fin.ext
  obtain ⟨e0, e1⟩ := idx4 t
  match a with
  | ⟨0, _⟩ => show win0_4.index t (0 : Fin 2) * 64 + 1 * r.val = 64 * t.val + r.val; omega
  | ⟨1, _⟩ => show win0_4.index t (1 : Fin 2) * 512 + 1 * k.val = k.val; omega

/-! The resident windows: the block at every point is the whole array. -/

theorem in5 (c : Dev nD) (t : Fin cfg0.N) : iblk m c 5 t = V m c main_arg5 := by
  funext j
  show V m c main_arg5 (((cfg0.win 5).blk t).view.emb j) = _
  congr 1; funext a; apply Fin.ext
  obtain ⟨e0, e1⟩ := idx5 t
  match a with
  | ⟨0, _⟩ => show win0_5.index t (0 : Fin 2) * 128 + 1 * (j 0).val = (j 0).val; omega
  | ⟨1, _⟩ => show win0_5.index t (1 : Fin 2) * 512 + 1 * (j 1).val = (j 1).val; omega

theorem in6 (c : Dev nD) (t : Fin cfg0.N) : iblk m c 6 t = V m c main_arg6 := by
  funext j
  show V m c main_arg6 (((cfg0.win 6).blk t).view.emb j) = _
  congr 1; funext a; apply Fin.ext
  obtain ⟨e0, e1⟩ := idx6 t
  match a with
  | ⟨0, _⟩ => show win0_6.index t (0 : Fin 2) * 128 + 1 * (j 0).val = (j 0).val; omega
  | ⟨1, _⟩ => show win0_6.index t (1 : Fin 2) * 128 + 1 * (j 1).val = (j 1).val; omega

theorem in7 (c : Dev nD) (t : Fin cfg0.N) : iblk m c 7 t = V m c main_arg7 := by
  funext j
  show V m c main_arg7 (((cfg0.win 7).blk t).view.emb j) = _
  congr 1; funext a; apply Fin.ext
  obtain ⟨e0, e1⟩ := idx7 t
  match a with
  | ⟨0, _⟩ => show win0_7.index t (0 : Fin 2) * 128 + 1 * (j 0).val = (j 0).val; omega
  | ⟨1, _⟩ => show win0_7.index t (1 : Fin 2) * 300 + 1 * (j 1).val = (j 1).val; omega

theorem in8 (c : Dev nD) (t : Fin cfg0.N) : iblk m c 8 t = V m c main_arg8 := by
  funext j
  show V m c main_arg8 (((cfg0.win 8).blk t).view.emb j) = _
  congr 1; funext a; apply Fin.ext
  obtain ⟨e0, e1⟩ := idx8 t
  match a with
  | ⟨0, _⟩ => show win0_8.index t (0 : Fin 2) * 128 + 1 * (j 0).val = (j 0).val; omega
  | ⟨1, _⟩ => show win0_8.index t (1 : Fin 2) * 128 + 1 * (j 1).val = (j 1).val; omega

theorem in9 (c : Dev nD) (t : Fin cfg0.N) : iblk m c 9 t = V m c main_arg9 := by
  funext j
  show V m c main_arg9 (((cfg0.win 9).blk t).view.emb j) = _
  congr 1; funext a; apply Fin.ext
  obtain ⟨e0, e1⟩ := idx9 t
  match a with
  | ⟨0, _⟩ => show win0_9.index t (0 : Fin 2) * 512 + 1 * (j 0).val = (j 0).val; omega
  | ⟨1, _⟩ => show win0_9.index t (1 : Fin 2) * 128 + 1 * (j 1).val = (j 1).val; omega

theorem in10 (c : Dev nD) (t : Fin cfg0.N) : iblk m c 10 t = V m c main_arg10 := by
  funext j
  show V m c main_arg10 (((cfg0.win 10).blk t).view.emb j) = _
  congr 1; funext a; apply Fin.ext
  obtain ⟨e0, e1⟩ := idx10 t
  match a with
  | ⟨0, _⟩ => show win0_10.index t (0 : Fin 2) * 512 + 1 * (j 0).val = (j 0).val; omega
  | ⟨1, _⟩ => show win0_10.index t (1 : Fin 2) * 512 + 1 * (j 1).val = (j 1).val; omega

theorem in11 (c : Dev nD) (t : Fin cfg0.N) : iblk m c 11 t = V m c main_arg11 := by
  funext j
  show V m c main_arg11 (((cfg0.win 11).blk t).view.emb j) = _
  congr 1; funext a; apply Fin.ext
  obtain ⟨e0, e1⟩ := idx11 t
  match a with
  | ⟨0, _⟩ => show win0_11.index t (0 : Fin 2) * 1 + 1 * (j 0).val = (j 0).val; omega
  | ⟨1, _⟩ => show win0_11.index t (1 : Fin 2) * 512 + 1 * (j 1).val = (j 1).val; omega

theorem in12 (c : Dev nD) (t : Fin cfg0.N) : iblk m c 12 t = V m c main_arg12 := by
  funext j
  show V m c main_arg12 (((cfg0.win 12).blk t).view.emb j) = _
  congr 1; funext a; apply Fin.ext
  obtain ⟨e0, e1⟩ := idx12 t
  match a with
  | ⟨0, _⟩ => show win0_12.index t (0 : Fin 2) * 128 + 1 * (j 0).val = (j 0).val; omega
  | ⟨1, _⟩ => show win0_12.index t (1 : Fin 2) * 128 + 1 * (j 1).val = (j 1).val; omega

theorem in13 (c : Dev nD) (t : Fin cfg0.N) : iblk m c 13 t = V m c main_arg13 := by
  funext j
  show V m c main_arg13 (((cfg0.win 13).blk t).view.emb j) = _
  congr 1; funext a; apply Fin.ext
  obtain ⟨e0, e1⟩ := idx13 t
  match a with
  | ⟨0, _⟩ => show win0_13.index t (0 : Fin 2) * 128 + 1 * (j 0).val = (j 0).val; omega
  | ⟨1, _⟩ => show win0_13.index t (1 : Fin 2) * 512 + 1 * (j 1).val = (j 1).val; omega

theorem in14 (c : Dev nD) (t : Fin cfg0.N) : iblk m c 14 t = V m c main_arg14 := by
  funext j
  show V m c main_arg14 (((cfg0.win 14).blk t).view.emb j) = _
  congr 1; funext a; apply Fin.ext
  obtain ⟨e0, e1⟩ := idx14 t
  match a with
  | ⟨0, _⟩ => show win0_14.index t (0 : Fin 2) * 128 + 1 * (j 0).val = (j 0).val; omega
  | ⟨1, _⟩ => show win0_14.index t (1 : Fin 2) * 128 + 1 * (j 1).val = (j 1).val; omega

theorem in15 (c : Dev nD) (t : Fin cfg0.N) : iblk m c 15 t = V m c main_arg15 := by
  funext j
  show V m c main_arg15 (((cfg0.win 15).blk t).view.emb j) = _
  congr 1; funext a; apply Fin.ext
  obtain ⟨e0, e1⟩ := idx15 t
  match a with
  | ⟨0, _⟩ => show win0_15.index t (0 : Fin 2) * 1536 + 1 * (j 0).val = (j 0).val; omega
  | ⟨1, _⟩ => show win0_15.index t (1 : Fin 2) * 128 + 1 * (j 1).val = (j 1).val; omega

theorem in16 (c : Dev nD) (t : Fin cfg0.N) : iblk m c 16 t = V m c main_arg16 := by
  funext j
  show V m c main_arg16 (((cfg0.win 16).blk t).view.emb j) = _
  congr 1; funext a; apply Fin.ext
  obtain ⟨e0, e1⟩ := idx16 t
  match a with
  | ⟨0, _⟩ => show win0_16.index t (0 : Fin 2) * 1536 + 1 * (j 0).val = (j 0).val; omega
  | ⟨1, _⟩ => show win0_16.index t (1 : Fin 2) * 512 + 1 * (j 1).val = (j 1).val; omega

theorem in17 (c : Dev nD) (t : Fin cfg0.N) : iblk m c 17 t = V m c main_arg17 := by
  funext j
  show V m c main_arg17 (((cfg0.win 17).blk t).view.emb j) = _
  congr 1; funext a; apply Fin.ext
  have e0 := idx17 t
  match a with
  | ⟨0, _⟩ => show win0_17.index t (0 : Fin 1) * 1536 + 1 * (j 0).val = (j 0).val; omega

theorem in18 (c : Dev nD) (t : Fin cfg0.N) : iblk m c 18 t = V m c main_arg18 := by
  funext j
  show V m c main_arg18 (((cfg0.win 18).blk t).view.emb j) = _
  congr 1; funext a; apply Fin.ext
  have e0 := idx18 t
  match a with
  | ⟨0, _⟩ => show win0_18.index t (0 : Fin 1) * 1536 + 1 * (j 0).val = (j 0).val; omega

theorem in19 (c : Dev nD) (t : Fin cfg0.N) : iblk m c 19 t = V m c main_arg19 := by
  funext j
  show V m c main_arg19 (((cfg0.win 19).blk t).view.emb j) = _
  congr 1; funext a; apply Fin.ext
  obtain ⟨e0, e1⟩ := idx19 t
  match a with
  | ⟨0, _⟩ => show win0_19.index t (0 : Fin 2) * 1536 + 1 * (j 0).val = (j 0).val; omega
  | ⟨1, _⟩ => show win0_19.index t (1 : Fin 2) * 128 + 1 * (j 1).val = (j 1).val; omega

theorem in20 (c : Dev nD) (t : Fin cfg0.N) : iblk m c 20 t = V m c main_arg20 := by
  funext j
  show V m c main_arg20 (((cfg0.win 20).blk t).view.emb j) = _
  congr 1; funext a; apply Fin.ext
  obtain ⟨e0, e1⟩ := idx20 t
  match a with
  | ⟨0, _⟩ => show win0_20.index t (0 : Fin 2) * 1536 + 1 * (j 0).val = (j 0).val; omega
  | ⟨1, _⟩ => show win0_20.index t (1 : Fin 2) * 512 + 1 * (j 1).val = (j 1).val; omega

theorem in21 (c : Dev nD) (t : Fin cfg0.N) : iblk m c 21 t = V m c main_arg21 := by
  funext j
  show V m c main_arg21 (((cfg0.win 21).blk t).view.emb j) = _
  congr 1; funext a; apply Fin.ext
  have e0 := idx21 t
  match a with
  | ⟨0, _⟩ => show win0_21.index t (0 : Fin 1) * 1536 + 1 * (j 0).val = (j 0).val; omega

theorem in22 (c : Dev nD) (t : Fin cfg0.N) : iblk m c 22 t = V m c main_arg22 := by
  funext j
  show V m c main_arg22 (((cfg0.win 22).blk t).view.emb j) = _
  congr 1; funext a; apply Fin.ext
  have e0 := idx22 t
  match a with
  | ⟨0, _⟩ => show win0_22.index t (0 : Fin 1) * 1536 + 1 * (j 0).val = (j 0).val; omega

end Cert.KernelIdeal.Blocks
end
-- ==== Proof.BlocksOut.lean ====
/-
  What the three output arrays hold when the region has run. Each grid point writes back one block of 64 rows
  of each output; that block is the same block of rows of the reference's result computed from the arrays the region
  found (the input blocks are rows 64 t … 64 t + 63 of their arrays, the weights whole). The sixteen blocks tile
  each output array, so each array ends holding the reference's result.
-/
import proofs.«129328_j52226802320074_1_alg».proof.Proof.Compose
import proofs.«129328_j52226802320074_1_alg».proof.Proof.BlocksIn
import proofs.«129328_j52226802320074_1_alg».proof.Proof.Gen.KernelIdeal.Frame
import Idealize.ShloMosaic.Lib.Pipeline.Value

noncomputable section

namespace Cert.KernelIdeal.Blocks

open Idealize.ShloMosaic Idealize.ShloMosaic.ValueIdx Idealize.SL.Sem Cert.Bridge Cert.Bridge.Join Cert.KernelIdeal Cert.KernelIdeal.Gen
open Idealize.ShloMosaic.Pipeline (Dat Cfg Window)
open Cert.ReferenceIdeal.Read (val_main_v49 val_main_v68 val_main_v118)

variable (m : (ℓ : Loc nD τ sig) → Buf (Elt Ideal) ℓ)

/-- The reference's new first hidden state, of the arrays the region finds. -/
abbrev G23 (c : Dev nD) : S1024x512.Idx → Elt Ideal .f32 := val_main_v49 (F := Ideal) (V m c main_arg0) (V m c main_arg1) (V m c main_arg3) (V m c main_arg4) (V m c main_arg5) (V m c main_arg6) (V m c main_arg7) (V m c main_arg8) (V m c main_arg15) (V m c main_arg16) (V m c main_arg17) (V m c main_arg18)

/-- The reference's new second hidden state, of the arrays the region finds. -/
abbrev G24 (c : Dev nD) : S1024x512.Idx → Elt Ideal .f32 := val_main_v118 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22)

/-- The reference's attention weights, of the arrays the region finds, without their trailing unit axis. -/
abbrev G25 (c : Dev nD) : S1024x256.Idx → Elt Ideal .f32 := fun i =>
  val_main_v68 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg15) (V m c main_arg16) (V m c main_arg17) (V m c main_arg18) (ix3 (⟨(i 0).val, (i 0).isLt⟩ : Fin 1024) (⟨(i 1).val, (i 1).isLt⟩ : Fin 256) (0 : Fin 1))

/-! The three statements about one point's output blocks, with every operand a variable: the blocks of the
    batch-indexed inputs related to their arrays row by row, the weights equal to their arrays. -/

theorem out23_at (t : Fin 16) (X0 : FVec Ideal S1024x300 .f32) (X1 : FVec Ideal S1024x128 .f32) (X2 : FVec Ideal S1024x256x128 .f32) (X3 : FVec Ideal S1024x512 .f32) (X4 : FVec Ideal S1024x512 .f32) (X5 : FVec Ideal S128x512 .f32) (X6 : FVec Ideal S128x128 .f32) (X7 : FVec Ideal S128x300 .f32) (X8 : FVec Ideal S128x128 .f32) (X9 : FVec Ideal S512x128 .f32) (X10 : FVec Ideal S512x512 .f32) (X11 : FVec Ideal S1x512 .f32) (X12 : FVec Ideal S128x128 .f32) (X13 : FVec Ideal S128x512 .f32) (X14 : FVec Ideal S128x128 .f32) (X15 : FVec Ideal S1536x128 .f32) (X16 : FVec Ideal S1536x512 .f32) (X17 : FVec Ideal S1536 .f32) (X18 : FVec Ideal S1536 .f32) (X19 : FVec Ideal S1536x128 .f32) (X20 : FVec Ideal S1536x512 .f32) (X21 : FVec Ideal S1536 .f32) (X22 : FVec Ideal S1536 .f32) (x0 : Vec Ideal S64x300 .f32) (x1 : Vec Ideal S64x128 .f32) (x2 : Vec Ideal S64x256x128 .f32) (x3 x4 : Vec Ideal S64x512 .f32) (x5 : Vec Ideal S128x512 .f32) (x6 : Vec Ideal S128x128 .f32) (x7 : Vec Ideal S128x300 .f32) (x8 : Vec Ideal S128x128 .f32) (x9 : Vec Ideal S512x128 .f32) (x10 : Vec Ideal S512x512 .f32) (x11 : Vec Ideal S1x512 .f32) (x12 : Vec Ideal S128x128 .f32) (x13 : Vec Ideal S128x512 .f32) (x14 : Vec Ideal S128x128 .f32) (x15 : Vec Ideal S1536x128 .f32) (x16 : Vec Ideal S1536x512 .f32) (x17 : Vec Ideal S1536 .f32) (x18 : Vec Ideal S1536 .f32) (x19 : Vec Ideal S1536x128 .f32) (x20 : Vec Ideal S1536x512 .f32) (x21 : Vec Ideal S1536 .f32) (x22 : Vec Ideal S1536 .f32)
    (h0 : RowBlk t x0 X0) (h1 : RowBlk t x1 X1) (h3 : RowBlk t x3 X3) (h4 : RowBlk t x4 X4)
    (h2 : ∀ (r : Fin 64) (p : Fin 256) (f : Fin 128), x2 (ix3 r p f) = X2 (ix3 (rowOf t r) p f)) (e5 : x5 = X5) (e6 : x6 = X6) (e7 : x7 = X7) (e8 : x8 = X8) (e9 : x9 = X9) (e10 : x10 = X10) (e11 : x11 = X11) (e12 : x12 = X12) (e13 : x13 = X13) (e14 : x14 = X14) (e15 : x15 = X15) (e16 : x16 = X16) (e17 : x17 = X17) (e18 : x18 = X18) (e19 : x19 = X19) (e20 : x20 = X20) (e21 : x21 = X21) (e22 : x22 = X22) :
    RowBlk t (out0_23 (F := Ideal) x0 x1 x2 x3 x4 x5 x6 x7 x8 x9 x10 x11 x12 x13 x14 x15 x16 x17 x18 x19 x20 x21 x22) (val_main_v49 (F := Ideal) X0 X1 X3 X4 X5 X6 X7 X8 X15 X16 X17 X18) := by
  subst e5; subst e6; subst e7; subst e8; subst e9; subst e10; subst e11; subst e12; subst e13; subst e14; subst e15; subst e16; subst e17; subst e18; subst e19; subst e20; subst e21; subst e22
  exact out23_block t X0 X1 X2 X3 X4 x5 x6 x7 x8 x9 x10 x11 x12 x13 x14 x15 x16 x17 x18 x19 x20 x21 x22 x0 x1 x2 x3 x4 h0 h1 h3 h4 h2

theorem out24_at (t : Fin 16) (X0 : FVec Ideal S1024x300 .f32) (X1 : FVec Ideal S1024x128 .f32) (X2 : FVec Ideal S1024x256x128 .f32) (X3 : FVec Ideal S1024x512 .f32) (X4 : FVec Ideal S1024x512 .f32) (X5 : FVec Ideal S128x512 .f32) (X6 : FVec Ideal S128x128 .f32) (X7 : FVec Ideal S128x300 .f32) (X8 : FVec Ideal S128x128 .f32) (X9 : FVec Ideal S512x128 .f32) (X10 : FVec Ideal S512x512 .f32) (X11 : FVec Ideal S1x512 .f32) (X12 : FVec Ideal S128x128 .f32) (X13 : FVec Ideal S128x512 .f32) (X14 : FVec Ideal S128x128 .f32) (X15 : FVec Ideal S1536x128 .f32) (X16 : FVec Ideal S1536x512 .f32) (X17 : FVec Ideal S1536 .f32) (X18 : FVec Ideal S1536 .f32) (X19 : FVec Ideal S1536x128 .f32) (X20 : FVec Ideal S1536x512 .f32) (X21 : FVec Ideal S1536 .f32) (X22 : FVec Ideal S1536 .f32) (x0 : Vec Ideal S64x300 .f32) (x1 : Vec Ideal S64x128 .f32) (x2 : Vec Ideal S64x256x128 .f32) (x3 x4 : Vec Ideal S64x512 .f32) (x5 : Vec Ideal S128x512 .f32) (x6 : Vec Ideal S128x128 .f32) (x7 : Vec Ideal S128x300 .f32) (x8 : Vec Ideal S128x128 .f32) (x9 : Vec Ideal S512x128 .f32) (x10 : Vec Ideal S512x512 .f32) (x11 : Vec Ideal S1x512 .f32) (x12 : Vec Ideal S128x128 .f32) (x13 : Vec Ideal S128x512 .f32) (x14 : Vec Ideal S128x128 .f32) (x15 : Vec Ideal S1536x128 .f32) (x16 : Vec Ideal S1536x512 .f32) (x17 : Vec Ideal S1536 .f32) (x18 : Vec Ideal S1536 .f32) (x19 : Vec Ideal S1536x128 .f32) (x20 : Vec Ideal S1536x512 .f32) (x21 : Vec Ideal S1536 .f32) (x22 : Vec Ideal S1536 .f32)
    (h0 : RowBlk t x0 X0) (h1 : RowBlk t x1 X1) (h3 : RowBlk t x3 X3) (h4 : RowBlk t x4 X4)
    (h2 : ∀ (r : Fin 64) (p : Fin 256) (f : Fin 128), x2 (ix3 r p f) = X2 (ix3 (rowOf t r) p f)) (e5 : x5 = X5) (e6 : x6 = X6) (e7 : x7 = X7) (e8 : x8 = X8) (e9 : x9 = X9) (e10 : x10 = X10) (e11 : x11 = X11) (e12 : x12 = X12) (e13 : x13 = X13) (e14 : x14 = X14) (e15 : x15 = X15) (e16 : x16 = X16) (e17 : x17 = X17) (e18 : x18 = X18) (e19 : x19 = X19) (e20 : x20 = X20) (e21 : x21 = X21) (e22 : x22 = X22) :
    RowBlk t (out0_24 (F := Ideal) x0 x1 x2 x3 x4 x5 x6 x7 x8 x9 x10 x11 x12 x13 x14 x15 x16 x17 x18 x19 x20 x21 x22) (val_main_v118 (F := Ideal) X0 X1 X2 X3 X4 X5 X6 X7 X8 X9 X10 X11 X12 X13 X14 X15 X16 X17 X18 X19 X20 X21 X22) := by
  subst e5; subst e6; subst e7; subst e8; subst e9; subst e10; subst e11; subst e12; subst e13; subst e14; subst e15; subst e16; subst e17; subst e18; subst e19; subst e20; subst e21; subst e22
  exact out24_block t X0 X1 X2 X3 X4 x5 x6 x7 x8 x9 x10 x11 x12 x13 x14 x15 x16 x17 x18 x19 x20 x21 x22 x0 x1 x2 x3 x4 h0 h1 h3 h4 h2

theorem out25_at (t : Fin 16) (X0 : FVec Ideal S1024x300 .f32) (X1 : FVec Ideal S1024x128 .f32) (X2 : FVec Ideal S1024x256x128 .f32) (X3 : FVec Ideal S1024x512 .f32) (X4 : FVec Ideal S1024x512 .f32) (X5 : FVec Ideal S128x512 .f32) (X6 : FVec Ideal S128x128 .f32) (X7 : FVec Ideal S128x300 .f32) (X8 : FVec Ideal S128x128 .f32) (X9 : FVec Ideal S512x128 .f32) (X10 : FVec Ideal S512x512 .f32) (X11 : FVec Ideal S1x512 .f32) (X12 : FVec Ideal S128x128 .f32) (X13 : FVec Ideal S128x512 .f32) (X14 : FVec Ideal S128x128 .f32) (X15 : FVec Ideal S1536x128 .f32) (X16 : FVec Ideal S1536x512 .f32) (X17 : FVec Ideal S1536 .f32) (X18 : FVec Ideal S1536 .f32) (X19 : FVec Ideal S1536x128 .f32) (X20 : FVec Ideal S1536x512 .f32) (X21 : FVec Ideal S1536 .f32) (X22 : FVec Ideal S1536 .f32) (x0 : Vec Ideal S64x300 .f32) (x1 : Vec Ideal S64x128 .f32) (x2 : Vec Ideal S64x256x128 .f32) (x3 x4 : Vec Ideal S64x512 .f32) (x5 : Vec Ideal S128x512 .f32) (x6 : Vec Ideal S128x128 .f32) (x7 : Vec Ideal S128x300 .f32) (x8 : Vec Ideal S128x128 .f32) (x9 : Vec Ideal S512x128 .f32) (x10 : Vec Ideal S512x512 .f32) (x11 : Vec Ideal S1x512 .f32) (x12 : Vec Ideal S128x128 .f32) (x13 : Vec Ideal S128x512 .f32) (x14 : Vec Ideal S128x128 .f32) (x15 : Vec Ideal S1536x128 .f32) (x16 : Vec Ideal S1536x512 .f32) (x17 : Vec Ideal S1536 .f32) (x18 : Vec Ideal S1536 .f32) (x19 : Vec Ideal S1536x128 .f32) (x20 : Vec Ideal S1536x512 .f32) (x21 : Vec Ideal S1536 .f32) (x22 : Vec Ideal S1536 .f32)
    (h0 : RowBlk t x0 X0) (h1 : RowBlk t x1 X1) (h3 : RowBlk t x3 X3) (h4 : RowBlk t x4 X4)
    (h2 : ∀ (r : Fin 64) (p : Fin 256) (f : Fin 128), x2 (ix3 r p f) = X2 (ix3 (rowOf t r) p f)) (e5 : x5 = X5) (e6 : x6 = X6) (e7 : x7 = X7) (e8 : x8 = X8) (e9 : x9 = X9) (e10 : x10 = X10) (e11 : x11 = X11) (e12 : x12 = X12) (e13 : x13 = X13) (e14 : x14 = X14) (e15 : x15 = X15) (e16 : x16 = X16) (e17 : x17 = X17) (e18 : x18 = X18) (e19 : x19 = X19) (e20 : x20 = X20) (e21 : x21 = X21) (e22 : x22 = X22) (r : Fin 64) (p : Fin 256) :
    out0_25 (F := Ideal) x0 x1 x2 x3 x4 x5 x6 x7 x8 x9 x10 x11 x12 x13 x14 x15 x16 x17 x18 x19 x20 x21 x22 (ix2 r p) = (val_main_v68 (F := Ideal) X0 X1 X2 X3 X4 X5 X6 X7 X8 X9 X10 X11 X15 X16 X17 X18) (ix3 (rowOf t r) p (0 : Fin 1)) := by
  subst e5; subst e6; subst e7; subst e8; subst e9; subst e10; subst e11; subst e12; subst e13; subst e14; subst e15; subst e16; subst e17; subst e18; subst e19; subst e20; subst e21; subst e22
  exact out25_block t X0 X1 X2 X3 X4 x5 x6 x7 x8 x9 x10 x11 x12 x13 x14 x15 x16 x17 x18 x19 x20 x21 x22 x0 x1 x2 x3 x4 h0 h1 h3 h4 h2 r p

/-! What each point writes back. -/

theorem idx23 : ∀ t : Fin cfg0.N, win0_23.index t (0 : Fin 2) = t.val ∧ win0_23.index t (1 : Fin 2) = 0 :=
  (by decide +kernel : ∀ t : Fin grid0.N, _)
theorem idx24 : ∀ t : Fin cfg0.N, win0_24.index t (0 : Fin 2) = t.val ∧ win0_24.index t (1 : Fin 2) = 0 :=
  (by decide +kernel : ∀ t : Fin grid0.N, _)
theorem idx25 : ∀ t : Fin cfg0.N, win0_25.index t (0 : Fin 2) = t.val ∧ win0_25.index t (1 : Fin 2) = 0 :=
  (by decide +kernel : ∀ t : Fin grid0.N, _)

theorem flushed23_eq (c : Dev nD) (t : Fin cfg0.N) :
    (dats m 0 c).flushed 23 t = ((cfg0.win 23).blk t).view.read (Elt Ideal) (G23 m c) := by
  show (cfg0.win 23).cut (grid0.coords t) ((dats m 0 c).after 23 t) = _
  rw [after0_23]
  funext j
  obtain ⟨r, q, rfl⟩ : ∃ (r : Fin 64) (q : Fin 512), j = ix2 r q := ⟨j 0, j 1, eq_ix2 j⟩
  refine (out23_at (ptOf t) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    (in0 m c t) (in1 m c t) (in3 m c t) (in4 m c t) (in2 m c t) (in5 m c t) (in6 m c t) (in7 m c t) (in8 m c t) (in9 m c t) (in10 m c t) (in11 m c t) (in12 m c t) (in13 m c t) (in14 m c t) (in15 m c t) (in16 m c t) (in17 m c t) (in18 m c t) (in19 m c t) (in20 m c t) (in21 m c t) (in22 m c t) r q).trans ?_
  show G23 m c _ = G23 m c (((cfg0.win 23).blk t).view.emb (ix2 r q))
  congr 1; funext a; apply Fin.ext
  obtain ⟨e0, e1⟩ := idx23 t
  match a with
  | ⟨0, _⟩ => show 64 * t.val + r.val = win0_23.index t (0 : Fin 2) * 64 + 1 * r.val; omega
  | ⟨1, _⟩ => show q.val = win0_23.index t (1 : Fin 2) * 512 + 1 * q.val; omega

theorem flushed24_eq (c : Dev nD) (t : Fin cfg0.N) :
    (dats m 0 c).flushed 24 t = ((cfg0.win 24).blk t).view.read (Elt Ideal) (G24 m c) := by
  show (cfg0.win 24).cut (grid0.coords t) ((dats m 0 c).after 24 t) = _
  rw [after0_24]
  funext j
  obtain ⟨r, q, rfl⟩ : ∃ (r : Fin 64) (q : Fin 512), j = ix2 r q := ⟨j 0, j 1, eq_ix2 j⟩
  refine (out24_at (ptOf t) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    (in0 m c t) (in1 m c t) (in3 m c t) (in4 m c t) (in2 m c t) (in5 m c t) (in6 m c t) (in7 m c t) (in8 m c t) (in9 m c t) (in10 m c t) (in11 m c t) (in12 m c t) (in13 m c t) (in14 m c t) (in15 m c t) (in16 m c t) (in17 m c t) (in18 m c t) (in19 m c t) (in20 m c t) (in21 m c t) (in22 m c t) r q).trans ?_
  show G24 m c _ = G24 m c (((cfg0.win 24).blk t).view.emb (ix2 r q))
  congr 1; funext a; apply Fin.ext
  obtain ⟨e0, e1⟩ := idx24 t
  match a with
  | ⟨0, _⟩ => show 64 * t.val + r.val = win0_24.index t (0 : Fin 2) * 64 + 1 * r.val; omega
  | ⟨1, _⟩ => show q.val = win0_24.index t (1 : Fin 2) * 512 + 1 * q.val; omega

theorem flushed25_eq (c : Dev nD) (t : Fin cfg0.N) :
    (dats m 0 c).flushed 25 t = ((cfg0.win 25).blk t).view.read (Elt Ideal) (G25 m c) := by
  show (cfg0.win 25).cut (grid0.coords t) ((dats m 0 c).after 25 t) = _
  rw [after0_25]
  funext j
  obtain ⟨r, p, rfl⟩ : ∃ (r : Fin 64) (p : Fin 256), j = ix2 r p := ⟨j 0, j 1, eq_ix2 j⟩
  refine (out25_at (ptOf t) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    (in0 m c t) (in1 m c t) (in3 m c t) (in4 m c t) (in2 m c t) (in5 m c t) (in6 m c t) (in7 m c t) (in8 m c t) (in9 m c t) (in10 m c t) (in11 m c t) (in12 m c t) (in13 m c t) (in14 m c t) (in15 m c t) (in16 m c t) (in17 m c t) (in18 m c t) (in19 m c t) (in20 m c t) (in21 m c t) (in22 m c t) r p).trans ?_
  show _ = G25 m c (((cfg0.win 25).blk t).view.emb (ix2 r p))
  show val_main_v68 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg15) (V m c main_arg16) (V m c main_arg17) (V m c main_arg18) _ = val_main_v68 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg15) (V m c main_arg16) (V m c main_arg17) (V m c main_arg18) _
  congr 1; funext a; apply Fin.ext
  obtain ⟨e0, e1⟩ := idx25 t
  match a with
  | ⟨0, _⟩ => show 64 * t.val + r.val = win0_25.index t (0 : Fin 2) * 64 + 1 * r.val; omega
  | ⟨1, _⟩ => show p.val = win0_25.index t (1 : Fin 2) * 256 + 1 * p.val; omega
  | ⟨2, _⟩ => rfl

end Cert.KernelIdeal.Blocks

end
-- ==== Proof.BlocksFinal.lean ====
/-
  The three output arrays when every point has run. Each point writes back rows 64 t … 64 t + 63 of each
  output, all of its columns; row i lies in the block of point i / 64, so the sixteen blocks cover each
  array, and the array ends holding the function its blocks are cut from.
-/
import proofs.«129328_j52226802320074_1_alg».proof.Proof.BlocksOut
import Idealize.ShloMosaic.Lib.Pipeline.Value

noncomputable section

namespace Cert.KernelIdeal.Blocks

open Idealize.ShloMosaic Idealize.ShloMosaic.ValueIdx Idealize.SL.Sem Cert.Bridge Cert.Bridge.Join Cert.KernelIdeal Cert.KernelIdeal.Gen
open Idealize.ShloMosaic.Pipeline (Dat Cfg Window)
open Cert.ReferenceIdeal.Read (val_main_v49 val_main_v68 val_main_v118)

variable (m : (ℓ : Loc nD τ sig) → Buf (Elt Ideal) ℓ)

/-! ## The first new state (window 23) -/

/-- An index of the array is in point `t`'s block iff each coordinate is in the block's range on its axis. -/
theorem mem_rowBlock23 (t : Fin cfg0.N) (i : S1024x512.Idx) :
    i ∈ ((cfg0.win 23).blk t).view.set ↔ ∀ a : Fin 2, win0_23.index t a * S64x512.size a ≤ (i a).val ∧ (i a).val < win0_23.index t a * S64x512.size a + S64x512.size a := by
  show i ∈ ((View.whole main_v0_0).slice (win0_23.rect t)).set ↔ _
  rw [View.set_slice_whole, Rect.mem_set_unit]
  exact Iff.rfl

/-- Every index of the array lies in the block of the point its row falls in, and that point writes back. -/
theorem rows_cover23 (i : S1024x512.Idx) :
    ∃ t : Fin cfg0.N, (cfg0.win 23).flush t = true ∧ i ∈ ((cfg0.win 23).blk t).view.set := by
  have hi0 : (i 0).val < 1024 := (i 0).isLt
  have hi1 : (i 1).val < 512 := (i 1).isLt
  have hN : cfg0.N = 16 := N_0
  obtain ⟨t, ht⟩ : ∃ t : Fin cfg0.N, t.val = (i 0).val / 64 := ⟨⟨(i 0).val / 64, by omega⟩, rfl⟩
  obtain ⟨e0, e1⟩ := idx23 t
  refine ⟨t, flush0_23 t, ?_⟩
  rw [mem_rowBlock23]
  intro a
  match a with
  | ⟨0, _⟩ => show win0_23.index t (0 : Fin 2) * 64 ≤ (i 0).val ∧ (i 0).val < win0_23.index t (0 : Fin 2) * 64 + 64; omega
  | ⟨1, _⟩ => show win0_23.index t (1 : Fin 2) * 512 ≤ (i 1).val ∧ (i 1).val < win0_23.index t (1 : Fin 2) * 512 + 512; omega

/-- The array after the run is the reference's new first state. -/
theorem final23 (c : Dev nD) : (dats m 0 c).arrAt 23 cfg0.N = G23 m c :=
  (dats m 0 c).arrAt_eq_of_cover 23 (G23 m c) (fun t _ => flushed23_eq m c t) rows_cover23

/-! ## The second new state (window 24) -/

/-- An index of the array is in point `t`'s block iff each coordinate is in the block's range on its axis. -/
theorem mem_rowBlock24 (t : Fin cfg0.N) (i : S1024x512.Idx) :
    i ∈ ((cfg0.win 24).blk t).view.set ↔ ∀ a : Fin 2, win0_24.index t a * S64x512.size a ≤ (i a).val ∧ (i a).val < win0_24.index t a * S64x512.size a + S64x512.size a := by
  show i ∈ ((View.whole main_v0_1).slice (win0_24.rect t)).set ↔ _
  rw [View.set_slice_whole, Rect.mem_set_unit]
  exact Iff.rfl

/-- Every index of the array lies in the block of the point its row falls in, and that point writes back. -/
theorem rows_cover24 (i : S1024x512.Idx) :
    ∃ t : Fin cfg0.N, (cfg0.win 24).flush t = true ∧ i ∈ ((cfg0.win 24).blk t).view.set := by
  have hi0 : (i 0).val < 1024 := (i 0).isLt
  have hi1 : (i 1).val < 512 := (i 1).isLt
  have hN : cfg0.N = 16 := N_0
  obtain ⟨t, ht⟩ : ∃ t : Fin cfg0.N, t.val = (i 0).val / 64 := ⟨⟨(i 0).val / 64, by omega⟩, rfl⟩
  obtain ⟨e0, e1⟩ := idx24 t
  refine ⟨t, flush0_24 t, ?_⟩
  rw [mem_rowBlock24]
  intro a
  match a with
  | ⟨0, _⟩ => show win0_24.index t (0 : Fin 2) * 64 ≤ (i 0).val ∧ (i 0).val < win0_24.index t (0 : Fin 2) * 64 + 64; omega
  | ⟨1, _⟩ => show win0_24.index t (1 : Fin 2) * 512 ≤ (i 1).val ∧ (i 1).val < win0_24.index t (1 : Fin 2) * 512 + 512; omega

/-- The array after the run is the reference's new second state. -/
theorem final24 (c : Dev nD) : (dats m 0 c).arrAt 24 cfg0.N = G24 m c :=
  (dats m 0 c).arrAt_eq_of_cover 24 (G24 m c) (fun t _ => flushed24_eq m c t) rows_cover24

/-! ## The attention weights (window 25) -/

/-- An index of the array is in point `t`'s block iff each coordinate is in the block's range on its axis. -/
theorem mem_rowBlock25 (t : Fin cfg0.N) (i : S1024x256.Idx) :
    i ∈ ((cfg0.win 25).blk t).view.set ↔ ∀ a : Fin 2, win0_25.index t a * S64x256.size a ≤ (i a).val ∧ (i a).val < win0_25.index t a * S64x256.size a + S64x256.size a := by
  show i ∈ ((View.whole main_v0_2).slice (win0_25.rect t)).set ↔ _
  rw [View.set_slice_whole, Rect.mem_set_unit]
  exact Iff.rfl

/-- Every index of the array lies in the block of the point its row falls in, and that point writes back. -/
theorem rows_cover25 (i : S1024x256.Idx) :
    ∃ t : Fin cfg0.N, (cfg0.win 25).flush t = true ∧ i ∈ ((cfg0.win 25).blk t).view.set := by
  have hi0 : (i 0).val < 1024 := (i 0).isLt
  have hi1 : (i 1).val < 256 := (i 1).isLt
  have hN : cfg0.N = 16 := N_0
  obtain ⟨t, ht⟩ : ∃ t : Fin cfg0.N, t.val = (i 0).val / 64 := ⟨⟨(i 0).val / 64, by omega⟩, rfl⟩
  obtain ⟨e0, e1⟩ := idx25 t
  refine ⟨t, flush0_25 t, ?_⟩
  rw [mem_rowBlock25]
  intro a
  match a with
  | ⟨0, _⟩ => show win0_25.index t (0 : Fin 2) * 64 ≤ (i 0).val ∧ (i 0).val < win0_25.index t (0 : Fin 2) * 64 + 64; omega
  | ⟨1, _⟩ => show win0_25.index t (1 : Fin 2) * 256 ≤ (i 1).val ∧ (i 1).val < win0_25.index t (1 : Fin 2) * 256 + 256; omega

/-- The array after the run is the reference's attention weights. -/
theorem final25 (c : Dev nD) : (dats m 0 c).arrAt 25 cfg0.N = G25 m c :=
  (dats m 0 c).arrAt_eq_of_cover 25 (G25 m c) (fun t _ => flushed25_eq m c t) rows_cover25

end Cert.KernelIdeal.Blocks

end
-- ==== Proof.Assemble.lean ====
/-
  The claims, assembled. The two programs compute the same three results from the same arguments: the
  kernel's output arrays end holding, block of rows by block of rows, the reference's new hidden states and
  attention weights (the weights gaining a trailing axis of length one on the host); the reference's run
  gives its own results as the same functions of its arguments. Both leave their arguments unchanged.
-/
import proofs.«129328_j52226802320074_1_alg».proof.Defs
import proofs.«129328_j52226802320074_1_alg».proof.Proof.Gen.Kernel.Frame
import proofs.«129328_j52226802320074_1_alg».proof.Proof.Gen.Pre_finite_inputs
import proofs.«129328_j52226802320074_1_alg».proof.Proof.Gen.KernelIdeal.Frame
import proofs.«129328_j52226802320074_1_alg».proof.Proof.Gen.ReferenceIdeal.Run
import proofs.«129328_j52226802320074_1_alg».proof.Proof.Gen.ReferenceIdeal.Read
import proofs.«129328_j52226802320074_1_alg».proof.Proof.BlocksRun
import proofs.«129328_j52226802320074_1_alg».proof.Proof.BlocksFinal
import Idealize.ShloMosaic.Lib.Pipeline.Value

noncomputable section

namespace Cert.KernelIdeal.Blocks

open Idealize.ShloMosaic Idealize.ShloMosaic.ValueIdx Idealize.SL.Sem Cert.Bridge Cert.KernelIdeal Cert.KernelIdeal.Gen
open Idealize.ShloMosaic.Pipeline (Dat Cfg Window)
open Cert.ReferenceIdeal.Read (val_main_v49 val_main_v68 val_main_v118)

variable (m : (ℓ : Loc nD τ sig) → Buf (Elt Ideal) ℓ) (ρ : Dev nD → PrngReg)

/-- The attention weights with a trailing axis of length one appended are the reference's weights. -/
theorem weights3 (c : Dev nD) :
    broadcastInDim S1024x256x1 ![0, 1] bcast_S1024x256_S1024x256x1_0_1 (G25 m c)
      = val_main_v68 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg15) (V m c main_arg16) (V m c main_arg17) (V m c main_arg18) := by
  funext i
  refine (broadcastInDim_apply _ bcast_S1024x256_S1024x256x1_0_1 (G25 m c) i
    (fun a => match a with
      | ⟨0, _⟩ => ⟨(i 0).val, (i 0).isLt⟩
      | ⟨1, _⟩ => ⟨(i 1).val, (i 1).isLt⟩)
    (fun a => match a with
      | ⟨0, _⟩ => by show (i 0).val = if (1024 : Nat) = 1 then 0 else (i 0).val; rw [if_neg (by decide)]
      | ⟨1, _⟩ => by show (i 1).val = if (256 : Nat) = 1 then 0 else (i 1).val; rw [if_neg (by decide)])).trans ?_
  show val_main_v68 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg15) (V m c main_arg16) (V m c main_arg17) (V m c main_arg18) _ = val_main_v68 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg15) (V m c main_arg16) (V m c main_arg17) (V m c main_arg18) i
  congr 1; funext a; apply Fin.ext
  match a with
  | ⟨0, _⟩ => rfl
  | ⟨1, _⟩ => rfl
  | ⟨2, _⟩ => have h : (i 2).val < 1 := (i 2).isLt; show 0 = (i 2).val; omega

set_option maxHeartbeats 4000000 in
/-- Every run of the idealized kernel ends with its three results at the reference's functions of the arguments, and
    the arguments unchanged. -/
theorem kernel_run : θ_run defs (onTc (τ := τ) (main (F := Ideal))) ⟨m, fun _ => 0, ρ⟩ (fun r => ∀ c : Dev nD,
      r.2.mem ((c.tc : Thread nD τ).loc main_v0_0) = G23 m c
      ∧ r.2.mem ((c.tc : Thread nD τ).loc main_v0_1) = G24 m c
      ∧ r.2.mem ((c.tc : Thread nD τ).loc main_v1) = val_main_v68 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg15) (V m c main_arg16) (V m c main_arg17) (V m c main_arg18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨((h c).1 23).trans (final23 m c), ((h c).1 24).trans (final24 m c),
      (((h c).2 main_v1 main_v1_rest).trans (tail_main_v1 m c)).trans ((congrArg _ (final25 m c)).trans (weights3 m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c))),
      ((h c).1 15).trans (((dats m 0 c).arrAt_in 15 rfl _).trans ((A_eq m c 15).trans (V_main_arg15 m c))),
      ((h c).1 16).trans (((dats m 0 c).arrAt_in 16 rfl _).trans ((A_eq m c 16).trans (V_main_arg16 m c))),
      ((h c).1 17).trans (((dats m 0 c).arrAt_in 17 rfl _).trans ((A_eq m c 17).trans (V_main_arg17 m c))),
      ((h c).1 18).trans (((dats m 0 c).arrAt_in 18 rfl _).trans ((A_eq m c 18).trans (V_main_arg18 m c))),
      ((h c).1 19).trans (((dats m 0 c).arrAt_in 19 rfl _).trans ((A_eq m c 19).trans (V_main_arg19 m c))),
      ((h c).1 20).trans (((dats m 0 c).arrAt_in 20 rfl _).trans ((A_eq m c 20).trans (V_main_arg20 m c))),
      ((h c).1 21).trans (((dats m 0 c).arrAt_in 21 rfl _).trans ((A_eq m c 21).trans (V_main_arg21 m c))),
      ((h c).1 22).trans (((dats m 0 c).arrAt_in 22 rfl _).trans ((A_eq m c 22).trans (V_main_arg22 m c)))⟩)
    (run_main m ρ)

end Cert.KernelIdeal.Blocks

namespace Cert.Proof.Parts

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- From arguments that agree, the idealized kernel and the idealized reference end with equal results. -/
theorem algebraic : Cert.algebraic_KernelIdeal_ReferenceIdeal := by
  intro m ρ m' ρ' _ hagree
  refine ⟨fun c => Cert.KernelIdeal.Blocks.G23 m c, fun c => Cert.KernelIdeal.Blocks.G24 m c,
    fun c => Cert.ReferenceIdeal.Read.val_main_v68 (F := Ideal) (Cert.KernelIdeal.Gen.V m c Cert.KernelIdeal.main_arg0) (Cert.KernelIdeal.Gen.V m c Cert.KernelIdeal.main_arg1) (Cert.KernelIdeal.Gen.V m c Cert.KernelIdeal.main_arg2) (Cert.KernelIdeal.Gen.V m c Cert.KernelIdeal.main_arg3) (Cert.KernelIdeal.Gen.V m c Cert.KernelIdeal.main_arg4) (Cert.KernelIdeal.Gen.V m c Cert.KernelIdeal.main_arg5) (Cert.KernelIdeal.Gen.V m c Cert.KernelIdeal.main_arg6) (Cert.KernelIdeal.Gen.V m c Cert.KernelIdeal.main_arg7) (Cert.KernelIdeal.Gen.V m c Cert.KernelIdeal.main_arg8) (Cert.KernelIdeal.Gen.V m c Cert.KernelIdeal.main_arg9) (Cert.KernelIdeal.Gen.V m c Cert.KernelIdeal.main_arg10) (Cert.KernelIdeal.Gen.V m c Cert.KernelIdeal.main_arg11) (Cert.KernelIdeal.Gen.V m c Cert.KernelIdeal.main_arg15) (Cert.KernelIdeal.Gen.V m c Cert.KernelIdeal.main_arg16) (Cert.KernelIdeal.Gen.V m c Cert.KernelIdeal.main_arg17) (Cert.KernelIdeal.Gen.V m c Cert.KernelIdeal.main_arg18),
    Cert.KernelIdeal.Blocks.kernel_run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13, a14, a15, a16, a17, a18, a19, a20, a21, a22⟩ := hagree c
  refine ⟨(h c).1.trans ?_, (h c).2.1.trans ?_, (h c).2.2.1.trans ?_, (h c).2.2.2⟩
  · rw [Cert.ReferenceIdeal.Read.val_main_v49_eq, a0, a1, a3, a4, a5, a6, a7, a8, a15, a16, a17, a18]; rfl
  · rw [Cert.ReferenceIdeal.Read.val_main_v118_eq, a0, a1, a2, a3, a4, a5, a6, a7, a8, a9, a10, a11, a12, a13, a14, a15, a16, a17, a18, a19, a20, a21, a22]; rfl
  · rw [Cert.ReferenceIdeal.Read.val_main_v68_eq, a0, a1, a2, a3, a4, a5, a6, a7, a8, a9, a10, a11, a15, a16, a17, a18]; rfl

end Cert.Proof.Parts

end
-- ==== Proof.lean ====
/-
  The certificate's claim: the three frames, the (empty) idealization ledger, and the equality of the
  idealized kernel's and the idealized reference's results, over the witnesses of the programs' stated facts.
-/
import proofs.«129328_j52226802320074_1_alg».proof.Defs
import proofs.«129328_j52226802320074_1_alg».proof.Proof.Gen.Kernel
import proofs.«129328_j52226802320074_1_alg».proof.Proof.Gen.KernelIdeal
import proofs.«129328_j52226802320074_1_alg».proof.Proof.Gen.ReferenceIdeal
import proofs.«129328_j52226802320074_1_alg».proof.Proof.Gen.Pre_finite_inputs
import proofs.«129328_j52226802320074_1_alg».proof.Proof.Assemble

noncomputable section

namespace Cert.Proof

theorem claim : Cert.Claim := ⟨Cert.Kernel.Gen.facts, Cert.KernelIdeal.Gen.facts, Cert.ReferenceIdeal.Gen.facts, Cert.Pre_finite_inputs.Gen.facts,
  Cert.Proof.Parts.frame_k, Cert.Proof.Parts.frame_ki, Cert.Proof.Parts.frame_ri, trivial, Cert.Proof.Parts.algebraic⟩

end Cert.Proof

end
